-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v86)) (v2 : (c : Dev Cert.KernelIdeal.nD) → Buf (Elt Ideal) ((c.tc : Thread Cert.KernelIdeal.nD Cert.KernelIdeal.τ).loc Cert.KernelIdeal.main_v74)) (v3 : (c : Dev Cert.KernelIdeal.nD) → Buf (Elt Ideal) ((c.tc : Thread Cert.KernelIdeal.nD Cert.KernelIdeal.τ).loc Cert.KernelIdeal.main_v103)) (v4 : (c : Dev Cert.KernelIdeal.nD) → Buf (Elt Ideal) ((c.tc : Thread Cert.KernelIdeal.nD Cert.KernelIdeal.τ).loc Cert.KernelIdeal.main_arg8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_v74) = v2 c
          ∧ r.2.mem ((c.tc : Thread Cert.KernelIdeal.nD Cert.KernelIdeal.τ).loc Cert.KernelIdeal.main_v103) = v3 c
          ∧ r.2.mem ((c.tc : Thread Cert.KernelIdeal.nD Cert.KernelIdeal.τ).loc Cert.KernelIdeal.main_arg8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_v159) = v3 c
          ∧ r.2.mem ((c.tc : Thread Cert.ReferenceIdeal.nD Cert.ReferenceIdeal.τ).loc Cert.ReferenceIdeal.main_arg8) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x2000 : Shape := ⟨2, ![5000, 2000]⟩
abbrev S2x80000 : Shape := ⟨2, ![2, 80000]⟩
abbrev S2000x64 : Shape := ⟨2, ![2000, 64]⟩
abbrev S64 : Shape := ⟨1, ![64]⟩
abbrev S64x32 : Shape := ⟨2, ![64, 32]⟩
abbrev S32 : Shape := ⟨1, ![32]⟩
abbrev S5000x20000 : Shape := ⟨2, ![5000, 20000]⟩
abbrev S20000x20 : Shape := ⟨2, ![20000, 20]⟩
abbrev S20x32 : Shape := ⟨2, ![20, 32]⟩
abbrev S32x256 : Shape := ⟨2, ![32, 256]⟩
abbrev S256 : Shape := ⟨1, ![256]⟩
abbrev S256x2000 : Shape := ⟨2, ![256, 2000]⟩
abbrev S2000 : Shape := ⟨1, ![2000]⟩
abbrev S_ : Shape := ⟨0, ![]⟩

class Facts : Prop where
  bcast_S_S5000x2000 : S_.BroadcastsInDim S5000x2000 (![] : Fin 0 → Fin S5000x2000.rank)
  reducesTo_S5000x2000_S_d0_1 : S5000x2000.ReducesTo [0, 1] S_
  h_S_ : 0 < S_.numel
  bcast_S_S2000x64 : S_.BroadcastsInDim S2000x64 (![] : Fin 0 → Fin S2000x64.rank)
  reducesTo_S2000x64_S_d0_1 : S2000x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S5000x20000 : S_.BroadcastsInDim S5000x20000 (![] : Fin 0 → Fin S5000x20000.rank)
  reducesTo_S5000x20000_S_d0_1 : S5000x20000.ReducesTo [0, 1] S_
  bcast_S_S20000x20 : S_.BroadcastsInDim S20000x20 (![] : Fin 0 → Fin S20000x20.rank)
  reducesTo_S20000x20_S_d0_1 : S20000x20.ReducesTo [0, 1] S_
  bcast_S_S20x32 : S_.BroadcastsInDim S20x32 (![] : Fin 0 → Fin S20x32.rank)
  reducesTo_S20x32_S_d0_1 : S20x32.ReducesTo [0, 1] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S256x2000 : S_.BroadcastsInDim S256x2000 (![] : Fin 0 → Fin S256x2000.rank)
  reducesTo_S256x2000_S_d0_1 : S256x2000.ReducesTo [0, 1] S_
  bcast_S_S2000 : S_.BroadcastsInDim S2000 (![] : Fin 0 → Fin S2000.rank)
  reducesTo_S2000_S_d0 : S2000.ReducesTo [0] S_
  bcast_S_S2x80000 : S_.BroadcastsInDim S2x80000 (![] : Fin 0 → Fin S2x80000.rank)
  reducesTo_S2x80000_S_d0_1 : S2x80000.ReducesTo [0, 1] S_

variable [Facts]

def fn_part3 {F : FTy → Type} [FloatOps F] (main_arg1 : IVec S2x80000 32) (main_arg12 : FVec F S2000 .f32) (main_v48 : IVec S_ 1) (main_v49 : FVec F S256x2000 .f32) (main_v50 : FVec F S256x2000 .f32) : IVec S_ 1 :=
  let main_v51 : IVec S256x2000 1 := cmpf .olt main_v49 main_v50
  let main_c_19 : IVec S_ 1 := constantI S_ 1 1#1
  let main_v52 : IVec S_ 1 := (fun x v => Host.reduce IntOp.andi x v reducesTo_S256x2000_S_d0_1 h_S_) main_v51 main_c_19
  let main_v53 : IVec S_ 1 := andi main_v48 main_v52
  let main_v54 : FVec F S2000 .f32 := Host.absf main_arg12
  let main_cst_20 : FVec F S_ .f32 := constant S_ .f32 0x7F800000#32
  let main_v55 : FVec F S2000 .f32 := broadcastInDim S2000 ![] bcast_S_S2000 main_cst_20
  let main_v56 : IVec S2000 1 := cmpf .olt main_v54 main_v55
  let main_c_21 : IVec S_ 1 := constantI S_ 1 1#1
  let main_v57 : IVec S_ 1 := (fun x v => Host.reduce IntOp.andi x v reducesTo_S2000_S_d0 h_S_) main_v56 main_c_21
  let main_v58 : IVec S_ 1 := andi main_v53 main_v57
  let main_c_22 : IVec S_ 32 := constantI S_ 32 0#32
  let main_v59 : IVec S2x80000 32 := broadcastInDim S2x80000 ![] bcast_S_S2x80000 main_c_22
  let main_v60 : IVec S2x80000 1 := cmpi .sge main_arg1 main_v59
  let main_c_23 : IVec S_ 1 := constantI S_ 1 1#1
  let main_v61 : IVec S_ 1 := (fun x v => Host.reduce IntOp.andi x v reducesTo_S2x80000_S_d0_1 h_S_) main_v60 main_c_23
  let main_v62 : IVec S_ 1 := andi main_v58 main_v61
  let main_c_24 : IVec S_ 32 := constantI S_ 32 5000#32
  let main_v63 : IVec S2x80000 32 := broadcastInDim S2x80000 ![] bcast_S_S2x80000 main_c_24
  let main_v64 : IVec S2x80000 1 := cmpi .slt main_arg1 main_v63
  let main_c_25 : IVec S_ 1 := constantI S_ 1 1#1
  let main_v65 : IVec S_ 1 := (fun x v => Host.reduce IntOp.andi x v reducesTo_S2x80000_S_d0_1 h_S_) main_v64 main_c_25
  let main_v66 : IVec S_ 1 := andi main_v62 main_v65
  main_v66

def fn_part2 {F : FTy → Type} [FloatOps F] (main_arg1 : IVec S2x80000 32) (main_arg8 : FVec F S20x32 .f32) (main_arg9 : FVec F S32x256 .f32) (main_arg10 : FVec F S256 .f32) (main_arg11 : FVec F S256x2000 .f32) (main_arg12 : FVec F S2000 .f32) (main_v33 : IVec S_ 1) : IVec S_ 1 :=
  let main_v34 : FVec F S20x32 .f32 := Host.absf main_arg8
  let main_cst_12 : FVec F S_ .f32 := constant S_ .f32 0x7F800000#32
  let main_v35 : FVec F S20x32 .f32 := broadcastInDim S20x32 ![] bcast_S_S20x32 main_cst_12
  let main_v36 : IVec S20x32 1 := cmpf .olt main_v34 main_v35
  let main_c_13 : IVec S_ 1 := constantI S_ 1 1#1
  let main_v37 : IVec S_ 1 := (fun x v => Host.reduce IntOp.andi x v reducesTo_S20x32_S_d0_1 h_S_) main_v36 main_c_13
  let main_v38 : IVec S_ 1 := andi main_v33 main_v37
  let main_v39 : FVec F S32x256 .f32 := Host.absf main_arg9
  let main_cst_14 : FVec F S_ .f32 := constant S_ .f32 0x7F800000#32
  let main_v40 : FVec F S32x256 .f32 := broadcastInDim S32x256 ![] bcast_S_S32x256 main_cst_14
  let main_v41 : IVec S32x256 1 := cmpf .olt main_v39 main_v40
  let main_c_15 : IVec S_ 1 := constantI S_ 1 1#1
  let main_v42 : IVec S_ 1 := (fun x v => Host.reduce IntOp.andi x v reducesTo_S32x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x2000 .f32 := Host.absf main_arg11
  let main_cst_18 : FVec F S_ .f32 := constant S_ .f32 0x7F800000#32
  let main_v50 : FVec F S256x2000 .f32 := broadcastInDim S256x2000 ![] bcast_S_S256x2000 main_cst_18
  fn_part3 (F := F) main_arg1 main_arg12 main_v48 main_v49 main_v50

def fn_part1 {F : FTy → Type} [FloatOps F] (main_arg1 : IVec S2x80000 32) (main_arg5 : FVec F S32 .f32) (main_arg6 : FVec F S5000x20000 .f32) (main_arg7 : FVec F S20000x20 .f32) (main_arg8 : FVec F S20x32 .f32) (main_arg9 : FVec F S32x256 .f32) (main_arg10 : FVec F S256 .f32) (main_arg11 : FVec F S256x2000 .f32) (main_arg12 : FVec F S2000 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S5000x20000 .f32 := Host.absf main_arg6
  let main_cst_8 : FVec F S_ .f32 := constant S_ .f32 0x7F800000#32
  let main_v25 : FVec F S5000x20000 .f32 := broadcastInDim S5000x20000 ![] bcast_S_S5000x20000 main_cst_8
  let main_v26 : IVec S5000x20000 1 := cmpf .olt main_v24 main_v25
  let main_c_9 : IVec S_ 1 := constantI S_ 1 1#1
  let main_v27 : IVec S_ 1 := (fun x v => Host.reduce IntOp.andi x v reducesTo_S5000x20000_S_d0_1 h_S_) main_v26 main_c_9
  let main_v28 : IVec S_ 1 := andi main_v23 main_v27
  let main_v29 : FVec F S20000x20 .f32 := Host.absf main_arg7
  let main_cst_10 : FVec F S_ .f32 := constant S_ .f32 0x7F800000#32
  let main_v30 : FVec F S20000x20 .f32 := broadcastInDim S20000x20 ![] bcast_S_S20000x20 main_cst_10
  let main_v31 : IVec S20000x20 1 := cmpf .olt main_v29 main_v30
  let main_c_11 : IVec S_ 1 := constantI S_ 1 1#1
  let main_v32 : IVec S_ 1 := (fun x v => Host.reduce IntOp.andi x v reducesTo_S20000x20_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S5000x2000 .f32) (main_arg1 : IVec S2x80000 32) (main_arg2 : FVec F S2000x64 .f32) (main_arg3 : FVec F S64 .f32) (main_arg4 : FVec F S64x32 .f32) (main_arg5 : FVec F S32 .f32) (main_arg6 : FVec F S5000x20000 .f32) (main_arg7 : FVec F S20000x20 .f32) (main_arg8 : FVec F S20x32 .f32) (main_arg9 : FVec F S32x256 .f32) (main_arg10 : FVec F S256 .f32) (main_arg11 : FVec F S256x2000 .f32) (main_arg12 : FVec F S2000 .f32) : IVec S_ 1 :=
  let main_v0 : FVec F S5000x2000 .f32 := Host.absf main_arg0
  let main_cst : FVec F S_ .f32 := constant S_ .f32 0x7F800000#32
  let main_v1 : FVec F S5000x2000 .f32 := broadcastInDim S5000x2000 ![] bcast_S_S5000x2000 main_cst
  let main_v2 : IVec S5000x2000 1 := cmpf .olt main_v0 main_v1
  let main_c : IVec S_ 1 := constantI S_ 1 1#1
  let main_v3 : IVec S_ 1 := (fun x v => Host.reduce IntOp.andi x v reducesTo_S5000x2000_S_d0_1 h_S_) main_v2 main_c
  let main_v4 : FVec F S2000x64 .f32 := Host.absf main_arg2
  let main_cst_0 : FVec F S_ .f32 := constant S_ .f32 0x7F800000#32
  let main_v5 : FVec F S2000x64 .f32 := broadcastInDim S2000x64 ![] bcast_S_S2000x64 main_cst_0
  let main_v6 : IVec S2000x64 1 := cmpf .olt main_v4 main_v5
  let main_c_1 : IVec S_ 1 := constantI S_ 1 1#1
  let main_v7 : IVec S_ 1 := (fun x v => Host.reduce IntOp.andi x v reducesTo_S2000x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg1 main_arg5 main_arg6 main_arg7 main_arg8 main_arg9 main_arg10 main_arg11 main_arg12 main_v13 main_v16
-- ==== Kernel.lean ====
abbrev S5000x2000 : Shape := ⟨2, ![5000, 2000]⟩
abbrev S2x80000 : Shape := ⟨2, ![2, 80000]⟩
abbrev S2000x64 : Shape := ⟨2, ![2000, 64]⟩
abbrev S64 : Shape := ⟨1, ![64]⟩
abbrev S64x32 : Shape := ⟨2, ![64, 32]⟩
abbrev S32 : Shape := ⟨1, ![32]⟩
abbrev S5000x20000 : Shape := ⟨2, ![5000, 20000]⟩
abbrev S20000x20 : Shape := ⟨2, ![20000, 20]⟩
abbrev S20x32 : Shape := ⟨2, ![20, 32]⟩
abbrev S32x256 : Shape := ⟨2, ![32, 256]⟩
abbrev S256 : Shape := ⟨1, ![256]⟩
abbrev S256x2000 : Shape := ⟨2, ![256, 2000]⟩
abbrev S2000 : Shape := ⟨1, ![2000]⟩
abbrev S1x80000 : Shape := ⟨2, ![1, 80000]⟩
abbrev S80000 : Shape := ⟨1, ![80000]⟩
abbrev S_ : Shape := ⟨0, ![]⟩
abbrev S5000 : Shape := ⟨1, ![5000]⟩
abbrev S80000x1 : Shape := ⟨2, ![80000, 1]⟩
abbrev S5000x5000 : Shape := ⟨2, ![5000, 5000]⟩
abbrev S80000x2 : Shape := ⟨2, ![80000, 2]⟩
abbrev S5000x1 : Shape := ⟨2, ![5000, 1]⟩
abbrev S5000x2 : Shape := ⟨2, ![5000, 2]⟩
abbrev S5000x64 : Shape := ⟨2, ![5000, 64]⟩
abbrev S200x2000 : Shape := ⟨2, ![200, 2000]⟩
abbrev S200x64 : Shape := ⟨2, ![200, 64]⟩
abbrev S200x5000 : Shape := ⟨2, ![200, 5000]⟩
abbrev S1x64 : Shape := ⟨2, ![1, 64]⟩
abbrev S5000x32 : Shape := ⟨2, ![5000, 32]⟩
abbrev S200x32 : Shape := ⟨2, ![200, 32]⟩
abbrev S1x32 : Shape := ⟨2, ![1, 32]⟩
abbrev S64x20000 : Shape := ⟨2, ![64, 20000]⟩
abbrev S64x1 : Shape := ⟨2, ![64, 1]⟩
abbrev S20000 : Shape := ⟨1, ![20000]⟩
abbrev S20000x1 : Shape := ⟨2, ![20000, 1]⟩
abbrev S20 : Shape := ⟨1, ![20]⟩
abbrev S20x256 : Shape := ⟨2, ![20, 256]⟩
abbrev S1x256 : Shape := ⟨2, ![1, 256]⟩
abbrev S20x2000 : Shape := ⟨2, ![20, 2000]⟩
abbrev S1x2000 : Shape := ⟨2, ![1, 2000]⟩
abbrev S20x1 : Shape := ⟨2, ![20, 1]⟩

abbrev nBuf : Space → Nat
  | .hbm => 147
  | .vmem => 19
  | .smem => 0
  | _ => 0

abbrev hbmTy0_0 (i : Nat) : BufTy := match i % 128 with
  | 0 => ⟨S5000x2000, .f32⟩
  | 1 => ⟨S2x80000, .i32⟩
  | 2 => ⟨S2000x64, .f32⟩
  | 3 => ⟨S64, .f32⟩
  | 4 => ⟨S64x32, .f32⟩
  | 5 => ⟨S32, .f32⟩
  | 6 => ⟨S5000x20000, .f32⟩
  | 7 => ⟨S20000x20, .f32⟩
  | 8 => ⟨S20x32, .f32⟩
  | 9 => ⟨S32x256, .f32⟩
  | 10 => ⟨S256, .f32⟩
  | 11 => ⟨S256x2000, .f32⟩
  | 12 => ⟨S2000, .f32⟩
  | 13 => ⟨S1x80000, .i32⟩
  | 14 => ⟨S80000, .i32⟩
  | 15 => ⟨S1x80000, .i32⟩
  | 16 => ⟨S80000, .i32⟩
  | 17 => ⟨S_, .f32⟩
  | 18 => ⟨S5000, .f32⟩
  | 19 => ⟨S_, .i32⟩
  | 20 => ⟨S80000, .i32⟩
  | 21 => ⟨S80000, .i1⟩
  | 22 => ⟨S_, .i32⟩
  | 23 => ⟨S80000, .i32⟩
  | 24 => ⟨S80000, .i32⟩
  | 25 => ⟨S80000, .i32⟩
  | 26 => ⟨S80000x1, .i32⟩
  | 27 => ⟨S_, .f32⟩
  | 28 => ⟨S80000, .f32⟩
  | 29 => ⟨S5000, .f32⟩
  | 30 => ⟨S_, .f32⟩
  | 31 => ⟨S5000, .f32⟩
  | 32 => ⟨S5000, .f32⟩
  | 33 => ⟨S_, .f32⟩
  | 34 => ⟨S5000, .f32⟩
  | 35 => ⟨S5000, .f32⟩
  | 36 => ⟨S_, .i32⟩
  | 37 => ⟨S80000, .i32⟩
  | 38 => ⟨S80000, .i1⟩
  | 39 => ⟨S_, .i32⟩
  | 40 => ⟨S80000, .i32⟩
  | 41 => ⟨S80000, .i32⟩
  | 42 => ⟨S80000, .i32⟩
  | 43 => ⟨S80000x1, .i32⟩
  | 44 => ⟨S80000, .f32⟩
  | 45 => ⟨S_, .i32⟩
  | 46 => ⟨S80000, .i32⟩
  | 47 => ⟨S80000, .i1⟩
  | 48 => ⟨S_, .i32⟩
  | 49 => ⟨S80000, .i32⟩
  | 50 => ⟨S80000, .i32⟩
  | 51 => ⟨S80000, .i32⟩
  | 52 => ⟨S80000x1, .i32⟩
  | 53 => ⟨S80000, .f32⟩
  | 54 => ⟨S80000, .f32⟩
  | 55 => ⟨S_, .f32⟩
  | 56 => ⟨S5000x5000, .f32⟩
  | 57 => ⟨S_, .i32⟩
  | 58 => ⟨S80000, .i32⟩
  | 59 => ⟨S80000, .i1⟩
  | 60 => ⟨S_, .i32⟩
  | 61 => ⟨S80000, .i32⟩
  | 62 => ⟨S80000, .i32⟩
  | 63 => ⟨S80000, .i32⟩
  | 64 => ⟨S_, .i32⟩
  | 65 => ⟨S80000, .i32⟩
  | 66 => ⟨S80000, .i1⟩
  | 67 => ⟨S_, .i32⟩
  | 68 => ⟨S80000, .i32⟩
  | 69 => ⟨S80000, .i32⟩
  | 70 => ⟨S80000, .i32⟩
  | 71 => ⟨S80000x1, .i32⟩
  | 72 => ⟨S80000x1, .i32⟩
  | 73 => ⟨S80000x2, .i32⟩
  | 74 => ⟨S5000x5000, .f32⟩
  | 75 => ⟨S5000, .i32⟩
  | 76 => ⟨S_, .f32⟩
  | 77 => ⟨S5000, .f32⟩
  | 78 => ⟨S5000, .f32⟩
  | 79 => ⟨S_, .i32⟩
  | 80 => ⟨S5000, .i32⟩
  | 81 => ⟨S5000, .i1⟩
  | 82 => ⟨S_, .i32⟩
  | 83 => ⟨S5000, .i32⟩
  | 84 => ⟨S5000, .i32⟩
  | 85 => ⟨S5000, .i32⟩
  | 86 => ⟨S_, .i32⟩
  | 87 => ⟨S5000, .i32⟩
  | 88 => ⟨S5000, .i1⟩
  | 89 => ⟨S_, .i32⟩
  | 90 => ⟨S5000, .i32⟩
  | 91 => ⟨S5000, .i32⟩
  | 92 => ⟨S5000, .i32⟩
  | 93 => ⟨S5000x1, .i32⟩
  | 94 => ⟨S5000x1, .i32⟩
  | 95 => ⟨S5000x2, .i32⟩
  | 96 => ⟨S5000x5000, .f32⟩
  | 97 => ⟨S5000x64, .f32⟩
  | 98 => ⟨S5000x64, .f32⟩
  | 99 => ⟨S1x64, .f32⟩
  | 100 => ⟨S5000x64, .f32⟩
  | 101 => ⟨S5000x64, .f32⟩
  | 102 => ⟨S_, .f32⟩
  | 103 => ⟨S5000x64, .f32⟩
  | 104 => ⟨S5000x64, .f32⟩
  | 105 => ⟨S5000x32, .f32⟩
  | 106 => ⟨S5000x32, .f32⟩
  | 107 => ⟨S1x32, .f32⟩
  | 108 => ⟨S5000x32, .f32⟩
  | 109 => ⟨S5000x32, .f32⟩
  | 110 => ⟨S5000x20000, .f32⟩
  | 111 => ⟨S_, .f32⟩
  | 112 => ⟨S20000, .f32⟩
  | 113 => ⟨S_, .f32⟩
  | 114 => ⟨S20000, .f32⟩
  | 115 => ⟨S20000, .f32⟩
  | 116 => ⟨S20000x1, .f32⟩
  | 117 => ⟨S20000x20, .f32⟩
  | 118 => ⟨S20000x20, .f32⟩
  | 119 => ⟨S20000x20, .f32⟩
  | 120 => ⟨S_, .f32⟩
  | 121 => ⟨S20000, .f32⟩
  | 122 => ⟨S20000x1, .f32⟩
  | 123 => ⟨S20000x20, .f32⟩
  | 124 => ⟨S20000x20, .f32⟩
  | 125 => ⟨S_, .f32⟩
  | 126 => ⟨S20, .f32⟩
  | 127 => ⟨S_, .f32⟩
  | _ => ⟨S5000x2000, .f32⟩

abbrev hbmTy0_1 (i : Nat) : BufTy := match i % 128 with
  | 0 => ⟨S20, .f32⟩
  | 1 => ⟨S20, .f32⟩
  | 2 => ⟨S20x256, .f32⟩
  | 3 => ⟨S1x256, .f32⟩
  | 4 => ⟨S20x256, .f32⟩
  | 5 => ⟨S20x256, .f32⟩
  | 6 => ⟨S_, .f32⟩
  | 7 => ⟨S20x256, .f32⟩
  | 8 => ⟨S20x256, .f32⟩
  | 9 => ⟨S20x2000, .f32⟩
  | 10 => ⟨S1x2000, .f32⟩
  | 11 => ⟨S20x2000, .f32⟩
  | 12 => ⟨S20x2000, .f32⟩
  | 13 => ⟨S_, .f32⟩
  | 14 => ⟨S20, .f32⟩
  | 15 => ⟨S20, .f32⟩
  | 16 => ⟨S20x1, .f32⟩
  | 17 => ⟨S20x2000, .f32⟩
  | 18 => ⟨S20x2000, .f32⟩
  | _ => ⟨S5000x2000, .f32⟩

abbrev hbmTy (i : Nat) : BufTy := match i / 128 with
  | 0 => hbmTy0_0 i
  | 1 => hbmTy0_1 i
  | _ => ⟨S5000x2000, .f32⟩

abbrev bufTy : (tb : Table) → Fin (tcTables nBuf tb) → BufTy
  | .hbm, ⟨i, _⟩ => hbmTy i
  | .local _ .vmem, ⟨0, _⟩ => ⟨S200x2000, .f32⟩
  | .local _ .vmem, ⟨1, _⟩ => ⟨S200x2000, .f32⟩
  | .local _ .vmem, ⟨2, _⟩ => ⟨S2000x64, .f32⟩
  | .local _ .vmem, ⟨3, _⟩ => ⟨S200x64, .f32⟩
  | .local _ .vmem, ⟨4, _⟩ => ⟨S200x64, .f32⟩
  | .local _ .vmem, ⟨5, _⟩ => ⟨S200x5000, .f32⟩
  | .local _ .vmem, ⟨6, _⟩ => ⟨S200x5000, .f32⟩
  | .local _ .vmem, ⟨7, _⟩ => ⟨S5000x64, .f32⟩
  | .local _ .vmem, ⟨8, _⟩ => ⟨S200x64, .f32⟩
  | .local _ .vmem, ⟨9, _⟩ => ⟨S200x64, .f32⟩
  | .local _ .vmem, ⟨10, _⟩ => ⟨S200x5000, .f32⟩
  | .local _ .vmem, ⟨11, _⟩ => ⟨S200x5000, .f32⟩
  | .local _ .vmem, ⟨12, _⟩ => ⟨S5000x32, .f32⟩
  | .local _ .vmem, ⟨13, _⟩ => ⟨S200x32, .f32⟩
  | .local _ .vmem, ⟨14, _⟩ => ⟨S200x32, .f32⟩
  | .local _ .vmem, ⟨15, _⟩ => ⟨S64x20000, .f32⟩
  | .local _ .vmem, ⟨16, _⟩ => ⟨S64x20000, .f32⟩
  | .local _ .vmem, ⟨17, _⟩ => ⟨S64x20000, .f32⟩
  | .local _ .vmem, ⟨18, _⟩ => ⟨S64x20000, .f32⟩
  | _, _ => ⟨S5000x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_c_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_c_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_c_9 : Ref sig .tc := ⟨.hbm, 57, rfl⟩
abbrev main_v33 : Ref sig .tc := ⟨.hbm, 58, rfl⟩
abbrev main_v34 : Ref sig .tc := ⟨.hbm, 59, rfl⟩
abbrev main_c_10 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_11 : Ref sig .tc := ⟨.hbm, 64, rfl⟩
abbrev main_v38 : Ref sig .tc := ⟨.hbm, 65, rfl⟩
abbrev main_v39 : Ref sig .tc := ⟨.hbm, 66, rfl⟩
abbrev main_c_12 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_13 : Ref sig .tc := ⟨.hbm, 76, rfl⟩
abbrev main_v48 : Ref sig .tc := ⟨.hbm, 77, rfl⟩
abbrev main_v49 : Ref sig .tc := ⟨.hbm, 78, rfl⟩
abbrev main_c_14 : Ref sig .tc := ⟨.hbm, 79, rfl⟩
abbrev main_v50 : Ref sig .tc := ⟨.hbm, 80, rfl⟩
abbrev main_v51 : Ref sig .tc := ⟨.hbm, 81, rfl⟩
abbrev main_c_15 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_16 : Ref sig .tc := ⟨.hbm, 86, rfl⟩
abbrev main_v55 : Ref sig .tc := ⟨.hbm, 87, rfl⟩
abbrev main_v56 : Ref sig .tc := ⟨.hbm, 88, rfl⟩
abbrev main_c_17 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_call0_cst : Ref sig .tc := ⟨.hbm, 102, rfl⟩
abbrev main_call0_v0 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_18 : Ref sig .tc := ⟨.hbm, 111, rfl⟩
abbrev main_v76 : Ref sig .tc := ⟨.hbm, 112, rfl⟩
abbrev main_cst_19 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_20 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_21 : Ref sig .tc := ⟨.hbm, 125, rfl⟩
abbrev main_v87 : Ref sig .tc := ⟨.hbm, 126, rfl⟩
abbrev main_cst_22 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_call1_cst : Ref sig .tc := ⟨.hbm, 134, rfl⟩
abbrev main_call1_v0 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x5000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x5000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S5000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![79], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S64x20000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x20000 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  slices_S2x80000_S1x80000_0_0 : S2x80000.Slices ![0, 0] S1x80000
  shapeCasts_S1x80000_S80000 : S1x80000.ShapeCasts S80000
  slices_S2x80000_S1x80000_1_0 : S2x80000.Slices ![1, 0] S1x80000
  bcast_S_S5000 : S_.BroadcastsInDim S5000 (![] : Fin 0 → Fin S5000.rank)
  bcast_S_S80000 : S_.BroadcastsInDim S80000 (![] : Fin 0 → Fin S80000.rank)
  bcast_S80000_S80000x1_0 : S80000.BroadcastsInDim S80000x1 (![0] : Fin 1 → Fin S80000x1.rank)
  bcast_S_S5000x5000 : S_.BroadcastsInDim S5000x5000 (![] : Fin 0 → Fin S5000x5000.rank)
  concatenates_S80000x1_S80000x1_S80000x2_d1 : Shape.Concatenates [S80000x1, S80000x1] S80000x2 1
  bcast_S5000_S5000x1_0 : S5000.BroadcastsInDim S5000x1 (![0] : Fin 1 → Fin S5000x1.rank)
  concatenates_S5000x1_S5000x1_S5000x2_d1 : Shape.Concatenates [S5000x1, S5000x1] S5000x2 1
  inb_S200x2000_S200x2000_0_0 : ∀ a, (![0, 0] : Fin 2 → Nat) a + S200x2000.size a ≤ S200x2000.size a
  h_S200x2000 : 0 < S200x2000.numel
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  inb_S200x64_S200x64_0_0 : ∀ a, (![0, 0] : Fin 2 → Nat) a + S200x64.size a ≤ S200x64.size a
  h_S200x64 : 0 < S200x64.numel
  inb_S200x5000_S200x5000_0_0 : ∀ a, (![0, 0] : Fin 2 → Nat) a + S200x5000.size a ≤ S200x5000.size a
  h_S200x5000 : 0 < S200x5000.numel
  shapeCasts_S200x5000_S200x5000 : S200x5000.ShapeCasts S200x5000
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bcast_S64_S1x64_1 : S64.BroadcastsInDim S1x64 (![1] : Fin 1 → Fin S1x64.rank)
  bcast_S1x64_S5000x64_0_1 : S1x64.BroadcastsInDim S5000x64 (![0, 1] : Fin 2 → Fin S5000x64.rank)
  bcast_S_S5000x64 : S_.BroadcastsInDim S5000x64 (![] : Fin 0 → Fin S5000x64.rank)
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S200x32_S200x32_0_0 : ∀ a, (![0, 0] : Fin 2 → Nat) a + S200x32.size a ≤ S200x32.size a
  h_S200x32 : 0 < S200x32.numel
  bcast_S32_S1x32_1 : S32.BroadcastsInDim S1x32 (![1] : Fin 1 → Fin S1x32.rank)
  bcast_S1x32_S5000x32_0_1 : S1x32.BroadcastsInDim S5000x32 (![0, 1] : Fin 2 → Fin S5000x32.rank)
  inb_S64x20000_S64x20000_0_0 : ∀ a, (![0, 0] : Fin 2 → Nat) a + S64x20000.size a ≤ S64x20000.size a
  h_S64x20000 : 0 < S64x20000.numel
  reduces_S64x20000_S64 : S64x20000.Reduces [1] S64
  shapeCasts_S64_S64x1 : S64.ShapeCasts S64x1
  broadcasts_S64x1_S64x20000 : S64x1.Broadcasts S64x20000
  reducesTo_S20000x20_S20000_d1 : S20000x20.ReducesTo [1] S20000
  h_S_ : 0 < S_.numel
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x20_0_1 : S20000x1.BroadcastsInDim S20000x20 (![0, 1] : Fin 2 → Fin S20000x20.rank)
  reducesTo_S20000x20_S20_d0 : S20000x20.ReducesTo [0] S20
  bcast_S_S20 : S_.BroadcastsInDim S20 (![] : Fin 0 → Fin S20.rank)
  bcast_S256_S1x256_1 : S256.BroadcastsInDim S1x256 (![1] : Fin 1 → Fin S1x256.rank)
  bcast_S1x256_S20x256_0_1 : S1x256.BroadcastsInDim S20x256 (![0, 1] : Fin 2 → Fin S20x256.rank)
  bcast_S_S20x256 : S_.BroadcastsInDim S20x256 (![] : Fin 0 → Fin S20x256.rank)
  bcast_S2000_S1x2000_1 : S2000.BroadcastsInDim S1x2000 (![1] : Fin 1 → Fin S1x2000.rank)
  bcast_S1x2000_S20x2000_0_1 : S1x2000.BroadcastsInDim S20x2000 (![0, 1] : Fin 2 → Fin S20x2000.rank)
  bcast_S20_S20x1_0 : S20.BroadcastsInDim S20x1 (![0] : Fin 1 → Fin S20x1.rank)
  bcast_S20x1_S20x2000_0_1 : S20x1.BroadcastsInDim S20x2000 (![0, 1] : Fin 2 → Fin S20x2000.rank)
  scatter_S5000_S80000x1_S80000_n_0_0_1_wf : ScatterDims.WF S5000 S80000x1 S80000 [] [0] [0] 1
  gather_S5000_S80000x1_S80000_n_0_n_n_0_1_1_wf : GatherDims.WF S5000 S80000x1 S80000 [] [0] [] [0] [] 1 ![1]
  scatter_S5000x5000_S80000x2_S80000_n_01_01_1_wf : ScatterDims.WF S5000x5000 S80000x2 S80000 [] [0, 1] [0, 1] 1
  scatter_S5000x5000_S5000x2_S5000_n_01_01_1_wf : ScatterDims.WF S5000x5000 S5000x2 S5000 [] [0, 1] [0, 1] 1
  dot_S200x2000_S2000x64_S200x64_1_0_0_1_n_n_wf : DotDims.WF S200x2000 S2000x64 S200x64 [1] [0] [0] [1] [] []
  dot_S200x5000_S5000x64_S200x64_1_0_0_1_n_n_wf : DotDims.WF S200x5000 S5000x64 S200x64 [1] [0] [0] [1] [] []
  dot_S5000x64_S64x32_S5000x32_1_0_0_1_n_n_wf : DotDims.WF S5000x64 S64x32 S5000x32 [1] [0] [0] [1] [] []
  dot_S200x5000_S5000x32_S200x32_1_0_0_1_n_n_wf : DotDims.WF S200x5000 S5000x32 S200x32 [1] [0] [0] [1] [] []
  dot_S20x32_S32x256_S20x256_1_0_0_1_n_n_wf : DotDims.WF S20x32 S32x256 S20x256 [1] [0] [0] [1] [] []
  dot_S20x256_S256x2000_S20x2000_1_0_0_1_n_n_wf : DotDims.WF S20x256 S256x2000 S20x2000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x2000.size a ≤ S5000x2000.size a
  hwx0_0 : ∀ i : grid0.Coords, EltTy.bits .f32 = 32 ∨ (Rect.block (s := S5000x2000) S200x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S2000x64.size a
  hwx0_1 : ∀ i : grid0.Coords, EltTy.bits .f32 = 32 ∨ (Rect.block (s := S2000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x64.size a ≤ S5000x64.size a
  hwx0_2 : ∀ i : grid0.Coords, EltTy.bits .f32 = 32 ∨ (Rect.block (s := S5000x64) S200x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x5000.size a ≤ S5000x5000.size a
  hwx1_0 : ∀ i : grid1.Coords, EltTy.bits .f32 = 32 ∨ (Rect.block (s := S5000x5000) S200x5000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S5000x64.size a
  hwx1_1 : ∀ i : grid1.Coords, EltTy.bits .f32 = 32 ∨ (Rect.block (s := S5000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x64.size a ≤ S5000x64.size a
  hwx1_2 : ∀ i : grid1.Coords, EltTy.bits .f32 = 32 ∨ (Rect.block (s := S5000x64) S200x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x5000.size a ≤ S5000x5000.size a
  hwx2_0 : ∀ i : grid2.Coords, EltTy.bits .f32 = 32 ∨ (Rect.block (s := S5000x5000) S200x5000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S5000x32.size a
  hwx2_1 : ∀ i : grid2.Coords, EltTy.bits .f32 = 32 ∨ (Rect.block (s := S5000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x32.size a ≤ S5000x32.size a
  hwx2_2 : ∀ i : grid2.Coords, EltTy.bits .f32 = 32 ∨ (Rect.block (s := S5000x32) S200x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S64x20000.size a < S5000x20000.size a
  hwx3_0 : ∀ i : grid3.Coords, EltTy.bits .f32 = 32 ∨ (Rect.unit (s := S5000x20000) (fun a => cc3_transform_0 i a * S64x20000.size a) (fun a => (Pipeline.Clip.of (cc3_transform_0 i a) (S64x20000.size a) (S5000x20000.size a)).extent (S64x20000.size a)) fun a => Pipeline.Clip.inb (Pipeline.Clip.ok_of (hstart3_0 i a))).WholeWords (EltTy.packing .f32)
  hwxs3_0 : ∀ i : grid3.Coords, EltTy.bits .f32 = 32 ∨ (Rect.unit (s := S64x20000) (fun _ => 0) (fun a => (Pipeline.Clip.of (cc3_transform_0 i a) (S64x20000.size a) (S5000x20000.size a)).extent (S64x20000.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S64x20000.size a < S5000x20000.size a
  hwx3_1 : ∀ i : grid3.Coords, EltTy.bits .f32 = 32 ∨ (Rect.unit (s := S5000x20000) (fun a => cc3_transform_1 i a * S64x20000.size a) (fun a => (Pipeline.Clip.of (cc3_transform_1 i a) (S64x20000.size a) (S5000x20000.size a)).extent (S64x20000.size a)) fun a => Pipeline.Clip.inb (Pipeline.Clip.ok_of (hstart3_1 i a))).WholeWords (EltTy.packing .f32)
  hwxs3_1 : ∀ i : grid3.Coords, EltTy.bits .f32 = 32 ∨ (Rect.unit (s := S64x20000) (fun _ => 0) (fun a => (Pipeline.Clip.of (cc3_transform_1 i a) (S64x20000.size a) (S5000x20000.size a)).extent (S64x20000.size a)) fun a => (Nat.zero_add _).trans_le (Pipeline.Clip.extent_le (Pipeline.Clip.ok_of (hstart3_1 i a)))).WholeWords (EltTy.packing .f32)

variable [Facts₀]

def scatter_S5000_S80000x1_S80000_n_0_0_1 : ScatterDims S5000 S80000x1 S80000 where
  updateWindowDims := []
  insertedWindowDims := [0]
  scatterDimsToOperandDims := [0]
  indexVectorDim := 1
  wf := scatter_S5000_S80000x1_S80000_n_0_0_1_wf
def gather_S5000_S80000x1_S80000_n_0_n_n_0_1_1 : GatherDims S5000 S80000x1 S80000 where
  offsetDims := []
  collapsedSliceDims := [0]
  operandBatchingDims := []
  startIndicesBatchingDims := []
  startIndexMap := [0]
  indexVectorDim := 1
  sliceSizes := ![1]
  wf := gather_S5000_S80000x1_S80000_n_0_n_n_0_1_1_wf
def scatter_S5000x5000_S80000x2_S80000_n_01_01_1 : ScatterDims S5000x5000 S80000x2 S80000 where
  updateWindowDims := []
  insertedWindowDims := [0, 1]
  scatterDimsToOperandDims := [0, 1]
  indexVectorDim := 1
  wf := scatter_S5000x5000_S80000x2_S80000_n_01_01_1_wf
def scatter_S5000x5000_S5000x2_S5000_n_01_01_1 : ScatterDims S5000x5000 S5000x2 S5000 where
  updateWindowDims := []
  insertedWindowDims := [0, 1]
  scatterDimsToOperandDims := [0, 1]
  indexVectorDim := 1
  wf := scatter_S5000x5000_S5000x2_S5000_n_01_01_1_wf
def dot_S200x2000_S2000x64_S200x64_1_0_0_1_n_n : DotDims S200x2000 S2000x64 S200x64 where
  lhsContracting := [1]
  rhsContracting := [0]
  lhsNonContracting := [0]
  rhsNonContracting := [1]
  lhsBatch := []
  rhsBatch := []
  wf := dot_S200x2000_S2000x64_S200x64_1_0_0_1_n_n_wf
def dot_S200x5000_S5000x64_S200x64_1_0_0_1_n_n : DotDims S200x5000 S5000x64 S200x64 where
  lhsContracting := [1]
  rhsContracting := [0]
  lhsNonContracting := [0]
  rhsNonContracting := [1]
  lhsBatch := []
  rhsBatch := []
  wf := dot_S200x5000_S5000x64_S200x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S200x5000_S5000x32_S200x32_1_0_0_1_n_n : DotDims S200x5000 S5000x32 S200x32 where
  lhsContracting := [1]
  rhsContracting := [0]
  lhsNonContracting := [0]
  rhsNonContracting := [1]
  lhsBatch := []
  rhsBatch := []
  wf := dot_S200x5000_S5000x32_S200x32_1_0_0_1_n_n_wf
def dot_S20x32_S32x256_S20x256_1_0_0_1_n_n : DotDims S20x32 S32x256 S20x256 where
  lhsContracting := [1]
  rhsContracting := [0]
  lhsNonContracting := [0]
  rhsNonContracting := [1]
  lhsBatch := []
  rhsBatch := []
  wf := dot_S20x32_S32x256_S20x256_1_0_0_1_n_n_wf
def dot_S20x256_S256x2000_S20x2000_1_0_0_1_n_n : DotDims S20x256 S256x2000 S20x2000 where
  lhsContracting := [1]
  rhsContracting := [0]
  lhsNonContracting := [0]
  rhsNonContracting := [1]
  lhsBatch := []
  rhsBatch := []
  wf := dot_S20x256_S256x2000_S20x2000_1_0_0_1_n_n_wf

abbrev win0_0 : Pipeline.Window sig grid0 :=
  Pipeline.Window.ofSpec (Memref.whole main_arg0) S200x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v64) S200x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v63) S200x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S5000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v65) S200x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S200x5000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S5000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S200x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpecClip (Memref.whole main_arg6) S64x20000.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_v75) S64x20000.size cc3_transform_1 reads3_1 true false 2 stage3_1 sem3_1
    hrank3 hreads3_1 hstart3_1 nbuf3_1 (Memref.isWhole_whole _) hwx3_1 hwxs3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S5000x2000 : Shape := ⟨2, ![5000, 2000]⟩
abbrev S2x80000 : Shape := ⟨2, ![2, 80000]⟩
abbrev S2000x64 : Shape := ⟨2, ![2000, 64]⟩
abbrev S64 : Shape := ⟨1, ![64]⟩
abbrev S64x32 : Shape := ⟨2, ![64, 32]⟩
abbrev S32 : Shape := ⟨1, ![32]⟩
abbrev S5000x20000 : Shape := ⟨2, ![5000, 20000]⟩
abbrev S20000x20 : Shape := ⟨2, ![20000, 20]⟩
abbrev S20x32 : Shape := ⟨2, ![20, 32]⟩
abbrev S32x256 : Shape := ⟨2, ![32, 256]⟩
abbrev S256 : Shape := ⟨1, ![256]⟩
abbrev S256x2000 : Shape := ⟨2, ![256, 2000]⟩
abbrev S2000 : Shape := ⟨1, ![2000]⟩
abbrev S1x80000 : Shape := ⟨2, ![1, 80000]⟩
abbrev S80000 : Shape := ⟨1, ![80000]⟩
abbrev S_ : Shape := ⟨0, ![]⟩
abbrev S5000 : Shape := ⟨1, ![5000]⟩
abbrev S80000x1 : Shape := ⟨2, ![80000, 1]⟩
abbrev S5000x64 : Shape := ⟨2, ![5000, 64]⟩
abbrev S80000x64 : Shape := ⟨2, ![80000, 64]⟩
abbrev S5000x1 : Shape := ⟨2, ![5000, 1]⟩
abbrev S1x64 : Shape := ⟨2, ![1, 64]⟩
abbrev S5000x32 : Shape := ⟨2, ![5000, 32]⟩
abbrev S80000x32 : Shape := ⟨2, ![80000, 32]⟩
abbrev S1x32 : Shape := ⟨2, ![1, 32]⟩
abbrev S20000 : Shape := ⟨1, ![20000]⟩
abbrev S20000x1 : Shape := ⟨2, ![20000, 1]⟩
abbrev S20 : Shape := ⟨1, ![20]⟩
abbrev S20x256 : Shape := ⟨2, ![20, 256]⟩
abbrev S1x256 : Shape := ⟨2, ![1, 256]⟩
abbrev S20x2000 : Shape := ⟨2, ![20, 2000]⟩
abbrev S1x2000 : Shape := ⟨2, ![1, 2000]⟩
abbrev S20x1 : Shape := ⟨2, ![20, 1]⟩

abbrev nBuf : Space → Nat
  | .hbm => 218
  | .vmem => 0
  | .smem => 0
  | _ => 0

abbrev hbmTy0_0 (i : Nat) : BufTy := match i % 128 with
  | 0 => ⟨S5000x2000, .f32⟩
  | 1 => ⟨S2x80000, .i32⟩
  | 2 => ⟨S2000x64, .f32⟩
  | 3 => ⟨S64, .f32⟩
  | 4 => ⟨S64x32, .f32⟩
  | 5 => ⟨S32, .f32⟩
  | 6 => ⟨S5000x20000, .f32⟩
  | 7 => ⟨S20000x20, .f32⟩
  | 8 => ⟨S20x32, .f32⟩
  | 9 => ⟨S32x256, .f32⟩
  | 10 => ⟨S256, .f32⟩
  | 11 => ⟨S256x2000, .f32⟩
  | 12 => ⟨S2000, .f32⟩
  | 13 => ⟨S1x80000, .i32⟩
  | 14 => ⟨S80000, .i32⟩
  | 15 => ⟨S1x80000, .i32⟩
  | 16 => ⟨S80000, .i32⟩
  | 17 => ⟨S_, .f32⟩
  | 18 => ⟨S5000, .f32⟩
  | 19 => ⟨S_, .i32⟩
  | 20 => ⟨S80000, .i32⟩
  | 21 => ⟨S80000, .i1⟩
  | 22 => ⟨S_, .i32⟩
  | 23 => ⟨S80000, .i32⟩
  | 24 => ⟨S80000, .i32⟩
  | 25 => ⟨S80000, .i32⟩
  | 26 => ⟨S80000x1, .i32⟩
  | 27 => ⟨S_, .f32⟩
  | 28 => ⟨S80000, .f32⟩
  | 29 => ⟨S5000, .f32⟩
  | 30 => ⟨S_, .f32⟩
  | 31 => ⟨S5000, .f32⟩
  | 32 => ⟨S5000, .f32⟩
  | 33 => ⟨S_, .f32⟩
  | 34 => ⟨S5000, .f32⟩
  | 35 => ⟨S5000, .f32⟩
  | 36 => ⟨S5000x64, .f32⟩
  | 37 => ⟨S_, .i32⟩
  | 38 => ⟨S80000, .i32⟩
  | 39 => ⟨S80000, .i1⟩
  | 40 => ⟨S_, .i32⟩
  | 41 => ⟨S80000, .i32⟩
  | 42 => ⟨S80000, .i32⟩
  | 43 => ⟨S80000, .i32⟩
  | 44 => ⟨S80000x1, .i32⟩
  | 45 => ⟨S80000, .f32⟩
  | 46 => ⟨S_, .i32⟩
  | 47 => ⟨S80000, .i32⟩
  | 48 => ⟨S80000, .i1⟩
  | 49 => ⟨S_, .i32⟩
  | 50 => ⟨S80000, .i32⟩
  | 51 => ⟨S80000, .i32⟩
  | 52 => ⟨S80000, .i32⟩
  | 53 => ⟨S80000x1, .i32⟩
  | 54 => ⟨S80000, .f32⟩
  | 55 => ⟨S80000, .f32⟩
  | 56 => ⟨S80000x1, .f32⟩
  | 57 => ⟨S_, .f32⟩
  | 58 => ⟨S5000x64, .f32⟩
  | 59 => ⟨S_, .i32⟩
  | 60 => ⟨S80000, .i32⟩
  | 61 => ⟨S80000, .i1⟩
  | 62 => ⟨S_, .i32⟩
  | 63 => ⟨S80000, .i32⟩
  | 64 => ⟨S80000, .i32⟩
  | 65 => ⟨S80000, .i32⟩
  | 66 => ⟨S80000x1, .i32⟩
  | 67 => ⟨S80000x64, .f32⟩
  | 68 => ⟨S80000x64, .f32⟩
  | 69 => ⟨S80000x64, .f32⟩
  | 70 => ⟨S_, .i32⟩
  | 71 => ⟨S80000, .i32⟩
  | 72 => ⟨S80000, .i1⟩
  | 73 => ⟨S_, .i32⟩
  | 74 => ⟨S80000, .i32⟩
  | 75 => ⟨S80000, .i32⟩
  | 76 => ⟨S80000, .i32⟩
  | 77 => ⟨S80000x1, .i32⟩
  | 78 => ⟨S5000x64, .f32⟩
  | 79 => ⟨S_, .f32⟩
  | 80 => ⟨S5000, .f32⟩
  | 81 => ⟨S5000, .f32⟩
  | 82 => ⟨S5000x1, .f32⟩
  | 83 => ⟨S5000x64, .f32⟩
  | 84 => ⟨S5000x64, .f32⟩
  | 85 => ⟨S5000x64, .f32⟩
  | 86 => ⟨S1x64, .f32⟩
  | 87 => ⟨S5000x64, .f32⟩
  | 88 => ⟨S5000x64, .f32⟩
  | 89 => ⟨S_, .f32⟩
  | 90 => ⟨S5000x64, .f32⟩
  | 91 => ⟨S5000x64, .f32⟩
  | 92 => ⟨S1x80000, .i32⟩
  | 93 => ⟨S80000, .i32⟩
  | 94 => ⟨S1x80000, .i32⟩
  | 95 => ⟨S80000, .i32⟩
  | 96 => ⟨S_, .f32⟩
  | 97 => ⟨S5000, .f32⟩
  | 98 => ⟨S_, .i32⟩
  | 99 => ⟨S80000, .i32⟩
  | 100 => ⟨S80000, .i1⟩
  | 101 => ⟨S_, .i32⟩
  | 102 => ⟨S80000, .i32⟩
  | 103 => ⟨S80000, .i32⟩
  | 104 => ⟨S80000, .i32⟩
  | 105 => ⟨S80000x1, .i32⟩
  | 106 => ⟨S_, .f32⟩
  | 107 => ⟨S80000, .f32⟩
  | 108 => ⟨S5000, .f32⟩
  | 109 => ⟨S_, .f32⟩
  | 110 => ⟨S5000, .f32⟩
  | 111 => ⟨S5000, .f32⟩
  | 112 => ⟨S_, .f32⟩
  | 113 => ⟨S5000, .f32⟩
  | 114 => ⟨S5000, .f32⟩
  | 115 => ⟨S5000x32, .f32⟩
  | 116 => ⟨S_, .i32⟩
  | 117 => ⟨S80000, .i32⟩
  | 118 => ⟨S80000, .i1⟩
  | 119 => ⟨S_, .i32⟩
  | 120 => ⟨S80000, .i32⟩
  | 121 => ⟨S80000, .i32⟩
  | 122 => ⟨S80000, .i32⟩
  | 123 => ⟨S80000x1, .i32⟩
  | 124 => ⟨S80000, .f32⟩
  | 125 => ⟨S_, .i32⟩
  | 126 => ⟨S80000, .i32⟩
  | 127 => ⟨S80000, .i1⟩
  | _ => ⟨S5000x2000, .f32⟩

abbrev hbmTy0_1 (i : Nat) : BufTy := match i % 128 with
  | 0 => ⟨S_, .i32⟩
  | 1 => ⟨S80000, .i32⟩
  | 2 => ⟨S80000, .i32⟩
  | 3 => ⟨S80000, .i32⟩
  | 4 => ⟨S80000x1, .i32⟩
  | 5 => ⟨S80000, .f32⟩
  | 6 => ⟨S80000, .f32⟩
  | 7 => ⟨S80000x1, .f32⟩
  | 8 => ⟨S_, .f32⟩
  | 9 => ⟨S5000x32, .f32⟩
  | 10 => ⟨S_, .i32⟩
  | 11 => ⟨S80000, .i32⟩
  | 12 => ⟨S80000, .i1⟩
  | 13 => ⟨S_, .i32⟩
  | 14 => ⟨S80000, .i32⟩
  | 15 => ⟨S80000, .i32⟩
  | 16 => ⟨S80000, .i32⟩
  | 17 => ⟨S80000x1, .i32⟩
  | 18 => ⟨S80000x32, .f32⟩
  | 19 => ⟨S80000x32, .f32⟩
  | 20 => ⟨S80000x32, .f32⟩
  | 21 => ⟨S_, .i32⟩
  | 22 => ⟨S80000, .i32⟩
  | 23 => ⟨S80000, .i1⟩
  | 24 => ⟨S_, .i32⟩
  | 25 => ⟨S80000, .i32⟩
  | 26 => ⟨S80000, .i32⟩
  | 27 => ⟨S80000, .i32⟩
  | 28 => ⟨S80000x1, .i32⟩
  | 29 => ⟨S5000x32, .f32⟩
  | 30 => ⟨S_, .f32⟩
  | 31 => ⟨S5000, .f32⟩
  | 32 => ⟨S5000, .f32⟩
  | 33 => ⟨S5000x1, .f32⟩
  | 34 => ⟨S5000x32, .f32⟩
  | 35 => ⟨S5000x32, .f32⟩
  | 36 => ⟨S5000x32, .f32⟩
  | 37 => ⟨S1x32, .f32⟩
  | 38 => ⟨S5000x32, .f32⟩
  | 39 => ⟨S5000x32, .f32⟩
  | 40 => ⟨S_, .f32⟩
  | 41 => ⟨S5000, .f32⟩
  | 42 => ⟨S_, .f32⟩
  | 43 => ⟨S5000, .f32⟩
  | 44 => ⟨S5000, .f32⟩
  | 45 => ⟨S5000x1, .f32⟩
  | 46 => ⟨S5000x20000, .f32⟩
  | 47 => ⟨S5000x20000, .f32⟩
  | 48 => ⟨S5000x20000, .f32⟩
  | 49 => ⟨S_, .f32⟩
  | 50 => ⟨S5000, .f32⟩
  | 51 => ⟨S5000x1, .f32⟩
  | 52 => ⟨S5000x20000, .f32⟩
  | 53 => ⟨S5000x20000, .f32⟩
  | 54 => ⟨S_, .f32⟩
  | 55 => ⟨S20000, .f32⟩
  | 56 => ⟨S_, .f32⟩
  | 57 => ⟨S20000, .f32⟩
  | 58 => ⟨S20000, .f32⟩
  | 59 => ⟨S20000x1, .f32⟩
  | 60 => ⟨S20000x20, .f32⟩
  | 61 => ⟨S20000x20, .f32⟩
  | 62 => ⟨S20000x20, .f32⟩
  | 63 => ⟨S_, .f32⟩
  | 64 => ⟨S20000, .f32⟩
  | 65 => ⟨S20000x1, .f32⟩
  | 66 => ⟨S20000x20, .f32⟩
  | 67 => ⟨S20000x20, .f32⟩
  | 68 => ⟨S_, .f32⟩
  | 69 => ⟨S20, .f32⟩
  | 70 => ⟨S_, .f32⟩
  | 71 => ⟨S20, .f32⟩
  | 72 => ⟨S20, .f32⟩
  | 73 => ⟨S20x256, .f32⟩
  | 74 => ⟨S1x256, .f32⟩
  | 75 => ⟨S20x256, .f32⟩
  | 76 => ⟨S20x256, .f32⟩
  | 77 => ⟨S_, .f32⟩
  | 78 => ⟨S20x256, .f32⟩
  | 79 => ⟨S20x256, .f32⟩
  | 80 => ⟨S20x2000, .f32⟩
  | 81 => ⟨S1x2000, .f32⟩
  | 82 => ⟨S20x2000, .f32⟩
  | 83 => ⟨S20x2000, .f32⟩
  | 84 => ⟨S_, .f32⟩
  | 85 => ⟨S20, .f32⟩
  | 86 => ⟨S20, .f32⟩
  | 87 => ⟨S20x1, .f32⟩
  | 88 => ⟨S20x2000, .f32⟩
  | 89 => ⟨S20x2000, .f32⟩
  | _ => ⟨S5000x2000, .f32⟩

abbrev hbmTy (i : Nat) : BufTy := match i / 128 with
  | 0 => hbmTy0_0 i
  | 1 => hbmTy0_1 i
  | _ => ⟨S5000x2000, .f32⟩

abbrev bufTy : (tb : Table) → Fin (tcTables nBuf tb) → BufTy
  | .hbm, ⟨i, _⟩ => hbmTy i
  | _, _ => ⟨S5000x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_c_7 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_c_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_13 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_call0_cst : Ref sig .tc := ⟨.hbm, 89, rfl⟩
abbrev main_call0_v0 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_c_15 : Ref sig .tc := ⟨.hbm, 98, rfl⟩
abbrev main_v66 : Ref sig .tc := ⟨.hbm, 99, rfl⟩
abbrev main_v67 : Ref sig .tc := ⟨.hbm, 100, rfl⟩
abbrev main_c_16 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_17 : Ref sig .tc := ⟨.hbm, 106, rfl⟩
abbrev main_v72 : Ref sig .tc := ⟨.hbm, 107, rfl⟩
abbrev main_v73 : Ref sig .tc := ⟨.hbm, 108, rfl⟩
abbrev main_cst_18 : Ref sig .tc := ⟨.hbm, 109, rfl⟩
abbrev main_v74 : Ref sig .tc := ⟨.hbm, 110, rfl⟩
abbrev main_v75 : Ref sig .tc := ⟨.hbm, 111, rfl⟩
abbrev main_cst_19 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_20 : Ref sig .tc := ⟨.hbm, 116, rfl⟩
abbrev main_v79 : Ref sig .tc := ⟨.hbm, 117, rfl⟩
abbrev main_v80 : Ref sig .tc := ⟨.hbm, 118, rfl⟩
abbrev main_c_21 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_c_22 : Ref sig .tc := ⟨.hbm, 125, rfl⟩
abbrev main_v86 : Ref sig .tc := ⟨.hbm, 126, rfl⟩
abbrev main_v87 : Ref sig .tc := ⟨.hbm, 127, rfl⟩
abbrev main_c_23 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_24 : Ref sig .tc := ⟨.hbm, 136, rfl⟩
abbrev main_v95 : Ref sig .tc := ⟨.hbm, 137, rfl⟩
abbrev main_c_25 : Ref sig .tc := ⟨.hbm, 138, rfl⟩
abbrev main_v96 : Ref sig .tc := ⟨.hbm, 139, rfl⟩
abbrev main_v97 : Ref sig .tc := ⟨.hbm, 140, rfl⟩
abbrev main_c_26 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_c_27 : Ref sig .tc := ⟨.hbm, 149, rfl⟩
abbrev main_v105 : Ref sig .tc := ⟨.hbm, 150, rfl⟩
abbrev main_v106 : Ref sig .tc := ⟨.hbm, 151, rfl⟩
abbrev main_c_28 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_29 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_30 : Ref sig .tc := ⟨.hbm, 168, rfl⟩
abbrev main_v121 : Ref sig .tc := ⟨.hbm, 169, rfl⟩
abbrev main_cst_31 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_32 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_33 : Ref sig .tc := ⟨.hbm, 182, rfl⟩
abbrev main_v132 : Ref sig .tc := ⟨.hbm, 183, rfl⟩
abbrev main_cst_34 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_35 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_36 : Ref sig .tc := ⟨.hbm, 196, rfl⟩
abbrev main_v143 : Ref sig .tc := ⟨.hbm, 197, rfl⟩
abbrev main_cst_37 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_call1_cst : Ref sig .tc := ⟨.hbm, 205, rfl⟩
abbrev main_call1_v0 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_cst_38 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩

abbrev nD : Nat := 1
abbrev τ : Topo := Topo.v7x

variable {F : FTy → Type} [FloatOps F]

class Facts₀ : Prop where
  slices_S2x80000_S1x80000_0_0 : S2x80000.Slices ![0, 0] S1x80000
  shapeCasts_S1x80000_S80000 : S1x80000.ShapeCasts S80000
  slices_S2x80000_S1x80000_1_0 : S2x80000.Slices ![1, 0] S1x80000
  bcast_S_S5000 : S_.BroadcastsInDim S5000 (![] : Fin 0 → Fin S5000.rank)
  bcast_S_S80000 : S_.BroadcastsInDim S80000 (![] : Fin 0 → Fin S80000.rank)
  bcast_S80000_S80000x1_0 : S80000.BroadcastsInDim S80000x1 (![0] : Fin 1 → Fin S80000x1.rank)
  bcast_S_S5000x64 : S_.BroadcastsInDim S5000x64 (![] : Fin 0 → Fin S5000x64.rank)
  bcast_S80000x1_S80000x64_0_1 : S80000x1.BroadcastsInDim S80000x64 (![0, 1] : Fin 2 → Fin S80000x64.rank)
  bcast_S5000_S5000x1_0 : S5000.BroadcastsInDim S5000x1 (![0] : Fin 1 → Fin S5000x1.rank)
  bcast_S5000x1_S5000x64_0_1 : S5000x1.BroadcastsInDim S5000x64 (![0, 1] : Fin 2 → Fin S5000x64.rank)
  bcast_S64_S1x64_1 : S64.BroadcastsInDim S1x64 (![1] : Fin 1 → Fin S1x64.rank)
  bcast_S1x64_S5000x64_0_1 : S1x64.BroadcastsInDim S5000x64 (![0, 1] : Fin 2 → Fin S5000x64.rank)
  bcast_S_S5000x32 : S_.BroadcastsInDim S5000x32 (![] : Fin 0 → Fin S5000x32.rank)
  bcast_S80000x1_S80000x32_0_1 : S80000x1.BroadcastsInDim S80000x32 (![0, 1] : Fin 2 → Fin S80000x32.rank)
  bcast_S5000x1_S5000x32_0_1 : S5000x1.BroadcastsInDim S5000x32 (![0, 1] : Fin 2 → Fin S5000x32.rank)
  bcast_S32_S1x32_1 : S32.BroadcastsInDim S1x32 (![1] : Fin 1 → Fin S1x32.rank)
  bcast_S1x32_S5000x32_0_1 : S1x32.BroadcastsInDim S5000x32 (![0, 1] : Fin 2 → Fin S5000x32.rank)
  reducesTo_S5000x20000_S5000_d1 : S5000x20000.ReducesTo [1] S5000
  h_S_ : 0 < S_.numel
  bcast_S5000x1_S5000x20000_0_1 : S5000x1.BroadcastsInDim S5000x20000 (![0, 1] : Fin 2 → Fin S5000x20000.rank)
  reducesTo_S20000x20_S20000_d1 : S20000x20.ReducesTo [1] S20000
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x20_0_1 : S20000x1.BroadcastsInDim S20000x20 (![0, 1] : Fin 2 → Fin S20000x20.rank)
  reducesTo_S20000x20_S20_d0 : S20000x20.ReducesTo [0] S20
  bcast_S_S20 : S_.BroadcastsInDim S20 (![] : Fin 0 → Fin S20.rank)
  bcast_S256_S1x256_1 : S256.BroadcastsInDim S1x256 (![1] : Fin 1 → Fin S1x256.rank)
  bcast_S1x256_S20x256_0_1 : S1x256.BroadcastsInDim S20x256 (![0, 1] : Fin 2 → Fin S20x256.rank)
  bcast_S_S20x256 : S_.BroadcastsInDim S20x256 (![] : Fin 0 → Fin S20x256.rank)
  bcast_S2000_S1x2000_1 : S2000.BroadcastsInDim S1x2000 (![1] : Fin 1 → Fin S1x2000.rank)
  bcast_S1x2000_S20x2000_0_1 : S1x2000.BroadcastsInDim S20x2000 (![0, 1] : Fin 2 → Fin S20x2000.rank)
  bcast_S20_S20x1_0 : S20.BroadcastsInDim S20x1 (![0] : Fin 1 → Fin S20x1.rank)
  bcast_S20x1_S20x2000_0_1 : S20x1.BroadcastsInDim S20x2000 (![0, 1] : Fin 2 → Fin S20x2000.rank)
  scatter_S5000_S80000x1_S80000_n_0_0_1_wf : ScatterDims.WF S5000 S80000x1 S80000 [] [0] [0] 1
  dot_S5000x2000_S2000x64_S5000x64_1_0_0_1_n_n_wf : DotDims.WF S5000x2000 S2000x64 S5000x64 [1] [0] [0] [1] [] []
  gather_S5000_S80000x1_S80000_n_0_n_n_0_1_1_wf : GatherDims.WF S5000 S80000x1 S80000 [] [0] [] [0] [] 1 ![1]
  gather_S5000x64_S80000x1_S80000x64_1_0_n_n_0_1_164_wf : GatherDims.WF S5000x64 S80000x1 S80000x64 [1] [0] [] [0] [] 1 ![1, 64]
  scatter_S5000x64_S80000x1_S80000x64_1_0_0_1_wf : ScatterDims.WF S5000x64 S80000x1 S80000x64 [1] [0] [0] 1
  dot_S5000x64_S64x32_S5000x32_1_0_0_1_n_n_wf : DotDims.WF S5000x64 S64x32 S5000x32 [1] [0] [0] [1] [] []
  gather_S5000x32_S80000x1_S80000x32_1_0_n_n_0_1_132_wf : GatherDims.WF S5000x32 S80000x1 S80000x32 [1] [0] [] [0] [] 1 ![1, 32]
  scatter_S5000x32_S80000x1_S80000x32_1_0_0_1_wf : ScatterDims.WF S5000x32 S80000x1 S80000x32 [1] [0] [0] 1
  dot_S20x32_S32x256_S20x256_1_0_0_1_n_n_wf : DotDims.WF S20x32 S32x256 S20x256 [1] [0] [0] [1] [] []
  dot_S20x256_S256x2000_S20x2000_1_0_0_1_n_n_wf : DotDims.WF S20x256 S256x2000 S20x2000 [1] [0] [0] [1] [] []

variable [Facts₀]

def scatter_S5000_S80000x1_S80000_n_0_0_1 : ScatterDims S5000 S80000x1 S80000 where
  updateWindowDims := []
  insertedWindowDims := [0]
  scatterDimsToOperandDims := [0]
  indexVectorDim := 1
  wf := scatter_S5000_S80000x1_S80000_n_0_0_1_wf
def dot_S5000x2000_S2000x64_S5000x64_1_0_0_1_n_n : DotDims S5000x2000 S2000x64 S5000x64 where
  lhsContracting := [1]
  rhsContracting := [0]
  lhsNonContracting := [0]
  rhsNonContracting := [1]
  lhsBatch := []
  rhsBatch := []
  wf := dot_S5000x2000_S2000x64_S5000x64_1_0_0_1_n_n_wf
def gather_S5000_S80000x1_S80000_n_0_n_n_0_1_1 : GatherDims S5000 S80000x1 S80000 where
  offsetDims := []
  collapsedSliceDims := [0]
  operandBatchingDims := []
  startIndicesBatchingDims := []
  startIndexMap := [0]
  indexVectorDim := 1
  sliceSizes := ![1]
  wf := gather_S5000_S80000x1_S80000_n_0_n_n_0_1_1_wf
def gather_S5000x64_S80000x1_S80000x64_1_0_n_n_0_1_164 : GatherDims S5000x64 S80000x1 S80000x64 where
  offsetDims := [1]
  collapsedSliceDims := [0]
  operandBatchingDims := []
  startIndicesBatchingDims := []
  startIndexMap := [0]
  indexVectorDim := 1
  sliceSizes := ![1, 64]
  wf := gather_S5000x64_S80000x1_S80000x64_1_0_n_n_0_1_164_wf
def scatter_S5000x64_S80000x1_S80000x64_1_0_0_1 : ScatterDims S5000x64 S80000x1 S80000x64 where
  updateWindowDims := [1]
  insertedWindowDims := [0]
  scatterDimsToOperandDims := [0]
  indexVectorDim := 1
  wf := scatter_S5000x64_S80000x1_S80000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S5000x32_S80000x1_S80000x32_1_0_n_n_0_1_132 : GatherDims S5000x32 S80000x1 S80000x32 where
  offsetDims := [1]
  collapsedSliceDims := [0]
  operandBatchingDims := []
  startIndicesBatchingDims := []
  startIndexMap := [0]
  indexVectorDim := 1
  sliceSizes := ![1, 32]
  wf := gather_S5000x32_S80000x1_S80000x32_1_0_n_n_0_1_132_wf
def scatter_S5000x32_S80000x1_S80000x32_1_0_0_1 : ScatterDims S5000x32 S80000x1 S80000x32 where
  updateWindowDims := [1]
  insertedWindowDims := [0]
  scatterDimsToOperandDims := [0]
  indexVectorDim := 1
  wf := scatter_S5000x32_S80000x1_S80000x32_1_0_0_1_wf
def dot_S20x32_S32x256_S20x256_1_0_0_1_n_n : DotDims S20x32 S32x256 S20x256 where
  lhsContracting := [1]
  rhsContracting := [0]
  lhsNonContracting := [0]
  rhsNonContracting := [1]
  lhsBatch := []
  rhsBatch := []
  wf := dot_S20x32_S32x256_S20x256_1_0_0_1_n_n_wf
def dot_S20x256_S256x2000_S20x2000_1_0_0_1_n_n : DotDims S20x256 S256x2000 S20x2000 where
  lhsContracting := [1]
  rhsContracting := [0]
  lhsNonContracting := [0]
  rhsNonContracting := [1]
  lhsBatch := []
  rhsBatch := []
  wf := dot_S20x256_S256x2000_S20x2000_1_0_0_1_n_n_wf

class Facts : Prop extends Facts₀ where

variable [Facts]
-- ==== Proof.KBReg0.lean ====
import proofs.«412470_j4346506903645_2_alg».proof.Proof.Gen.Kernel.Launch
import proofs.«412470_j4346506903645_2_alg».proof.Proof.Gen.Kernel.Skeleton
import proofs.«412470_j4346506903645_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 0: a matrix product, one row block per grid point

The left operand is read in row blocks (S200x2000), the right operand whole (S2000x64); each grid point stores the product of its
row block with the whole right operand into the matching row block of the result (S200x64). This module states, for any
contents `V` of the core's buffers at the region's entry, what each window's staging buffer holds after the body at
each point, and proves that the kernel body run on those buffers leaves exactly that.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array (at the entry contents `V`) the point works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or not (an unfetched
    window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rx0 : Rect S200x2000 := Rect.unit (s := S200x2000) ![0, 0] S200x2000.size inb_S200x2000_S200x2000_0_0
abbrev rw0 : Rect S2000x64 := Rect.unit (s := S2000x64) ![0, 0] S2000x64.size inb_S2000x64_S2000x64_0_0
abbrev ro0 : Rect S200x64 := Rect.unit (s := S200x64) ![0, 0] S200x64.size inb_S200x64_S200x64_0_0

/-- The result window's staging buffer after the body: the one whole store of the product of the two loaded blocks. -/
def out0_2 (x0 : Vec F S200x2000 .f32) (x1 : Vec F S2000x64 .f32) : Vec F S200x64 .f32 :=
  View.canon [⟨ro0, k0_pay1 (View.ld x0 rx0) (View.ld x1 rw0)⟩]

/-- The one store covers the whole buffer. -/
theorem cover0_2 (p0 : Vec F S200x64 .f32) (y : S200x64.Idx) :
    ∃ pc ∈ ([⟨ro0, p0⟩] : List (View.Piece (Elt F) S200x64 .f32)), y ∈ pc.1.set :=
  View.cover_of_tiled [⟨ro0, p0⟩] S200x64.size (by rfl) y

set_option maxHeartbeats 1000000 in
/-- The kernel body on whole staging memrefs — the operands' at contents `x0`, `x1`, the result's at anything — runs to
    the continuation with the operands' unchanged and the result's at `out0_2 x0 x1`. -/
theorem sound_kernel0 (c : Dev nD) (E : Set ℕ) (i : grid0.Coords) (arg0 : Memref sig .tc .vmem S200x2000 .f32) (harg0 : arg0.IsWhole) (arg1 : Memref sig .tc .vmem S2000x64 .f32) (harg1 : arg1.IsWhole)
    (arg2 : Memref sig .tc .vmem S200x64 .f32) (harg2 : arg2.IsWhole)
    (x0 : Vec F S200x2000 .f32) (x1 : Vec F S2000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this region's pipeline on core `c`: the arrays as the region finds them; after the body at point
    `t` each operand's buffer at its block and the result's at the product of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBReg1.lean ====
import proofs.«412470_j4346506903645_2_alg».proof.Proof.Gen.Kernel.Launch
import proofs.«412470_j4346506903645_2_alg».proof.Proof.Gen.Kernel.Skeleton
import proofs.«412470_j4346506903645_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 1: a matrix product, one row block per grid point

The left operand is read in row blocks (S200x5000), the right operand whole (S5000x64); each grid point stores the product of its
row block with the whole right operand into the matching row block of the result (S200x64). This module states, for any
contents `V` of the core's buffers at the region's entry, what each window's staging buffer holds after the body at
each point, and proves that the kernel body run on those buffers leaves exactly that.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array (at the entry contents `V`) the point works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or not (an unfetched
    window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rx1 : Rect S200x5000 := Rect.unit (s := S200x5000) ![0, 0] S200x5000.size inb_S200x5000_S200x5000_0_0
abbrev rw1 : Rect S5000x64 := Rect.unit (s := S5000x64) ![0, 0] S5000x64.size inb_S5000x64_S5000x64_0_0
abbrev ro1 : Rect S200x64 := Rect.unit (s := S200x64) ![0, 0] S200x64.size inb_S200x64_S200x64_0_0

/-- The result window's staging buffer after the body: the one whole store of the product of the two loaded blocks. -/
def out1_2 (x0 : Vec F S200x5000 .f32) (x1 : Vec F S5000x64 .f32) : Vec F S200x64 .f32 :=
  View.canon [⟨ro1, k1_pay1 (View.ld x0 rx1) (View.ld x1 rw1)⟩]

/-- The one store covers the whole buffer. -/
theorem cover1_2 (p0 : Vec F S200x64 .f32) (y : S200x64.Idx) :
    ∃ pc ∈ ([⟨ro1, p0⟩] : List (View.Piece (Elt F) S200x64 .f32)), y ∈ pc.1.set :=
  View.cover_of_tiled [⟨ro1, p0⟩] S200x64.size (by rfl) y

set_option maxHeartbeats 1000000 in
/-- The kernel body on whole staging memrefs — the operands' at contents `x0`, `x1`, the result's at anything — runs to
    the continuation with the operands' unchanged and the result's at `out1_2 x0 x1`. -/
theorem sound_kernel1 (c : Dev nD) (E : Set ℕ) (i : grid1.Coords) (arg0 : Memref sig .tc .vmem S200x5000 .f32) (harg0 : arg0.IsWhole) (arg1 : Memref sig .tc .vmem S5000x64 .f32) (harg1 : arg1.IsWhole)
    (arg2 : Memref sig .tc .vmem S200x64 .f32) (harg2 : arg2.IsWhole)
    (x0 : Vec F S200x5000 .f32) (x1 : Vec F S5000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__adjmm_kernel i arg0 harg0 arg1 harg1 arg2 harg2) K := by
  simp only [cc1__adjmm_kernel_eq_skeleton]; unfold cc1__adjmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this region's pipeline on core `c`: the arrays as the region finds them; after the body at point
    `t` each operand's buffer at its block and the result's at the product of the two blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBReg2.lean ====
import proofs.«412470_j4346506903645_2_alg».proof.Proof.Gen.Kernel.Launch
import proofs.«412470_j4346506903645_2_alg».proof.Proof.Gen.Kernel.Skeleton
import proofs.«412470_j4346506903645_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 2: a matrix product, one row block per grid point

The left operand is read in row blocks (S200x5000), the right operand whole (S5000x32); each grid point stores the product of its
row block with the whole right operand into the matching row block of the result (S200x32). This module states, for any
contents `V` of the core's buffers at the region's entry, what each window's staging buffer holds after the body at
each point, and proves that the kernel body run on those buffers leaves exactly that.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array (at the entry contents `V`) the point works on. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the point fetched it or not (an unfetched
    window's block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rx2 : Rect S200x5000 := Rect.unit (s := S200x5000) ![0, 0] S200x5000.size inb_S200x5000_S200x5000_0_0
abbrev rw2 : Rect S5000x32 := Rect.unit (s := S5000x32) ![0, 0] S5000x32.size inb_S5000x32_S5000x32_0_0
abbrev ro2 : Rect S200x32 := Rect.unit (s := S200x32) ![0, 0] S200x32.size inb_S200x32_S200x32_0_0

/-- The result window's staging buffer after the body: the one whole store of the product of the two loaded blocks. -/
def out2_2 (x0 : Vec F S200x5000 .f32) (x1 : Vec F S5000x32 .f32) : Vec F S200x32 .f32 :=
  View.canon [⟨ro2, k2_pay1 (View.ld x0 rx2) (View.ld x1 rw2)⟩]

/-- The one store covers the whole buffer. -/
theorem cover2_2 (p0 : Vec F S200x32 .f32) (y : S200x32.Idx) :
    ∃ pc ∈ ([⟨ro2, p0⟩] : List (View.Piece (Elt F) S200x32 .f32)), y ∈ pc.1.set :=
  View.cover_of_tiled [⟨ro2, p0⟩] S200x32.size (by rfl) y

set_option maxHeartbeats 1000000 in
/-- The kernel body on whole staging memrefs — the operands' at contents `x0`, `x1`, the result's at anything — runs to
    the continuation with the operands' unchanged and the result's at `out2_2 x0 x1`. -/
theorem sound_kernel2 (c : Dev nD) (E : Set ℕ) (i : grid2.Coords) (arg0 : Memref sig .tc .vmem S200x5000 .f32) (harg0 : arg0.IsWhole) (arg1 : Memref sig .tc .vmem S5000x32 .f32) (harg1 : arg1.IsWhole)
    (arg2 : Memref sig .tc .vmem S200x32 .f32) (harg2 : arg2.IsWhole)
    (x0 : Vec F S200x5000 .f32) (x1 : Vec F S5000x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__adjmm_kernel i arg0 harg0 arg1 harg1 arg2 harg2) K := by
  simp only [cc2__adjmm_kernel_eq_skeleton]; unfold cc2__adjmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this region's pipeline on core `c`: the arrays as the region finds them; after the body at point
    `t` each operand's buffer at its block and the result's at the product of the two blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBReg3.lean ====
import proofs.«412470_j4346506903645_2_alg».proof.Proof.Gen.Kernel.Launch
import proofs.«412470_j4346506903645_2_alg».proof.Proof.Gen.Kernel.Skeleton
import proofs.«412470_j4346506903645_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 3: a row softmax, one block of 64 rows per grid point, the last block cut

The operand (5000 rows) is read in blocks of 64 rows, 79 of them: the last block reaches past the array's end, so its
fetch fills only the rows inside the array and the rest of the staging buffer keeps words nobody chose. At the bit-exact
reading the row sum is a function of the whole block, those words included, so what the body stores in the result's
staging buffer cannot be named. The frame does not need it named: nothing after this region reads the result. This
module therefore gives the region proof data that say NOTHING of either window's staging buffer — each is handed to the
body at arbitrary contents and taken back at arbitrary contents — and proves the one thing that remains: the body, run
on two whole staging buffers at any contents, runs (a whole load of each, a whole store into the second).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both windows are forgotten: the operand's staging buffer (its tail past the array's end is not chosen by anyone) and
    the result's (a function of that tail). -/
def forgets3 : Fin 2 → Bool := fun _ => true

set_option maxHeartbeats 1000000 in
/-- The kernel body on two whole staging memrefs at ANY contents runs to the continuation, which receives both at some
    contents: the operand's is only read, the result's is read and then stored whole. -/
theorem sound_kernel3 (c : Dev nD) (E : Set ℕ) (i : grid3.Coords) (arg0 : Memref sig .tc .vmem S64x20000 .f32) (harg0 : arg0.IsWhole)
    (arg1 : Memref sig .tc .vmem S64x20000 .f32) (harg1 : arg1.IsWhole) (K : PUnit → sProp 𝕄) :
    iprop((∃ d, owns (c : Thread nD τ) arg0 fullShare d) ∗ (∃ d, owns (c : Thread nD τ) arg1 fullShare d)
        ∗ (iprop((∃ d, owns (c : Thread nD τ) arg0 fullShare d) ∗ (∃ d, owns (c : Thread nD τ) arg1 fullShare d)) -∗ K ⟨⟩))
      ⊢ wp frame (wpE (defs₀ (F := F)) Variants.none c none) E (cc3__softmax_kernel i arg0 harg0 arg1 harg1) K := by
  simp only [cc3__softmax_kernel_eq_skeleton]; unfold cc3__softmax_kernel_skel
  unfold owns
  iintro ⟨⟨%d0, %f0, %hf0, H0⟩, ⟨%d1, %f1, -, H1⟩, Hk⟩
  subst hf0
  sl_exec
  sl_step
  iapply Hk
  isplitl [H0]
  · iexists _; iexists f0; isplitr; · ipureintro; rfl
    iexact H0
  iexists _; iexists _; isplitr
  swap; · iexact H1
  ipureintro; rfl

/-- The proof data of this region's pipeline on core `c`: the arrays as the region finds them (`V`); of what the body
    leaves in a staging buffer nothing is said (both windows forgotten), so the field that would name it holds contents
    nobody reads. -/
def dat3 (c : Dev nD) : Dat τ (Elt F) Unit ℕ (UR sig nD τ) ℕ cfg3 c where
  A w := V c (Pipeline.arrRef spec3 w)
  after w t := Pipeline.Dat.unnamed (cfg := cfg3) w t
  Φ _ := Pipeline.ΦA spec3 c
  q _ := fullShare
  owed _ := 0

theorem A_eq3 (c : Dev nD) (w : Fin cfg3.W) : (dat3 V c).A w = V c (Pipeline.arrRef spec3 w) := by
  dsimp only [dat3]

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare d)
    ∗ (∃ d, owns (c : Thread nD τ) (st3_1 t) fullShare d))

/-- and what it returns. -/
def bodyPost3 (c : Dev nD) (t : Fin cfg3.N) : sProp 𝕄 :=
  iprop((dat3 V c).Φ t.succ ∗ (dat3 V c).owesAt () t.succ
    ∗ (∃ d, owns (c : Thread nD τ) (st3_0 t) fullShare d)
    ∗ (∃ d, owns (c : Thread nD τ) (st3_1 t) fullShare d))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [show (dat3 V c).Φ t.succ = (dat3 V c).Φ t.castSucc from rfl,
    show (dat3 V c).owesAt () t.succ = (dat3 V c).owesAt () t.castSucc from rfl]
  iintro ⟨HΦ, Ho, H0, H1⟩
  iapply (sound_kernel3 c Set.univ _ _ _ _ _ _)
  isplitl [H0]; · iexact H0
  isplitl [H1]; · iexact H1
  iintro ⟨H0, H1⟩
  isplitl [HΦ]; · iexact HΦ
  isplitl [Ho]; · iexact Ho
  isplitl [H0]; · iexact H0
  iexact H1

/-- The body obligation at every grid point, both windows forgotten. -/
theorem body_obligation3 (c : Dev nD) : BodyObligation (dat3 (F := F) V c) (defs₀ (F := F)) Variants.none () Set.univ forgets3 := fun t => by
  rw [bigSep_W3, bigSep_W3]
  exact sound_body3 V c t

end Cert.Kernel.Hand

end
-- ==== Proof.KBRun.lean ====
import proofs.«412470_j4346506903645_2_alg».proof.Proof.KBReg0
import proofs.«412470_j4346506903645_2_alg».proof.Proof.KBReg1
import proofs.«412470_j4346506903645_2_alg».proof.Proof.KBReg2
import proofs.«412470_j4346506903645_2_alg».proof.Proof.KBReg3

/-!
# The kernel program's run at any float reading, and its frame

The program is twelve items: a stretch of host operations (it builds the normalized adjacency matrix), the first matrix
product, the first aggregation, three short host stretches, the second aggregation, the second bias, the row softmax, and
three host stretches. The contents of the core's buffers are followed item by item: a host stretch applies its operations; a
kernel region replaces its windows' arrays by what the pipeline's write-backs leave and keeps every other buffer.

The row softmax is the exception. Its last block of rows reaches past the operand's end, the staging buffer's tail there
holds words nobody chose, and at the bit-exact reading the row sum depends on the whole block: what the region leaves in its
result array is not named. Its proof data therefore say nothing of its windows' staging buffers, its exit knows the result
array only at SOME contents `X`, and from there on the buffers' contents are followed as a function of that `X`, the thread
state saying "for some `X`". No later item reads or writes the result array, and the frame reads the thirteen argument
arrays only, which no item writes: each is walked back through the items to the launch memory.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => m ((c : Dev nD), b)

/-- After the first host stretch. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its windows' arrays at what the pipeline's write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its windows' arrays at what the pipeline's write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the first bias. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b

/-- After the rectifier. -/
abbrev W5 : Dev nD → Valuation τ sig (Elt F) := fun c => StableHlo.after hostOps2_1 (W4 m c)
abbrev V5 : (c : Dev nD) → (b : Ref sig .tc) → Buf (Elt F) ((c : Thread nD τ).loc b) := fun c b => W5 m c b

/-- After the small product. -/
abbrev W6 : Dev nD → Valuation τ sig (Elt F) := fun c => StableHlo.after hostOps2_2 (W5 m c)
abbrev V6 : (c : Dev nD) → (b : Ref sig .tc) → Buf (Elt F) ((c : Thread nD τ).loc b) := fun c b => W6 m c b

/-- At region 2's exit: its windows' arrays at what the pipeline's write-backs leave, every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev V7 : (c : Dev nD) → (b : Ref sig .tc) → Buf (Elt F) ((c : Thread nD τ).loc b) := fun c b => W7 m c b
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

/-- After the second bias. -/
abbrev W8 : Dev nD → Valuation τ sig (Elt F) := fun c => StableHlo.after hostOps3 (W7 m c)
abbrev V8 : (c : Dev nD) → (b : Ref sig .tc) → Buf (Elt F) ((c : Thread nD τ).loc b) := fun c b => W8 m c b

/-! ### From the softmax region on: the result array at contents nobody names -/

/-- At region 3's exit, if its result array then holds `X`: that array at `X`, every other buffer as entered (the operand
    array is only read). -/
abbrev Res (F : FTy → Type) : Type := (Proc.devRef .tc main_v75 : DevRef τ sig).ty.Contents (Elt F)
def W9 (X : Res F) (c : Dev nD) : Valuation τ sig (Elt F) :=
  Function.update (W8 m c) (Proc.devRef .tc main_v75) X
theorem W9_self (X : Res F) (c : Dev nD) : W9 m X c (Proc.devRef .tc main_v75) = X := by
  unfold W9; exact Function.update_self ..
theorem W9_of_ne (X : Res F) (c : Dev nD) (b : Ref sig .tc) (hb : b ≠ main_v75) :
    W9 m X c (Proc.devRef .tc b) = W8 m c (Proc.devRef .tc b) := by
  unfold W9; exact Function.update_of_ne (StableHlo.devRef_ne_of_ne hb) ..
abbrev V9 (X : Res F) : (c : Dev nD) → (b : Ref sig .tc) → Buf (Elt F) ((c : Thread nD τ).loc b) := fun c b => W9 m X c b

/-- After the softmax of the second factor and the decoder's first product. -/
abbrev W10 (X : Res F) : Dev nD → Valuation τ sig (Elt F) := fun c => StableHlo.after hostOps4 (W9 m X c)
/-- After the decoder's rectifier. -/
abbrev W11 (X : Res F) : Dev nD → Valuation τ sig (Elt F) := fun c => StableHlo.after hostOps4_1 (W10 m X c)
/-- After the decoder's last stretch: the contents at the return. -/
abbrev W12 (X : Res F) : Dev nD → Valuation τ sig (Elt F) := fun c => StableHlo.after hostOps4_2 (W11 m X c)

/-! ## The proof data of the four pipelines, and the thread state -/

/-- No pipeline has a prefetched table. -/
abbrev adm : (p : Fin 4) → (pcfgs (F := F) p).Adm := fun p => (cfgs p).toPCfg_adm
/-- Every pipeline's exact proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V6 m) c
  | ⟨3, _⟩ => fun c => dat3 (V8 m) c
/-- The same read as relations between what the body finds in a staging buffer and what it leaves there: the three
    matrix products' data say exactly what their exact data say; the softmax's say nothing of either window. -/
def rdats : (p : Fin 4) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V2 m) c).toR
  | ⟨2, _⟩ => fun c => (dat2 (V6 m) c).toR
  | ⟨3, _⟩ => fun c => (dat3 (V8 m) c).toRForget forgets3
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers at the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- A host stretch as a segment over the unscoped buffers at contents `W x` for SOME `x`: it runs, whatever `x` is, as the
    stretch from `W x` does, and ends at the contents the stretch makes of `W x`, for that `x`. -/
def hsegSome {ξ : Type} (ops : List (HloOp τ sig (Elt F))) (hsub : ops.Forall fun op => op.bufs ⊆ StableHlo.tcRefs τ sig)
    (hfresh : ops.Forall fun op => op.fresh = ∅) (W : ξ → Dev nD → Valuation τ sig (Elt F)) :
    Pipeline.HostSeg (Name := ℕ) (U := UR sig nD τ) (pcfgs (F := F)) defs₀ 𝒱₀ L lv where
  prog := StableHlo.seq ops
  pre c := iprop(∃ x, StableHlo.held (c : Thread nD τ) (Pipeline.ucRefs τ sig) (W x c) ∗ R c)
  post c := iprop(∃ x, StableHlo.held (c : Thread nD τ) (Pipeline.ucRefs τ sig) (StableHlo.after ops (W x c)) ∗ R c)
  run c {β} k K := by
    iintro ⟨Hk, Hbd, ⟨%x, Hh, HR⟩, -⟩
    have hseq := StableHlo.wp_seq (defs := Pipeline.defs (pcfgs (F := F)) defs₀) (Variants.lift 𝒱₀) none Set.univ c (Pipeline.ucRefs τ sig) k (K := K) ops
      (fun op h => Pipeline.sub_ucRefs op ((List.forall_iff_forall_mem.mp hsub) op h))
      (fun op h => (List.forall_iff_forall_mem.mp hfresh) op h) (W x c)
    iapply hseq $$ [Hbd Hh]
    · isplitl [Hbd] <;> iassumption
    iintro ⟨Hbd, Hh⟩
    iapply Hk
    isplitl [Hbd]; · iexact Hbd
    iexists x
    isplitl [Hh] <;> iassumption

/-- No host operation of the program allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps4_1_fresh : (hostOps4_1 : List (HloOp τ sig (Elt F))).Forall fun op => op.fresh = ∅ := by
  simp only [List.Forall]; repeat' constructor
theorem hostOps4_2_fresh : (hostOps4_2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: for some contents `X` of the softmax's result array, every unscoped buffer
    at the last contents; the generator register. -/
abbrev Tₙ (c : Dev nD) : sProp 𝕄 := iprop(∃ X, StableHlo.held (c : Thread nD τ) (Pipeline.ucRefs τ sig) (W12 m X c) ∗ ∃ r, prngReg c r)

/-! ## The regions as segments -/

set_option backward.isDefEq.respectTransparency.types false in
/-- Kernel region 0 (the first matrix product) over the thread state: entered with every unscoped buffer at `W1`, left with them at
    `W2`. Its windows' arrays are split out of the unscoped buffers at entry; at exit the arrays "at some contents the
    write-backs may leave" are, its data being exact, the arrays at the contents the data name, and go back among the
    unscoped buffers. The generator register passes through the pipeline's invariant; nothing is owed; the kernel has no
    semaphore of its own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    have harr : ((rdats m 0 c).arraysAt cfg0.N : sProp 𝕄) ⊢ (pdats m 0 c).arrays ((pdats m 0 c).arrAt · cfg0.N) :=
      Entails.of_eq ((dat0 (V1 m) c).toR_arraysAt_eq cfg0.N)
    iintro ⟨Ha, HO, HY, Hrest⟩
    ihave Ha := harr $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Kernel region 1 (the first aggregation) over the thread state: entered with every unscoped buffer at `W2`, left with them at
    `W3`. Its windows' arrays are split out of the unscoped buffers at entry; at exit the arrays "at some contents the
    write-backs may leave" are, its data being exact, the arrays at the contents the data name, and go back among the
    unscoped buffers. The generator register passes through the pipeline's invariant; nothing is owed; the kernel has no
    semaphore of its own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).toR
  hwaits := Pipeline.RDat.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    have harr : ((rdats m 1 c).arraysAt cfg1.N : sProp 𝕄) ⊢ (pdats m 1 c).arrays ((pdats m 1 c).arrAt · cfg1.N) :=
      Entails.of_eq ((dat1 (V2 m) c).toR_arraysAt_eq cfg1.N)
    iintro ⟨Ha, HO, HY, Hrest⟩
    ihave Ha := harr $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Kernel region 2 (the second aggregation) over the thread state: entered with every unscoped buffer at `W6`, left with them at
    `W7`. Its windows' arrays are split out of the unscoped buffers at entry; at exit the arrays "at some contents the
    write-backs may leave" are, its data being exact, the arrays at the contents the data name, and go back among the
    unscoped buffers. The generator register passes through the pipeline's invariant; nothing is owed; the kernel has no
    semaphore of its own. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).toR
  hwaits := Pipeline.RDat.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.RDat.arrays_of_unscopedBufs (p := 2) (pcfgs (F := F)) adm (rdats m) launch2.win launch2.arr_whole c
      ((rdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    have harr : ((rdats m 2 c).arraysAt cfg2.N : sProp 𝕄) ⊢ (pdats m 2 c).arrays ((pdats m 2 c).arrAt · cfg2.N) :=
      Entails.of_eq ((dat2 (V6 m) c).toR_arraysAt_eq cfg2.N)
    iintro ⟨Ha, HO, HY, Hrest⟩
    ihave Ha := harr $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Kernel region 3 (the row softmax) over the thread state: entered with every unscoped buffer at `W8`; left with them, for
    SOME contents `X` of the result array, at `W9 X`. Entry is as for the other regions. At exit each array comes back at
    some contents the write-backs may have left: of the operand's array, never written back, that is its entry contents; of
    the result's array nothing is known, and its contents are the `X` the thread state speaks of from here on. -/
def reg3 : Pipeline.RDat.RegionSeg (pcfgs (F := F)) adm (rdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).toRForget
  hwaits := Pipeline.RDat.hwaits_of_owed_zero _ _ _ _ L lv 3 fun _ _ => rfl
  pre c := iprop(StableHlo.held (c : Thread nD τ) (Pipeline.ucRefs τ sig) (W8 m c) ∗ R c)
  post c := iprop(∃ X, StableHlo.held (c : Thread nD τ) (Pipeline.ucRefs τ sig) (W9 m X c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.RDat.arrays_of_unscopedBufs (p := 3) (pcfgs (F := F)) adm (rdats m) launch3.win launch3.arr_whole c
      ((rdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats m 3 c).Φ (Fin.last _) = Pipeline.ΦA spec3 c from rfl]; unfold Pipeline.ΦA
    iintro ⟨Hr, Hp⟩
    isplitl [Hp]; · iexact Hp
    isplitr; · iempintro
    iexact Hr
  hexit c := by
    -- the arrays, window by window, each at some contents
    have hopen : ((rdats m 3 c).arraysAt cfg3.N : sProp 𝕄)
        ⊢ iprop(∃ X : Res F, (pdats m 3 c).arrays fun w => V9 m X c (Pipeline.arrRef spec3 w)) := by
      unfold Pipeline.RDat.arraysAt Pipeline.Dat.arrays
      rw [bigSep_W3]
      iintro ⟨⟨%F0, %h0, H0⟩, ⟨%F1, -, H1⟩⟩
      iexists F1
      rw [bigSep_W3]
      have e0 : F0 = V9 m F1 c (Pipeline.arrRef spec3 0) := by
        rw [(rdats m 3 c).ArrAt_in 0 rfl cfg3.N] at h0
        exact h0.trans (W9_of_ne m F1 c main_arg6 (by decide)).symm
      have e1 : F1 = V9 m F1 c (Pipeline.arrRef spec3 1) := (W9_self m F1 c).symm
      isplitl [H0]
      · dsimp only; rw [← e0]; iexact H0
      · dsimp only; rw [← e1]; iexact H1
    iintro ⟨Ha, HO, HY, Hrest⟩
    ihave Ha := hopen $$ Ha
    icases Ha with ⟨%X, Ha⟩
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V8 m c) (V9 m X c) (fun w => V9 m X c (Pipeline.arrRef spec3 w)) (fun _ => rfl)
      (fun b hb => W9_of_ne m X c b fun e => hb (Finset.mem_image.mpr ⟨1, Finset.mem_univ _, e.symm⟩))
    rw [Pipeline.unscopedBufs_held] at hjoin
    imodintro
    iexists X
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## The argument arrays are never written

The thirteen arguments are the references 0 … 12 of the core's main memory. Every host operation writes a reference past
them, no pipeline writes back into one (two are operands of the first matrix product, one of the softmax: read only), and
the softmax's result array is not one of them. So at an argument's buffer the contents, followed back item by item, are
the launch memory's. -/

/-- An argument of the program: one of the first thirteen references of the core's main memory. -/
def IsArg (r : Ref sig .tc) : Prop := r.space = .hbm ∧ r.idx.val < 13
instance (r : Ref sig .tc) : Decidable (IsArg r) := by unfold IsArg; infer_instance

/-- A reference that is no argument is another buffer than any argument's. -/
theorem ne_of_notArg {y : Ref sig .tc} (hy : ¬ IsArg y) (r : Ref sig .tc) (hr : IsArg r) :
    ¬ Proc.devRef (τ := τ) .tc r = Proc.devRef .tc y :=
  fun e => hy (Proc.devRef_injective _ e ▸ hr)

/-- A line of operations none of which writes an argument keeps every argument's buffer. -/
theorem keep_of (ops : List (HloOp τ sig (Elt F)))
    (h : ∀ op ∈ ops, ∀ r : Ref sig .tc, IsArg r → Proc.devRef (τ := τ) .tc r ∉ op.writes)
    (V : Valuation τ sig (Elt F)) (r : Ref sig .tc) (hr : IsArg r) :
    StableHlo.after ops V (Proc.devRef .tc r) = V (Proc.devRef .tc r) :=
  StableHlo.after_of_forall_not_mem ops V fun op hop => h op hop r hr

theorem hostOps0_keeps : ∀ op ∈ (hostOps0 : List (HloOp τ sig (Elt F))), ∀ r : Ref sig .tc, IsArg r → Proc.devRef (τ := τ) .tc r ∉ op.writes :=
  List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact ne_of_notArg (by decide))
theorem hostOps2_keeps : ∀ op ∈ (hostOps2 : List (HloOp τ sig (Elt F))), ∀ r : Ref sig .tc, IsArg r → Proc.devRef (τ := τ) .tc r ∉ op.writes :=
  List.forall_iff_forall_mem.mp (by
    simp only [hostOps2, List.Forall, StableHlo.nullary_writes, StableHlo.unary_writes, StableHlo.binary_writes, StableHlo.ternary_writes,
      StableHlo.reshape_writes, Finset.mem_singleton]
    repeat' apply And.intro
    all_goals exact ne_of_notArg (by decide))
theorem hostOps2_1_keeps : ∀ op ∈ (hostOps2_1 : List (HloOp τ sig (Elt F))), ∀ r : Ref sig .tc, IsArg r → Proc.devRef (τ := τ) .tc r ∉ op.writes :=
  List.forall_iff_forall_mem.mp (by
    simp only [hostOps2_1, List.Forall, StableHlo.nullary_writes, StableHlo.unary_writes, StableHlo.binary_writes, StableHlo.ternary_writes,
      StableHlo.reshape_writes, Finset.mem_singleton]
    repeat' apply And.intro
    all_goals exact ne_of_notArg (by decide))
theorem hostOps2_2_keeps : ∀ op ∈ (hostOps2_2 : List (HloOp τ sig (Elt F))), ∀ r : Ref sig .tc, IsArg r → Proc.devRef (τ := τ) .tc r ∉ op.writes :=
  List.forall_iff_forall_mem.mp (by
    simp only [hostOps2_2, List.Forall, StableHlo.nullary_writes, StableHlo.unary_writes, StableHlo.binary_writes, StableHlo.ternary_writes,
      StableHlo.reshape_writes, Finset.mem_singleton]
    repeat' apply And.intro
    all_goals exact ne_of_notArg (by decide))
theorem hostOps3_keeps : ∀ op ∈ (hostOps3 : List (HloOp τ sig (Elt F))), ∀ r : Ref sig .tc, IsArg r → Proc.devRef (τ := τ) .tc r ∉ op.writes :=
  List.forall_iff_forall_mem.mp (by
    simp only [hostOps3, List.Forall, StableHlo.nullary_writes, StableHlo.unary_writes, StableHlo.binary_writes, StableHlo.ternary_writes,
      StableHlo.reshape_writes, Finset.mem_singleton]
    repeat' apply And.intro
    all_goals exact ne_of_notArg (by decide))
theorem hostOps4_keeps : ∀ op ∈ (hostOps4 : List (HloOp τ sig (Elt F))), ∀ r : Ref sig .tc, IsArg r → Proc.devRef (τ := τ) .tc r ∉ op.writes :=
  List.forall_iff_forall_mem.mp (by
    simp only [hostOps4, List.Forall, StableHlo.nullary_writes, StableHlo.unary_writes, StableHlo.binary_writes, StableHlo.ternary_writes,
      StableHlo.reshape_writes, Finset.mem_singleton]
    repeat' apply And.intro
    all_goals exact ne_of_notArg (by decide))
theorem hostOps4_1_keeps : ∀ op ∈ (hostOps4_1 : List (HloOp τ sig (Elt F))), ∀ r : Ref sig .tc, IsArg r → Proc.devRef (τ := τ) .tc r ∉ op.writes :=
  List.forall_iff_forall_mem.mp (by
    simp only [hostOps4_1, List.Forall, StableHlo.nullary_writes, StableHlo.unary_writes, StableHlo.binary_writes, StableHlo.ternary_writes,
      StableHlo.reshape_writes, Finset.mem_singleton]
    repeat' apply And.intro
    all_goals exact ne_of_notArg (by decide))
theorem hostOps4_2_keeps : ∀ op ∈ (hostOps4_2 : List (HloOp τ sig (Elt F))), ∀ r : Ref sig .tc, IsArg r → Proc.devRef (τ := τ) .tc r ∉ op.writes :=
  List.forall_iff_forall_mem.mp (by
    simp only [hostOps4_2, List.Forall, StableHlo.nullary_writes, StableHlo.unary_writes, StableHlo.binary_writes, StableHlo.ternary_writes,
      StableHlo.reshape_writes, Finset.mem_singleton]
    repeat' apply And.intro
    all_goals exact ne_of_notArg (by decide))

/-- The first matrix product reads two arguments (its operands) and writes none. -/
theorem W2_arg (c : Dev nD) (r : Ref sig .tc) (hr : IsArg r) : W2 m c (Proc.devRef .tc r) = W1 m c (Proc.devRef .tc r) := by
  by_cases h0 : r = main_arg0
  · subst h0
    exact (W2_arr m c 0).trans (((dat0 (V1 m) c).arrAt_in 0 rfl _).trans (A_eq0 (V1 m) c 0))
  by_cases h2 : r = main_arg2
  · subst h2
    exact (W2_arr m c 1).trans (((dat0 (V1 m) c).arrAt_in 1 rfl _).trans (A_eq0 (V1 m) c 1))
  refine W2_of_ne m c r fun w => ?_
  fin_cases w
  · exact fun e => h0 e.symm
  · exact fun e => h2 e.symm
  · rintro rfl; exact absurd hr (by decide)
/-- The aggregations' arrays are no arguments. -/
theorem W3_arg (c : Dev nD) (r : Ref sig .tc) (hr : IsArg r) : W3 m c (Proc.devRef .tc r) = W2 m c (Proc.devRef .tc r) := by
  refine W3_of_ne m c r fun w => ?_
  fin_cases w <;> (rintro rfl; exact absurd hr (by decide))
theorem W7_arg (c : Dev nD) (r : Ref sig .tc) (hr : IsArg r) : W7 m c (Proc.devRef .tc r) = W6 m c (Proc.devRef .tc r) := by
  refine W7_of_ne m c r fun w => ?_
  fin_cases w <;> (rintro rfl; exact absurd hr (by decide))
/-- Nor is the softmax's result array. -/
theorem W9_arg (X : Res F) (c : Dev nD) (r : Ref sig .tc) (hr : IsArg r) : W9 m X c (Proc.devRef .tc r) = W8 m c (Proc.devRef .tc r) :=
  W9_of_ne m X c r (by rintro rfl; exact absurd hr (by decide))

/-- At the return an argument's buffer holds what the launch memory held. -/
theorem W12_arg (X : Res F) (c : Dev nD) (r : Ref sig .tc) (hr : IsArg r) :
    W12 m X c (Proc.devRef .tc r) = m ((c : Thread nD τ).loc r) :=
  calc W12 m X c (Proc.devRef .tc r)
    _ = W11 m X c (Proc.devRef .tc r) := keep_of _ hostOps4_2_keeps _ r hr
    _ = W10 m X c (Proc.devRef .tc r) := keep_of _ hostOps4_1_keeps _ r hr
    _ = W9 m X c (Proc.devRef .tc r) := keep_of _ hostOps4_keeps _ r hr
    _ = W8 m c (Proc.devRef .tc r) := W9_arg m X c r hr
    _ = W7 m c (Proc.devRef .tc r) := keep_of _ hostOps3_keeps _ r hr
    _ = W6 m c (Proc.devRef .tc r) := W7_arg m c r hr
    _ = W5 m c (Proc.devRef .tc r) := keep_of _ hostOps2_2_keeps _ r hr
    _ = W4 m c (Proc.devRef .tc r) := keep_of _ hostOps2_1_keeps _ r hr
    _ = W3 m c (Proc.devRef .tc r) := keep_of _ hostOps2_keeps _ r hr
    _ = W2 m c (Proc.devRef .tc r) := W3_arg m c r hr
    _ = W1 m c (Proc.devRef .tc r) := W2_arg m c r hr
    _ = W0 m c (Proc.devRef .tc r) := keep_of _ hostOps0_keeps _ r hr
    _ = m ((c : Thread nD τ).loc r) := rfl

/-! ## The program as its segments, and the launch -/

abbrev segs : List (Pipeline.RDat.Seg (pcfgs (F := F)) adm (rdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .region (reg2 m),
    .host (hseg hostOps3 hostOps3_sub hostOps3_fresh (W7 m)),
    .region (reg3 m),
    .host (hsegSome hostOps4 hostOps4_sub hostOps4_fresh (W9 m)),
    .host (hsegSome hostOps4_1 hostOps4_1_sub hostOps4_1_fresh (W10 m)),
    .host (hsegSome hostOps4_2 hostOps4_2_sub hostOps4_2_fresh (W11 m)) ]

/-- The program is the run of its segments. -/
theorem main_run (c : Dev nD) : main (F := F) c = Pipeline.RDat.Seg.run (segs m) := (main_chain c).trans (by chain_rfl)

set_option backward.isDefEq.respectTransparency.types false in
/-- THE FRAME, at any float reading: from any memory with zero counters, every fair execution of the program on the core
    terminates, nothing faulting, and every final state has the thirteen argument arrays as launched. The launch runs the
    twelve segments; the last thread state, read against the final state, says that for some contents of the softmax's result
    array every unscoped buffer holds the last contents; each argument's is walked back to the launch memory. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        change iprop(∃ X, StableHlo.held (c : Thread nD τ) (Pipeline.ucRefs τ sig) (W12 m X c) ∗ R c) ⊢ _
        iintro ⟨%X, Hh, Hp, HO⟩
        isplitl [Hh Hp]
        · iexists X
          isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ X : Res F, ∀ b ∈ Pipeline.ucRefs τ sig, s.mem (((c : Thread nD τ)).1, b) = W12 m X c b)
    (hfin := fun c s' => by
      iintro ⟨⟨%X, Hh, -⟩, HSI⟩
      unfold StableHlo.held
      imodintro
      ihave H := (pointsTo_read_all (Pipeline.ucRefs τ sig) (fun b => (((c : Thread nD τ)).1, b)) (W12 m X c) s') $$ [Hh HSI]
      · isplitl [Hh] <;> iassumption
      icases H with ⟨%h, HSI⟩
      isplitr; · ipureintro; exact ⟨X, h⟩
      iexact HSI)
    (hQ := fun s h c => by
      obtain ⟨X, hX⟩ := h c
      exact ⟨(hX _ (mem_uc main_arg0 (by decide))).trans (W12_arg m X c main_arg0 (by decide)),
        (hX _ (mem_uc main_arg1 (by decide))).trans (W12_arg m X c main_arg1 (by decide)),
        (hX _ (mem_uc main_arg2 (by decide))).trans (W12_arg m X c main_arg2 (by decide)),
        (hX _ (mem_uc main_arg3 (by decide))).trans (W12_arg m X c main_arg3 (by decide)),
        (hX _ (mem_uc main_arg4 (by decide))).trans (W12_arg m X c main_arg4 (by decide)),
        (hX _ (mem_uc main_arg5 (by decide))).trans (W12_arg m X c main_arg5 (by decide)),
        (hX _ (mem_uc main_arg6 (by decide))).trans (W12_arg m X c main_arg6 (by decide)),
        (hX _ (mem_uc main_arg7 (by decide))).trans (W12_arg m X c main_arg7 (by decide)),
        (hX _ (mem_uc main_arg8 (by decide))).trans (W12_arg m X c main_arg8 (by decide)),
        (hX _ (mem_uc main_arg9 (by decide))).trans (W12_arg m X c main_arg9 (by decide)),
        (hX _ (mem_uc main_arg10 (by decide))).trans (W12_arg m X c main_arg10 (by decide)),
        (hX _ (mem_uc main_arg11 (by decide))).trans (W12_arg m X c main_arg11 (by decide)),
        (hX _ (mem_uc main_arg12 (by decide))).trans (W12_arg m X c main_arg12 (by decide))⟩)

end Cert.Kernel.Hand

end
-- ==== Proof.KIReg0.lean ====
import proofs.«412470_j4346506903645_2_alg».proof.Proof.Gen.KernelIdeal.Launch
import proofs.«412470_j4346506903645_2_alg».proof.Proof.Gen.KernelIdeal.Skeleton
import proofs.«412470_j4346506903645_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 0: a matrix product, one row block per grid point

The left operand is read in row blocks (S200x2000), the right operand whole (S2000x64); each grid point stores the product of its
row block with the whole right operand into the matching row block of the result (S200x64). This module states, for any
contents `V` of the core's buffers at the region's entry, what each window's staging buffer holds after the body at
each point, and proves that the kernel body run on those buffers leaves exactly that.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array (at the entry contents `V`) the point works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or not (an unfetched
    window's block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rx0 : Rect S200x2000 := Rect.unit (s := S200x2000) ![0, 0] S200x2000.size inb_S200x2000_S200x2000_0_0
abbrev rw0 : Rect S2000x64 := Rect.unit (s := S2000x64) ![0, 0] S2000x64.size inb_S2000x64_S2000x64_0_0
abbrev ro0 : Rect S200x64 := Rect.unit (s := S200x64) ![0, 0] S200x64.size inb_S200x64_S200x64_0_0

/-- The result window's staging buffer after the body: the one whole store of the product of the two loaded blocks. -/
def out0_2 (x0 : Vec F S200x2000 .f32) (x1 : Vec F S2000x64 .f32) : Vec F S200x64 .f32 :=
  View.canon [⟨ro0, k0_pay1 (View.ld x0 rx0) (View.ld x1 rw0)⟩]

/-- The one store covers the whole buffer. -/
theorem cover0_2 (p0 : Vec F S200x64 .f32) (y : S200x64.Idx) :
    ∃ pc ∈ ([⟨ro0, p0⟩] : List (View.Piece (Elt F) S200x64 .f32)), y ∈ pc.1.set :=
  View.cover_of_tiled [⟨ro0, p0⟩] S200x64.size (by rfl) y

set_option maxHeartbeats 1000000 in
/-- The kernel body on whole staging memrefs — the operands' at contents `x0`, `x1`, the result's at anything — runs to
    the continuation with the operands' unchanged and the result's at `out0_2 x0 x1`. -/
theorem sound_kernel0 (c : Dev nD) (E : Set ℕ) (i : grid0.Coords) (arg0 : Memref sig .tc .vmem S200x2000 .f32) (harg0 : arg0.IsWhole) (arg1 : Memref sig .tc .vmem S2000x64 .f32) (harg1 : arg1.IsWhole)
    (arg2 : Memref sig .tc .vmem S200x64 .f32) (harg2 : arg2.IsWhole)
    (x0 : Vec F S200x2000 .f32) (x1 : Vec F S2000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this region's pipeline on core `c`: the arrays as the region finds them; after the body at point
    `t` each operand's buffer at its block and the result's at the product of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
import proofs.«412470_j4346506903645_2_alg».proof.Proof.Gen.KernelIdeal.Launch
import proofs.«412470_j4346506903645_2_alg».proof.Proof.Gen.KernelIdeal.Skeleton
import proofs.«412470_j4346506903645_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 1: a matrix product, one row block per grid point

The left operand is read in row blocks (S200x5000), the right operand whole (S5000x64); each grid point stores the product of its
row block with the whole right operand into the matching row block of the result (S200x64). This module states, for any
contents `V` of the core's buffers at the region's entry, what each window's staging buffer holds after the body at
each point, and proves that the kernel body run on those buffers leaves exactly that.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array (at the entry contents `V`) the point works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or not (an unfetched
    window's block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rx1 : Rect S200x5000 := Rect.unit (s := S200x5000) ![0, 0] S200x5000.size inb_S200x5000_S200x5000_0_0
abbrev rw1 : Rect S5000x64 := Rect.unit (s := S5000x64) ![0, 0] S5000x64.size inb_S5000x64_S5000x64_0_0
abbrev ro1 : Rect S200x64 := Rect.unit (s := S200x64) ![0, 0] S200x64.size inb_S200x64_S200x64_0_0

/-- The result window's staging buffer after the body: the one whole store of the product of the two loaded blocks. -/
def out1_2 (x0 : Vec F S200x5000 .f32) (x1 : Vec F S5000x64 .f32) : Vec F S200x64 .f32 :=
  View.canon [⟨ro1, k1_pay1 (View.ld x0 rx1) (View.ld x1 rw1)⟩]

/-- The one store covers the whole buffer. -/
theorem cover1_2 (p0 : Vec F S200x64 .f32) (y : S200x64.Idx) :
    ∃ pc ∈ ([⟨ro1, p0⟩] : List (View.Piece (Elt F) S200x64 .f32)), y ∈ pc.1.set :=
  View.cover_of_tiled [⟨ro1, p0⟩] S200x64.size (by rfl) y

set_option maxHeartbeats 1000000 in
/-- The kernel body on whole staging memrefs — the operands' at contents `x0`, `x1`, the result's at anything — runs to
    the continuation with the operands' unchanged and the result's at `out1_2 x0 x1`. -/
theorem sound_kernel1 (c : Dev nD) (E : Set ℕ) (i : grid1.Coords) (arg0 : Memref sig .tc .vmem S200x5000 .f32) (harg0 : arg0.IsWhole) (arg1 : Memref sig .tc .vmem S5000x64 .f32) (harg1 : arg1.IsWhole)
    (arg2 : Memref sig .tc .vmem S200x64 .f32) (harg2 : arg2.IsWhole)
    (x0 : Vec F S200x5000 .f32) (x1 : Vec F S5000x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__adjmm_kernel i arg0 harg0 arg1 harg1 arg2 harg2) K := by
  simp only [cc1__adjmm_kernel_eq_skeleton]; unfold cc1__adjmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this region's pipeline on core `c`: the arrays as the region finds them; after the body at point
    `t` each operand's buffer at its block and the result's at the product of the two blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2.lean ====
import proofs.«412470_j4346506903645_2_alg».proof.Proof.Gen.KernelIdeal.Launch
import proofs.«412470_j4346506903645_2_alg».proof.Proof.Gen.KernelIdeal.Skeleton
import proofs.«412470_j4346506903645_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Kernel region 2: a matrix product, one row block per grid point

The left operand is read in row blocks (S200x5000), the right operand whole (S5000x32); each grid point stores the product of its
row block with the whole right operand into the matching row block of the result (S200x32). This module states, for any
contents `V` of the core's buffers at the region's entry, what each window's staging buffer holds after the body at
each point, and proves that the kernel body run on those buffers leaves exactly that.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the part of its array (at the entry contents `V`) the point works on. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the point fetched it or not (an unfetched
    window's block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rx2 : Rect S200x5000 := Rect.unit (s := S200x5000) ![0, 0] S200x5000.size inb_S200x5000_S200x5000_0_0
abbrev rw2 : Rect S5000x32 := Rect.unit (s := S5000x32) ![0, 0] S5000x32.size inb_S5000x32_S5000x32_0_0
abbrev ro2 : Rect S200x32 := Rect.unit (s := S200x32) ![0, 0] S200x32.size inb_S200x32_S200x32_0_0

/-- The result window's staging buffer after the body: the one whole store of the product of the two loaded blocks. -/
def out2_2 (x0 : Vec F S200x5000 .f32) (x1 : Vec F S5000x32 .f32) : Vec F S200x32 .f32 :=
  View.canon [⟨ro2, k2_pay1 (View.ld x0 rx2) (View.ld x1 rw2)⟩]

/-- The one store covers the whole buffer. -/
theorem cover2_2 (p0 : Vec F S200x32 .f32) (y : S200x32.Idx) :
    ∃ pc ∈ ([⟨ro2, p0⟩] : List (View.Piece (Elt F) S200x32 .f32)), y ∈ pc.1.set :=
  View.cover_of_tiled [⟨ro2, p0⟩] S200x32.size (by rfl) y

set_option maxHeartbeats 1000000 in
/-- The kernel body on whole staging memrefs — the operands' at contents `x0`, `x1`, the result's at anything — runs to
    the continuation with the operands' unchanged and the result's at `out2_2 x0 x1`. -/
theorem sound_kernel2 (c : Dev nD) (E : Set ℕ) (i : grid2.Coords) (arg0 : Memref sig .tc .vmem S200x5000 .f32) (harg0 : arg0.IsWhole) (arg1 : Memref sig .tc .vmem S5000x32 .f32) (harg1 : arg1.IsWhole)
    (arg2 : Memref sig .tc .vmem S200x32 .f32) (harg2 : arg2.IsWhole)
    (x0 : Vec F S200x5000 .f32) (x1 : Vec F S5000x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__adjmm_kernel i arg0 harg0 arg1 harg1 arg2 harg2) K := by
  simp only [cc2__adjmm_kernel_eq_skeleton]; unfold cc2__adjmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this region's pipeline on core `c`: the arrays as the region finds them; after the body at point
    `t` each operand's buffer at its block and the result's at the product of the two blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.GcnSpec.lean ====
import Mathlib.Data.EReal.Operations
import Mathlib.Algebra.BigOperators.Group.Finset.Basic
import Mathlib.Order.Fin.Basic
import Idealize.ShloMosaic.PureOps.Ideal

/-!
# What the two programs compute, as plain functions over the extended reals

Both programs are two graph-convolution layers over the same edge list, a row softmax, and a small decoder. This module states
the graph-convolution part and the row softmax index by index, over functions of plain indices, in the arrangement of the
reference: a node's degree is one plus the number of edges that point at it; an edge `e` from `row e` to `col e` carries the
coefficient `deg(row e)^(-1/2) · deg(col e)^(-1/2)`; a layer sends the feature matrix `X` to
`c, j ↦ (0 + Σ_{e : col e = c} X (row e) j · coef e) + X c j · (1 / deg c)`.
-/

noncomputable section

namespace Cert.GcnSpec

open Idealize.ShloMosaic

/-- The words of the three float constants the programs spell: `1`, `0` and `-1/2`, read as extended reals. -/
abbrev one : EReal := Ideal.ofBits .f32 0x3F800000#32
abbrev zero : EReal := Ideal.ofBits .f32 0x00000000#32
abbrev negHalf : EReal := Ideal.ofBits .f32 0xBF000000#32

variable {E N D K M : ℕ}

/-- A node's degree: the edges that point at it, counted from zero by ones, and one more for the self loop. -/
def deg (col : Fin E → Fin N) (c : Fin N) : EReal :=
  (zero + ∑ _e ∈ Finset.univ.filter (fun e => col e = c), one) + one

/-- The degree to the power `-1/2`. -/
def dinv (col : Fin E → Fin N) (c : Fin N) : EReal := Ideal.pow (deg col c) negHalf

/-- An edge's coefficient: the product of the two end nodes' `dinv`, the source's first. -/
def coef (row col : Fin E → Fin N) (e : Fin E) : EReal := dinv col (row e) * dinv col (col e)

/-- The self loop's coefficient: one over the degree. -/
def dg (col : Fin E → Fin N) (c : Fin N) : EReal := Ideal.div one (deg col c)

/-- One aggregation: the edges into `c` bring their source's row times their coefficient, added from zero; then the node's own
    row times the self loop's coefficient. -/
def layer (row col : Fin E → Fin N) (X : Fin N → Fin D → EReal) (c : Fin N) (j : Fin D) : EReal :=
  (zero + ∑ e ∈ Finset.univ.filter (fun e => col e = c), X (row e) j * coef row col e) + X c j * dg col c

/-- A matrix product, entry by entry. -/
def mm (A : Fin M → Fin K → EReal) (B : Fin K → Fin D → EReal) (p : Fin M) (q : Fin D) : EReal := ∑ k : Fin K, A p k * B k q

/-- The rectifier: the larger of the value and the zero word. -/
def relu (x : EReal) : EReal := max x zero

/-- The encoder's result: two aggregations, the first with a bias and the rectifier after it, the second with a bias. -/
def h2 {G H : ℕ} (row col : Fin E → Fin N) (z : Fin N → Fin G → EReal) (W1 : Fin G → Fin H → EReal) (b1 : Fin H → EReal)
    (W2 : Fin H → Fin D → EReal) (b2 : Fin D → EReal) (p : Fin N) (j : Fin D) : EReal :=
  layer row col (mm (fun a k => relu (layer row col (mm z W1) a k + b1 k)) W2) p j + b2 j

/-- A row's maximum, from minus infinity. -/
def rowmax {C : ℕ} (u : Fin N → Fin C → EReal) (p : Fin N) : EReal := Finset.univ.sup (fun q => u p q)

/-- The row softmax: the exponentials of the row less its maximum, over their sum from zero. -/
def softmax {C : ℕ} (u : Fin N → Fin C → EReal) (p : Fin N) (q : Fin C) : EReal :=
  Ideal.div (Ideal.exp (u p q - rowmax u p)) (zero + ∑ q' : Fin C, Ideal.exp (u p q' - rowmax u p))

end Cert.GcnSpec

end
-- ==== Proof.KIPay3.lean ====
import proofs.«412470_j4346506903645_2_alg».proof.Proof.Gen.KernelIdeal.Skeleton
import proofs.«412470_j4346506903645_2_alg».proof.Proof.GcnSpec
import Idealize.ShloMosaic.PureOps.Ideal.Laws
import Idealize.ShloMosaic.Lib.ValueIdx
import Idealize.ShloMosaic.Lib.ValueLayout
import Idealize.ShloMosaic.Lib.Pipeline.Value
import Mathlib.Data.Finset.Lattice.Fold

/-!
# The row softmax body read at an index

The body of the softmax region takes a block of 64 rows of 20000 entries, and per row: the maximum (a fold of `max` from minus
infinity), kept as a column and spread back over the row; the exponentials of the row less that maximum; their exact sum, kept as
a column and spread back; the quotient. Read at row `r` and column `q` this is the row softmax of the specification, and it
depends on row `r` of the block only.
-/

noncomputable section

namespace Cert.KernelIdeal.Hand

open Cert.KernelIdeal Cert.KernelIdeal.Gen Idealize.ShloMosaic Idealize.ShloMosaic.ValueIdx

/-! ## The two keepdims layout steps -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Both together: a per-row value kept as a column and spread over the row reads, anywhere in row `p`, that row's value. -/
theorem column_spread_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Layout

/-! ## A fold of `max` from the bottom is the supremum -/

/-- Over the extended reals, folding `max` from minus infinity over a finite set is the set's supremum. -/
theorem fold_max_bot_eq_sup {ι : Type} (s : Finset ι) {b : EReal} (hb : b = ⊥) (f : ι → EReal) : s.fold max b f = s.sup f := by
  classical
  subst hb
  induction s using Finset.induction_on with
  | empty => rfl
  | insert a s ha ih => rw [Finset.fold_insert ha, Finset.sup_insert, ih]

/-- The word of minus infinity is the bottom of the extended reals. -/
theorem ofBits_neg_inf_f32 : Ideal.ofBits .f32 0xFF800000#32 = ⊥ := by simp [Ideal.ofBits, Ideal.ieee]

/-! ## The two lane reductions of a block, read at a row -/

/-- The index over row `r` with `k` put on the reduced axis is `(r, k)`. -/
theorem lift_row (r : Fin 64) (k : Fin 20000) : reduces_S64x20000_S64.lift (ix1 r) k = ix2 r k :=
  funext fun c => match c with
    | ⟨0, _⟩ => Fin.ext rfl
    | ⟨1, _⟩ => Fin.ext rfl

/-- The block's row maxima at row `r`: the supremum of the row. -/
theorem rowmax_read (X : FVec Ideal S64x20000 .f32) (r : Fin 64) :
    multiReduction (F := Ideal) .maximumf [1] S64 X 0xFF800000#32 reduces_S64x20000_S64 (.inl rfl) rfl (ix1 r)
      = Finset.univ.sup (fun q : Fin 20000 => X (ix2 r q)) := by
  refine (Ideal.multiReduction_maximumf_single X 0xFF800000#32 reduces_S64x20000_S64 (.inl rfl) rfl (ix1 r)).trans ?_
  refine (fold_max_bot_eq_sup (Finset.univ : Finset (Fin 20000)) ofBits_neg_inf_f32
    (fun k => X (reduces_S64x20000_S64.lift (ix1 r) k))).trans ?_
  exact congrArg _ (funext fun k => congrArg X (lift_row r k))

/-- A block's exact row sums at row `r`: the sum over the row. -/
theorem rowsum_read (Y : FVec Ideal S64x20000 .f32) (r : Fin 64) :
    multiReduction (F := Ideal) .add [1] S64 Y 0x00000000#32 reduces_S64x20000_S64 (.inl rfl) rfl (ix1 r)
      = ∑ q : Fin 20000, Y (ix2 r q) := by
  refine (Ideal.multiReduction_add_single Y 0x00000000#32 reduces_S64x20000_S64 (.inl rfl) rfl (ix1 r)).trans ?_
  show ∑ k : Fin 20000, Y (reduces_S64x20000_S64.lift (ix1 r) k) = _
  exact Finset.sum_congr rfl fun k _ => congrArg Y (lift_row r k)

/-! ## The body, stage by stage -/

/-- The row maxima spread over their rows: what the body subtracts. -/
def maxSpread (X : FVec Ideal S64x20000 .f32) : FVec Ideal S64x20000 .f32 :=
  broadcastTo S64x20000
    (shapeCast S64x1 (multiReduction (F := Ideal) .maximumf [1] S64 X 0xFF800000#32 reduces_S64x20000_S64 (.inl rfl) rfl)
      shapeCasts_S64_S64x1) broadcasts_S64x1_S64x20000

/-- The exponentials of the block less its row maxima. -/
def expShift (X : FVec Ideal S64x20000 .f32) : FVec Ideal S64x20000 .f32 := exp (subf X (maxSpread X))

/-- The exponentials' row sums spread over their rows: what the body divides by. -/
def sumSpread (X : FVec Ideal S64x20000 .f32) : FVec Ideal S64x20000 .f32 :=
  broadcastTo S64x20000
    (shapeCast S64x1 (multiReduction (F := Ideal) .add [1] S64 (expShift X) 0x00000000#32 reduces_S64x20000_S64 (.inl rfl) rfl)
      shapeCasts_S64_S64x1) broadcasts_S64x1_S64x20000

/-- The body is the quotient of the last two stages. -/
theorem pay3_stages (X : Vec Ideal S64x20000 .f32) : k3_pay1 (F := Ideal) X = divf (expShift X) (sumSpread X) := rfl

theorem maxSpread_apply (X : FVec Ideal S64x20000 .f32) (r : Fin 64) (q : Fin 20000) :
    maxSpread X (ix2 r q) = Cert.GcnSpec.rowmax (fun a b => X (ix2 a b)) r :=
  (column_spread_apply _ shapeCasts_S64_S64x1 broadcasts_S64x1_S64x20000 r q).trans (rowmax_read X r)

theorem expShift_apply (X : FVec Ideal S64x20000 .f32) (r : Fin 64) (q : Fin 20000) :
    expShift X (ix2 r q) = Ideal.exp (X (ix2 r q) - Cert.GcnSpec.rowmax (fun a b => X (ix2 a b)) r) := by
  show Ideal.exp (X (ix2 r q) - maxSpread X (ix2 r q)) = _
  rw [maxSpread_apply]

theorem sumSpread_apply (X : FVec Ideal S64x20000 .f32) (r : Fin 64) (q : Fin 20000) :
    sumSpread X (ix2 r q) = ∑ q' : Fin 20000, Ideal.exp (X (ix2 r q') - Cert.GcnSpec.rowmax (fun a b => X (ix2 a b)) r) :=
  ((column_spread_apply _ shapeCasts_S64_S64x1 broadcasts_S64x1_S64x20000 r q).trans (rowsum_read (expShift X) r)).trans
    (Finset.sum_congr rfl fun k _ => expShift_apply X r k)

/-! ## The result -/

/-- The body at row `r`, column `q`: the row softmax of the block. -/
theorem pay3_apply (X : Vec Ideal S64x20000 .f32) (r : Fin 64) (q : Fin 20000) :
    k3_pay1 (F := Ideal) X (ix2 r q) = Cert.GcnSpec.softmax (fun a b => X (ix2 a b)) r q := by
  rw [pay3_stages, divf_apply, expShift_apply, sumSpread_apply]
  unfold Cert.GcnSpec.softmax
  rw [show Cert.GcnSpec.zero = 0 from Ideal.ofBits_zero_f32, zero_add]

/-- Row locality: the body's row `r` reads row `r` of the block and nothing else. -/
theorem pay3_congr (X X' : Vec Ideal S64x20000 .f32) (r : Fin 64) (h : ∀ q, X (ix2 r q) = X' (ix2 r q)) (q : Fin 20000) :
    k3_pay1 (F := Ideal) X (ix2 r q) = k3_pay1 (F := Ideal) X' (ix2 r q) := by
  have hm : Cert.GcnSpec.rowmax (fun a b => X (ix2 a b)) r = Cert.GcnSpec.rowmax (fun a b => X' (ix2 a b)) r := by
    unfold Cert.GcnSpec.rowmax
    exact congrArg _ (funext fun k => h k)
  rw [pay3_apply, pay3_apply]
  unfold Cert.GcnSpec.softmax
  rw [hm]
  simp only [h]

end Cert.KernelIdeal.Hand

end
-- ==== Proof.KIReg3.lean ====
import proofs.«412470_j4346506903645_2_alg».proof.Proof.Gen.KernelIdeal.Launch
import proofs.«412470_j4346506903645_2_alg».proof.Proof.Gen.KernelIdeal.Skeleton
import proofs.«412470_j4346506903645_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import proofs.«412470_j4346506903645_2_alg».proof.Proof.KIPay3

/-!
# Kernel region 3: a row-wise softmax, one block of 64 rows per grid point, the last block cut at the array's end

The operand f32[5000, 20000] is read in (64, 20000) row blocks on a grid of 79 points and the softmax of each row is
stored into the matching row block of the result. The last block overhangs the array: of its rows 4992‥5055 only
4992‥4999 exist, the transfers of that block are cut to those eight rows, and the rest of the staging buffer holds words
nothing names. At the ideal instance a row's softmax reads that row only — its maximum is a fold of `max` over the row and
its normaliser an exact sum over the row —, so the rows of the result inside the array do not depend on what fills the
buffer past the array's end. This module states, for any contents `V` of the core's buffers at the region's entry, what
each window's staging buffer holds after the body at each point ON THE ROWS INSIDE THE ARRAY, and proves that the kernel
body run on those buffers leaves exactly that, whatever the other rows hold (both windows are loose).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The windows: what the cut transfers move -/

variable (V : (c : Dev nD) → (b : Ref sig .tc) → Buf (Elt Ideal) ((c : Thread nD τ).loc b))

/-- Window `w`'s block at grid point `t`: the part of its array (at the entry contents `V`) the point's transfer moves — the
    block's rows inside the array. -/
def iblk3 (c : Dev nD) (w : Fin cfg3.W) (t : Fin cfg3.N) : ((cfg3.win w).xblock (cfg3.grid.coords t)).Idx → Elt Ideal (cfg3.win w).elt :=
  ((cfg3.win w).blk t).view.read (Elt Ideal) (V c (Pipeline.arrRef spec3 w))

/-- On an axis where the block is as long as the array, no transfer is cut: a cut would end the array strictly inside the
    block, yet the block starts at a multiple of the array's own length. -/
theorem extent_of_full {ix k : Nat} {cl : Pipeline.Clip} (h : Pipeline.Clip.Ok ix k k cl) : cl.extent k = k := by
  cases cl with
  | none => rfl
  | some n =>
    obtain ⟨h1, h2, h3⟩ := h
    exfalso
    rcases Nat.eq_zero_or_pos ix with h0 | hp
    · rw [h0, Nat.zero_mul] at h3; omega
    · have : k ≤ ix * k := Nat.le_mul_of_pos_left k hp
      omega

/-- So a window moves all of its block on an axis the block spans, at every point (stated of any window: nothing of the
    index map is evaluated). -/
theorem xsize_of_full {G : Pipeline.Grid} (w : Pipeline.Window sig G) (i : G.Coords) (a : Fin w.shape.rank)
    (h : w.size a = w.shape.size a) : w.xsize i a = w.size a := by
  have hc := w.hclip i a
  rw [← h] at hc
  exact extent_of_full hc

/-- No transfer cuts the columns: every block spans all 20000 of them. -/
theorem xsize3_col (i : grid3.Coords) : win3_0.xsize i (1 : Fin 2) = 20000 :=
  xsize_of_full win3_0 i (1 : Fin 2) rfl

/-- The two windows cut their blocks alike on the rows: one index map, one block shape, arrays of one shape. -/
theorem xsize3_row (i : grid3.Coords) : win3_1.xsize i (0 : Fin 2) = win3_0.xsize i (0 : Fin 2) := rfl

/-- An index of a row the transfer at `i` moves is moved, whatever its column: the blocks span the columns. -/
theorem moved3 (i : grid3.Coords) (j : (win3_1.xblock i).Idx) (k : Fin 20000) :
    win3_0.moved i (ix2 (win3_1.xinj i j 0) k) = true := by
  refine (win3_0.moved_iff i _).mpr fun a => ?_
  match a with
  | ⟨0, _⟩ =>
    show (j 0).val < win3_0.xsize i (0 : Fin 2)
    rw [← xsize3_row i]; exact (j 0).isLt
  | ⟨1, _⟩ =>
    show k.val < win3_0.xsize i (1 : Fin 2)
    rw [xsize3_col i]; exact k.isLt

/-- The rows inside the array of the body's stored value do not depend on what fills the loaded buffer past the array's end:
    a row's softmax reads that row only, and the fetch fills every column of a row it moves. -/
theorem cut_pay3 (i : grid3.Coords) (d z : S64x20000.Idx → Elt Ideal .f32) (g : (win3_0.xblock i).Idx → Elt Ideal .f32) :
    win3_1.cut i (k3_pay1 (F := Ideal) (win3_0.fill i d g)) = win3_1.cut i (k3_pay1 (F := Ideal) (win3_0.fill i z g)) := by
  funext j
  show k3_pay1 (F := Ideal) (win3_0.fill i d g) (win3_1.xinj i j) = k3_pay1 (F := Ideal) (win3_0.fill i z g) (win3_1.xinj i j)
  rw [eq_ix2 (win3_1.xinj i j)]
  refine pay3_congr _ _ _ (fun k => ?_) _
  have hm := moved3 i j k
  unfold Window.fill; rw [dif_pos hm, dif_pos hm]

/-! ## The proof data -/

/-- The proof data of this region's pipeline on core `c`: the arrays as the region finds them; after the body at point `t`
    the operand's buffer at its block and the result's at the row softmax of that block, each stated on the rows inside the
    array and filled out past the array's end with zeros, which nothing reads (both windows are loose). -/
def dat3 (c : Dev nD) : Dat τ (Elt Ideal) Unit ℕ (UR sig nD τ) ℕ cfg3 c where
  A w := V c (Pipeline.arrRef spec3 w)
  after w t := match w with
    | ⟨0, _⟩ => win3_0.fill (grid3.coords t) (fun _ => (0 : EReal)) (iblk3 V c 0 t)
    | ⟨1, _⟩ => win3_1.fill (grid3.coords t) (fun _ => (0 : EReal))
        (win3_1.cut (grid3.coords t) (k3_pay1 (F := Ideal) (win3_0.fill (grid3.coords t) (fun _ => (0 : EReal)) (iblk3 V c 0 t))))
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) :
    (dat3 V c).after 0 t = win3_0.fill (grid3.coords t) (fun _ => (0 : EReal)) (iblk3 V c 0 t) := by dsimp only [dat3]
theorem after3_1 (c : Dev nD) (t : Fin cfg3.N) :
    (dat3 V c).after 1 t = win3_1.fill (grid3.coords t) (fun _ => (0 : EReal))
      (win3_1.cut (grid3.coords t) (k3_pay1 (F := Ideal) (win3_0.fill (grid3.coords t) (fun _ => (0 : EReal)) (iblk3 V c 0 t)))) := by
  dsimp only [dat3]

/-- The operand's buffer, fetched at every point, holds its block on the rows inside the array and `d`, anything, past them. -/
theorem before3_0 (c : Dev nD) (t : Fin cfg3.N) (d) :
    (dat3 V c).before 0 t d = win3_0.fill (grid3.coords t) d (iblk3 V c 0 t) := by
  rw [(dat3 V c).before_fetched 0 t (fetch3_0 t)]
  unfold Dat.fetched Dat.blockOf iblk3
  rw [A_eq3]

/-- The result's buffer, written back at every point, holds anything when the body runs. -/
theorem before3_1 (c : Dev nD) (t : Fin cfg3.N) (d) : (dat3 V c).before 1 t d = d :=
  (dat3 V c).before_out_reset 1 rfl t (by
    by_cases h : t.val = 0
    · exact .inl h
    · exact .inr ⟨h, flush3_1 _⟩) d

/-! ## The kernel body -/

theorem hz3 : (![0, 0] : Fin 2 → Nat) = fun _ => 0 := funext fun a => by fin_cases a <;> rfl

/-- The whole-buffer rectangle the body loads and stores through. -/
abbrev rx3 : Rect S64x20000 := Rect.unit (s := S64x20000) ![0, 0] S64x20000.size inb_S64x20000_S64x20000_0_0

/-- The one store covers the whole buffer. -/
theorem cover3_1 (p0 : Vec Ideal S64x20000 .f32) (y : S64x20000.Idx) :
    ∃ pc ∈ ([⟨rx3, p0⟩] : List (View.Piece (Elt Ideal) S64x20000 .f32)), y ∈ pc.1.set :=
  ⟨⟨rx3, p0⟩, List.mem_singleton_self _, View.mem_set_unit_zero hz3 inb_S64x20000_S64x20000_0_0 y⟩

set_option maxHeartbeats 1000000 in
/-- The kernel body on whole staging memrefs — the operand's at contents `x0`, the result's at anything — runs to the
    continuation with the operand's unchanged and the result's at the row softmax of `x0`. -/
theorem sound_kernel3 (c : Dev nD) (E : Set ℕ) (i : grid3.Coords) (arg0 : Memref sig .tc .vmem S64x20000 .f32) (harg0 : arg0.IsWhole)
    (arg1 : Memref sig .tc .vmem S64x20000 .f32) (harg1 : arg1.IsWhole)
    (x0 : Vec Ideal S64x20000 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (k3_pay1 (F := Ideal) x0)) -∗ K ⟨⟩))
      ⊢ wp frame (wpE (defs₀ (F := Ideal)) Variants.none c none) E (cc3__softmax_kernel i arg0 harg0 arg1 harg1) K := by
  simp only [cc3__softmax_kernel_eq_skeleton]; unfold cc3__softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover3_1 _)).trans ?_
  refine (View.canon_unit_zero hz3 _ _).trans ?_
  exact congrArg (k3_pay1 (F := Ideal)) (View.ld_unit_zero hz3 _ _)

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns: each buffer stated on the rows inside the array, anything past them. -/
def bodyPost3 (c : Dev nD) (t : Fin cfg3.N) : sProp 𝕄 :=
  iprop((dat3 V c).Φ t.succ ∗ (dat3 V c).owesAt () t.succ
    ∗ (∃ d, owns (c : Thread nD τ) (st3_0 t) fullShare
        ((cfg3.win 0).fill (cfg3.grid.coords t) d ((cfg3.win 0).cut (cfg3.grid.coords t) ((dat3 V c).after 0 t))))
    ∗ (∃ d, owns (c : Thread nD τ) (st3_1 t) fullShare
        ((cfg3.win 1).fill (cfg3.grid.coords t) d ((cfg3.win 1).cut (cfg3.grid.coords t) ((dat3 V c).after 1 t)))))

theorem sound_body3 (c : Dev nD) (t : Fin cfg3.N) :
    bodyPre3 V c t ⊢ wp frame (wpE (defs₀ (F := Ideal)) Variants.none c none) Set.univ (bodyAt3 t) (fun _ => bodyPost3 V c t) := by
  unfold bodyPre3 bodyPost3 bodyAt3
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  rw [before3_0 V c t d0, before3_1 V c t d1]
  iapply (sound_kernel3 c Set.univ _ _ _ _ _ (win3_0.fill (grid3.coords t) d0 (iblk3 V c 0 t)) _)
  isplitl [H0]; · iexact H0
  isplitl [H1]; · iexists _; iexact H1
  iintro ⟨H0, H1⟩
  isplitl [HΦ]; · iexact HΦ
  isplitl [Ho]; · iexact Ho
  isplitl [H0]
  · -- the operand's buffer: its block on the rows inside the array, the fetch's filler past them
    iexists d0
    rw [show (cfg3.win 0).cut (cfg3.grid.coords t) (win3_0.fill (grid3.coords t) (fun _ => (0 : EReal)) (iblk3 V c 0 t)) = iblk3 V c 0 t
      from win3_0.cut_fill _ _ _]
    iexact H0
  · -- the result's buffer: on the rows inside the array the softmax does not see the filler (`cut_pay3`)
    iexists k3_pay1 (F := Ideal) (win3_0.fill (grid3.coords t) d0 (iblk3 V c 0 t))
    rw [show (cfg3.win 1).cut (cfg3.grid.coords t) (win3_1.fill (grid3.coords t) (fun _ => (0 : EReal))
          (win3_1.cut (grid3.coords t) (k3_pay1 (F := Ideal) (win3_0.fill (grid3.coords t) (fun _ => (0 : EReal)) (iblk3 V c 0 t)))))
        = win3_1.cut (grid3.coords t) (k3_pay1 (F := Ideal) (win3_0.fill (grid3.coords t) (fun _ => (0 : EReal)) (iblk3 V c 0 t)))
      from win3_1.cut_fill _ _ _,
      show (cfg3.win 1).fill (cfg3.grid.coords t) (k3_pay1 (F := Ideal) (win3_0.fill (grid3.coords t) d0 (iblk3 V c 0 t)))
          (win3_1.cut (grid3.coords t) (k3_pay1 (F := Ideal) (win3_0.fill (grid3.coords t) (fun _ => (0 : EReal)) (iblk3 V c 0 t))))
        = k3_pay1 (F := Ideal) (win3_0.fill (grid3.coords t) d0 (iblk3 V c 0 t))
      from win3_1.fill_congr_cut _ (cut_pay3 _ _ _ _)]
    iexact H1

/-- The body obligation at every grid point, both windows loose. -/
theorem body_obligation3 (c : Dev nD) : BodyObligationLoose (dat3 V c) (defs₀ (F := Ideal)) Variants.none () Set.univ := fun t => by
  rw [bigSep_W3, bigSep_W3]
  exact sound_body3 V c t

/-! ## What the write-backs write -/

/-- The rows inside the array of what the proof data names in the result's buffer at point `t`: those rows of the body's
    value on the operand's block, filled out past the array's end with zeros — -/
theorem cut_after3_1 (c : Dev nD) (t : Fin cfg3.N) :
    (cfg3.win 1).cut (cfg3.grid.coords t) ((dat3 V c).after 1 t)
      = win3_1.cut (grid3.coords t) (k3_pay1 (F := Ideal) (win3_0.fill (grid3.coords t) (fun _ => (0 : EReal)) (iblk3 V c 0 t))) := by
  rw [after3_1]
  exact win3_1.cut_fill _ _ _

/-- or with anything else: a row's value reads that row of the block only. -/
theorem cut_after3_1_any (c : Dev nD) (t : Fin cfg3.N) (d : S64x20000.Idx → Elt Ideal .f32) :
    (cfg3.win 1).cut (cfg3.grid.coords t) ((dat3 V c).after 1 t)
      = win3_1.cut (grid3.coords t) (k3_pay1 (F := Ideal) (win3_0.fill (grid3.coords t) d (iblk3 V c 0 t))) :=
  (cut_after3_1 V c t).trans (cut_pay3 _ _ _ _)

/-- Index-wise: at row `r` inside the array and column `q`, the body's value on any buffer contents `X` that hold the
    operand's block on the rows inside the array (row `r` is enough). -/
theorem cut_after3_1_apply (c : Dev nD) (t : Fin cfg3.N) (j : (win3_1.xblock (grid3.coords t)).Idx)
    (X : Vec Ideal S64x20000 .f32)
    (hX : ∀ k : Fin 20000, X (ix2 (win3_1.xinj (grid3.coords t) j 0) k)
      = win3_0.fill (grid3.coords t) (fun _ => (0 : EReal)) (iblk3 V c 0 t) (ix2 (win3_1.xinj (grid3.coords t) j 0) k)) :
    (cfg3.win 1).cut (cfg3.grid.coords t) ((dat3 V c).after 1 t) j
      = k3_pay1 (F := Ideal) X (ix2 (win3_1.xinj (grid3.coords t) j 0) (win3_1.xinj (grid3.coords t) j 1)) := by
  rw [cut_after3_1]
  show k3_pay1 (F := Ideal) _ (win3_1.xinj (grid3.coords t) j) = _
  rw [eq_ix2 (win3_1.xinj (grid3.coords t) j)]
  exact (pay3_congr _ _ _ hX _).symm

end Cert.KernelIdeal.Hand

end
-- ==== Proof.KIRun.lean ====
import proofs.«412470_j4346506903645_2_alg».proof.Proof.KIReg0
import proofs.«412470_j4346506903645_2_alg».proof.Proof.KIReg1
import proofs.«412470_j4346506903645_2_alg».proof.Proof.KIReg2
import proofs.«412470_j4346506903645_2_alg».proof.Proof.KIReg3
import Idealize.ShloMosaic.PureOps.Ideal

/-!
# The idealized kernel program's run, from the launch to the return

The program is twelve items: a stretch of host operations (it builds the normalized adjacency matrix), the first matrix
product `z W₁`, the first aggregation `Adj (z W₁)`, three short host stretches (bias, rectifier, the small product with `W₂`),
the second aggregation, the second bias, the row softmax of `U`, and three host stretches (the softmax of `V`, the decoder).
The contents of the core's buffers are followed item by item: a host stretch applies its operations; a kernel region
replaces its windows' arrays by what the pipeline's write-backs leave and keeps every other buffer. The run theorem says that
every fair execution terminates without fault and ends with every unscoped buffer at the last of these contents.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The buffers' contents between items -/

/-- Core `c`'s buffers at launch. -/
abbrev W0 : Dev nD → Valuation τ sig (Elt Ideal) := fun c b => (s₀ m ρ).mem ((c : Dev nD), b)

/-- After the host stretch `hostOps0`. -/
abbrev W1 : Dev nD → Valuation τ sig (Elt Ideal) := fun c => StableHlo.after hostOps0 (W0 m ρ c)
abbrev V1 : (c : Dev nD) → (b : Ref sig .tc) → Buf (Elt Ideal) ((c : Thread nD τ).loc b) := fun c b => W1 m ρ c b

/-- At region 0's exit: its windows' arrays at what the pipeline's write-backs leave, every other buffer as entered. -/
def W2 (c : Dev nD) : Valuation τ sig (Elt Ideal) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt Ideal) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its windows' arrays at what the pipeline's write-backs leave, every other buffer as entered. -/
def W3 (c : Dev nD) : Valuation τ sig (Elt Ideal) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt Ideal) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host stretch `hostOps2`. -/
abbrev W4 : Dev nD → Valuation τ sig (Elt Ideal) := fun c => StableHlo.after hostOps2 (W3 m ρ c)
abbrev V4 : (c : Dev nD) → (b : Ref sig .tc) → Buf (Elt Ideal) ((c : Thread nD τ).loc b) := fun c b => W4 m ρ c b

/-- After the host stretch `hostOps2_1`. -/
abbrev W5 : Dev nD → Valuation τ sig (Elt Ideal) := fun c => StableHlo.after hostOps2_1 (W4 m ρ c)
abbrev V5 : (c : Dev nD) → (b : Ref sig .tc) → Buf (Elt Ideal) ((c : Thread nD τ).loc b) := fun c b => W5 m ρ c b

/-- After the host stretch `hostOps2_2`. -/
abbrev W6 : Dev nD → Valuation τ sig (Elt Ideal) := fun c => StableHlo.after hostOps2_2 (W5 m ρ c)
abbrev V6 : (c : Dev nD) → (b : Ref sig .tc) → Buf (Elt Ideal) ((c : Thread nD τ).loc b) := fun c b => W6 m ρ c b

/-- At region 2's exit: its windows' arrays at what the pipeline's write-backs leave, every other buffer as entered. -/
def W7 (c : Dev nD) : Valuation τ sig (Elt Ideal) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt Ideal) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the host stretch `hostOps3`. -/
abbrev W8 : Dev nD → Valuation τ sig (Elt Ideal) := fun c => StableHlo.after hostOps3 (W7 m ρ c)
abbrev V8 : (c : Dev nD) → (b : Ref sig .tc) → Buf (Elt Ideal) ((c : Thread nD τ).loc b) := fun c b => W8 m ρ c b

/-- At region 3's exit: its windows' arrays at what the pipeline's write-backs leave, every other buffer as entered. -/
def W9 (c : Dev nD) : Valuation τ sig (Elt Ideal) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt Ideal) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- After the host stretch `hostOps4`. -/
abbrev W10 : Dev nD → Valuation τ sig (Elt Ideal) := fun c => StableHlo.after hostOps4 (W9 m ρ c)
abbrev V10 : (c : Dev nD) → (b : Ref sig .tc) → Buf (Elt Ideal) ((c : Thread nD τ).loc b) := fun c b => W10 m ρ c b

/-- After the host stretch `hostOps4_1`. -/
abbrev W11 : Dev nD → Valuation τ sig (Elt Ideal) := fun c => StableHlo.after hostOps4_1 (W10 m ρ c)
abbrev V11 : (c : Dev nD) → (b : Ref sig .tc) → Buf (Elt Ideal) ((c : Thread nD τ).loc b) := fun c b => W11 m ρ c b

/-- After the host stretch `hostOps4_2`. -/
abbrev W12 : Dev nD → Valuation τ sig (Elt Ideal) := fun c => StableHlo.after hostOps4_2 (W11 m ρ c)
abbrev V12 : (c : Dev nD) → (b : Ref sig .tc) → Buf (Elt Ideal) ((c : Thread nD τ).loc b) := fun c b => W12 m ρ c b

/-! ## The proof data of the four pipelines, and the thread state -/

/-- No pipeline has a prefetched table. -/
abbrev adm : (p : Fin 4) → (pcfgs (F := Ideal) p).Adm := fun p => (cfgs p).toPCfg_adm
/-- Every pipeline's proof data, each at its region's entry contents. -/
def pdats : (p : Fin 4) → (c : Dev nD) → Dat τ (Elt Ideal) Unit ℕ (UR sig nD τ) ℕ (Pipeline.pin (pcfgs (F := Ideal)) adm p) c
  | ⟨0, _⟩ => fun c => dat0 (V1 m ρ) c
  | ⟨1, _⟩ => fun c => dat1 (V2 m ρ) c
  | ⟨2, _⟩ => fun c => dat2 (V6 m ρ) c
  | ⟨3, _⟩ => fun c => dat3 (V8 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers at the contents `W`. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt Ideal))).Forall fun op => op.fresh = ∅ := by
  simp only [List.Forall]; repeat' constructor
theorem hostOps2_fresh : (hostOps2 : List (HloOp τ sig (Elt Ideal))).Forall fun op => op.fresh = ∅ := by
  simp only [List.Forall]; repeat' constructor
theorem hostOps2_1_fresh : (hostOps2_1 : List (HloOp τ sig (Elt Ideal))).Forall fun op => op.fresh = ∅ := by
  simp only [List.Forall]; repeat' constructor
theorem hostOps2_2_fresh : (hostOps2_2 : List (HloOp τ sig (Elt Ideal))).Forall fun op => op.fresh = ∅ := by
  simp only [List.Forall]; repeat' constructor
theorem hostOps3_fresh : (hostOps3 : List (HloOp τ sig (Elt Ideal))).Forall fun op => op.fresh = ∅ := by
  simp only [List.Forall]; repeat' constructor
theorem hostOps4_fresh : (hostOps4 : List (HloOp τ sig (Elt Ideal))).Forall fun op => op.fresh = ∅ := by
  simp only [List.Forall]; repeat' constructor
theorem hostOps4_1_fresh : (hostOps4_1 : List (HloOp τ sig (Elt Ideal))).Forall fun op => op.fresh = ∅ := by
  simp only [List.Forall]; repeat' constructor
theorem hostOps4_2_fresh : (hostOps4_2 : List (HloOp τ sig (Elt Ideal))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register. -/
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Kernel region 0 over the thread state: entered with every unscoped buffer at `W1`, left with them at `W2`. Its
    windows' arrays are split out of the unscoped buffers at entry and put back at their final contents at exit; the
    generator register passes through the pipeline's invariant; nothing is owed; the kernel has no semaphore of its own. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered with every unscoped buffer at `W2`, left with them at `W3`. Its
    windows' arrays are split out of the unscoped buffers at entry and put back at their final contents at exit; the
    generator register passes through the pipeline's invariant; nothing is owed; the kernel has no semaphore of its own. -/
def reg1 : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 2 over the thread state: entered with every unscoped buffer at `W6`, left with them at `W7`. Its
    windows' arrays are split out of the unscoped buffers at entry and put back at their final contents at exit; the
    generator register passes through the pipeline's invariant; nothing is owed; the kernel has no semaphore of its own. -/
def reg2 : Pipeline.RegionSeg (pcfgs (F := Ideal)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := Ideal)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 3 over the thread state: entered with every unscoped buffer at `W8`, left with them at `W9`. Its
    windows' arrays are split out of the unscoped buffers at entry and put back at their final contents at exit; the
    generator register passes through the pipeline's invariant; nothing is owed; the kernel has no semaphore of its own. -/
def reg3 : Pipeline.RegionSeg (pcfgs (F := Ideal)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := body_obligation3 (V8 m ρ) c
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := Ideal)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := Ideal)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

abbrev segs : List (Pipeline.Seg (pcfgs (F := Ideal)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .region (reg2 m ρ),
    .host (hseg hostOps3 hostOps3_sub hostOps3_fresh (W7 m ρ)),
    .region (reg3 m ρ),
    .host (hseg hostOps4 hostOps4_sub hostOps4_fresh (W9 m ρ)),
    .host (hseg hostOps4_1 hostOps4_1_sub hostOps4_1_fresh (W10 m ρ)),
    .host (hseg hostOps4_2 hostOps4_2_sub hostOps4_2_fresh (W11 m ρ)) ]

/-- The program is the run of its segments. -/
theorem main_run (c : Dev nD) : main (F := Ideal) c = Pipeline.Seg.run (segs m ρ) := (main_chain c).trans (by chain_rfl)

set_option backward.isDefEq.respectTransparency.types false in
/-- From any memory with zero counters, every fair execution of the program terminates, nothing faulting, and ends with
    every unscoped buffer of the core at the contents `W12`. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        change iprop(StableHlo.held (c : Thread nD τ) (Pipeline.ucRefs τ sig) (W12 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.Hand

end
-- ==== Proof.KIHost.lean ====
import proofs.«412470_j4346506903645_2_alg».proof.Proof.KIRun

/-!
# The buffers' contents walked back through the program

`KIRun` follows the core's buffers item by item, from the launch contents `W0` to the final contents `W12`. This module
reads single buffers off those contents. A host stretch changes only the buffers its operations write, a kernel region
only its output windows' arrays; so a buffer's final contents are those left by the last item that wrote it, and a
buffer no item writes still holds what the launch put there. Two families of facts follow: every argument array ends as
launched (the frame), and each result buffer's contents are named by the item that produced them.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

namespace Host

/-! ## What each host stretch writes

For each stretch, a list holding every reference one of its operations writes. Whether a given reference is in such a
list is decided by comparing references; a reference outside the list keeps its contents across the stretch. -/

/-- The references the first stretch writes: the 64 values `main_v0 … main_v63` and the 20 constants between them. -/
abbrev hostOps0_W : List (Ref sig .tc) :=
  [main_v0, main_v1, main_v2, main_v3, main_v4, main_v5, main_v6, main_v7, main_v8, main_v9, main_v10, main_v11, main_v12,
   main_v13, main_v14, main_v15, main_v16, main_v17, main_v18, main_v19, main_v20, main_v21, main_v22, main_v23, main_v24,
   main_v25, main_v26, main_v27, main_v28, main_v29, main_v30, main_v31, main_v32, main_v33, main_v34, main_v35, main_v36,
   main_v37, main_v38, main_v39, main_v40, main_v41, main_v42, main_v43, main_v44, main_v45, main_v46, main_v47, main_v48,
   main_v49, main_v50, main_v51, main_v52, main_v53, main_v54, main_v55, main_v56, main_v57, main_v58, main_v59, main_v60,
   main_v61, main_v62, main_v63,
   main_cst, main_c, main_c_0, main_cst_1, main_cst_2, main_cst_3, main_c_4, main_c_5, main_c_6, main_c_7, main_cst_8,
   main_c_9, main_c_10, main_c_11, main_c_12, main_cst_13, main_c_14, main_c_15, main_c_16, main_c_17]
abbrev hostOps2_W : List (Ref sig .tc) := [main_v66, main_v67, main_v68]
abbrev hostOps2_1_W : List (Ref sig .tc) := [main_call0_cst, main_call0_v0, main_v69]
abbrev hostOps2_2_W : List (Ref sig .tc) := [main_v70]
abbrev hostOps3_W : List (Ref sig .tc) := [main_v72, main_v73, main_v74]
abbrev hostOps4_W : List (Ref sig .tc) :=
  [main_cst_18, main_v76, main_cst_19, main_v77, main_v78, main_v79, main_v80, main_v81, main_v82, main_cst_20, main_v83,
   main_v84, main_v85, main_v86, main_cst_21, main_v87, main_cst_22, main_v88, main_v89, main_v90, main_v91, main_v92, main_v93]
abbrev hostOps4_1_W : List (Ref sig .tc) := [main_call1_cst, main_call1_v0, main_v94]
abbrev hostOps4_2_W : List (Ref sig .tc) :=
  [main_v95, main_v96, main_v97, main_v98, main_cst_23, main_v99, main_v100, main_v101, main_v102, main_v103]

theorem hostOps0_writes : (hostOps0 : List (HloOp τ sig (Elt Ideal))).Forall fun op => op.writes ⊆ (hostOps0_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem hostOps2_writes : (hostOps2 : List (HloOp τ sig (Elt Ideal))).Forall fun op => op.writes ⊆ (hostOps2_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem hostOps2_1_writes : (hostOps2_1 : List (HloOp τ sig (Elt Ideal))).Forall fun op => op.writes ⊆ (hostOps2_1_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem hostOps2_2_writes : (hostOps2_2 : List (HloOp τ sig (Elt Ideal))).Forall fun op => op.writes ⊆ (hostOps2_2_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem hostOps3_writes : (hostOps3 : List (HloOp τ sig (Elt Ideal))).Forall fun op => op.writes ⊆ (hostOps3_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem hostOps4_writes : (hostOps4 : List (HloOp τ sig (Elt Ideal))).Forall fun op => op.writes ⊆ (hostOps4_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem hostOps4_1_writes : (hostOps4_1 : List (HloOp τ sig (Elt Ideal))).Forall fun op => op.writes ⊆ (hostOps4_1_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem hostOps4_2_writes : (hostOps4_2 : List (HloOp τ sig (Elt Ideal))).Forall fun op => op.writes ⊆ (hostOps4_2_W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-! ## What each item leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W5_of (c : Dev nD) (r : Ref sig .tc) (h : r ∉ hostOps2_1_W) : W5 m ρ c (Proc.devRef .tc r) = W4 m ρ c (Proc.devRef .tc r) :=
  StableHlo.after_of_writes_sub hostOps2_1 _ hostOps2_1_writes h
theorem W6_of (c : Dev nD) (r : Ref sig .tc) (h : r ∉ hostOps2_2_W) : W6 m ρ c (Proc.devRef .tc r) = W5 m ρ c (Proc.devRef .tc r) :=
  StableHlo.after_of_writes_sub hostOps2_2 _ hostOps2_2_writes h
theorem W8_of (c : Dev nD) (r : Ref sig .tc) (h : r ∉ hostOps3_W) : W8 m ρ c (Proc.devRef .tc r) = W7 m ρ c (Proc.devRef .tc r) :=
  StableHlo.after_of_writes_sub hostOps3 _ hostOps3_writes h
theorem W10_of (c : Dev nD) (r : Ref sig .tc) (h : r ∉ hostOps4_W) : W10 m ρ c (Proc.devRef .tc r) = W9 m ρ c (Proc.devRef .tc r) :=
  StableHlo.after_of_writes_sub hostOps4 _ hostOps4_writes h
theorem W11_of (c : Dev nD) (r : Ref sig .tc) (h : r ∉ hostOps4_1_W) : W11 m ρ c (Proc.devRef .tc r) = W10 m ρ c (Proc.devRef .tc r) :=
  StableHlo.after_of_writes_sub hostOps4_1 _ hostOps4_1_writes h
theorem W12_of (c : Dev nD) (r : Ref sig .tc) (h : r ∉ hostOps4_2_W) : W12 m ρ c (Proc.devRef .tc r) = W11 m ρ c (Proc.devRef .tc r) :=
  StableHlo.after_of_writes_sub hostOps4_2 _ hostOps4_2_writes h

/-- A kernel region changes no buffer but its output windows' arrays: a buffer that is no window's array is untouched, and
    an input window's array is left as the region found it. -/
theorem W2_keep (c : Dev nD) (r : Ref sig .tc) (h : ∀ w, Pipeline.arrRef spec0 w = r → (cfg0.win w).isOut = false) :
    W2 m ρ c (Proc.devRef .tc r) = W1 m ρ c (Proc.devRef .tc r) := by
  by_cases hw : ∃ w, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem W3_keep (c : Dev nD) (r : Ref sig .tc) (h : ∀ w, Pipeline.arrRef spec1 w = r → (cfg1.win w).isOut = false) :
    W3 m ρ c (Proc.devRef .tc r) = W2 m ρ c (Proc.devRef .tc r) := by
  by_cases hw : ∃ w, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem W7_keep (c : Dev nD) (r : Ref sig .tc) (h : ∀ w, Pipeline.arrRef spec2 w = r → (cfg2.win w).isOut = false) :
    W7 m ρ c (Proc.devRef .tc r) = W6 m ρ c (Proc.devRef .tc r) := by
  by_cases hw : ∃ w, Pipeline.arrRef spec2 w = r
  · obtain ⟨w, rfl⟩ := hw
    exact (W7_arr m ρ c w).trans (((dat2 (V6 m ρ) c).arrAt_in w (h w rfl) _).trans (A_eq2 (V6 m ρ) c w))
  · exact W7_of_ne m ρ c r fun w e => hw ⟨w, e⟩
theorem W9_keep (c : Dev nD) (r : Ref sig .tc) (h : ∀ w, Pipeline.arrRef spec3 w = r → (cfg3.win w).isOut = false) :
    W9 m ρ c (Proc.devRef .tc r) = W8 m ρ c (Proc.devRef .tc r) := by
  by_cases hw : ∃ w, Pipeline.arrRef spec3 w = r
  · obtain ⟨w, rfl⟩ := hw
    exact (W9_arr m ρ c w).trans (((dat3 (V8 m ρ) c).arrAt_in w (h w rfl) _).trans (A_eq3 (V8 m ρ) c w))
  · exact W9_of_ne m ρ c r fun w e => hw ⟨w, e⟩

/-! ## Buffers no item writes

`Kept r` says that no item of the program writes `r`: no host stretch has it among the references it writes, and in
every kernel region it is either no window's array or an input window's. All of it is decided by comparing references. -/

def Kept (r : Ref sig .tc) : Prop :=
  r ∉ hostOps0_W
  ∧ (∀ w, Pipeline.arrRef spec0 w = r → (cfg0.win w).isOut = false)
  ∧ (∀ w, Pipeline.arrRef spec1 w = r → (cfg1.win w).isOut = false)
  ∧ r ∉ hostOps2_W ∧ r ∉ hostOps2_1_W ∧ r ∉ hostOps2_2_W
  ∧ (∀ w, Pipeline.arrRef spec2 w = r → (cfg2.win w).isOut = false)
  ∧ r ∉ hostOps3_W
  ∧ (∀ w, Pipeline.arrRef spec3 w = r → (cfg3.win w).isOut = false)
  ∧ r ∉ hostOps4_W ∧ r ∉ hostOps4_1_W ∧ r ∉ hostOps4_2_W

instance (r : Ref sig .tc) : Decidable (Kept r) := by unfold Kept; infer_instance

variable {r : Ref sig .tc}

/-- A buffer no item writes holds its launch contents after every item. -/
theorem W1_launch (h : Kept r) (c : Dev nD) : W1 m ρ c (Proc.devRef .tc r) = m ((c : Thread nD τ).loc r) := (W1_of m ρ c r h.1).trans rfl
theorem W2_launch (h : Kept r) (c : Dev nD) : W2 m ρ c (Proc.devRef .tc r) = m ((c : Thread nD τ).loc r) := (W2_keep m ρ c r h.2.1).trans (W1_launch m ρ h c)
theorem W3_launch (h : Kept r) (c : Dev nD) : W3 m ρ c (Proc.devRef .tc r) = m ((c : Thread nD τ).loc r) := (W3_keep m ρ c r h.2.2.1).trans (W2_launch m ρ h c)
theorem W4_launch (h : Kept r) (c : Dev nD) : W4 m ρ c (Proc.devRef .tc r) = m ((c : Thread nD τ).loc r) := (W4_of m ρ c r h.2.2.2.1).trans (W3_launch m ρ h c)
theorem W5_launch (h : Kept r) (c : Dev nD) : W5 m ρ c (Proc.devRef .tc r) = m ((c : Thread nD τ).loc r) := (W5_of m ρ c r h.2.2.2.2.1).trans (W4_launch m ρ h c)
theorem W6_launch (h : Kept r) (c : Dev nD) : W6 m ρ c (Proc.devRef .tc r) = m ((c : Thread nD τ).loc r) := (W6_of m ρ c r h.2.2.2.2.2.1).trans (W5_launch m ρ h c)
theorem W7_launch (h : Kept r) (c : Dev nD) : W7 m ρ c (Proc.devRef .tc r) = m ((c : Thread nD τ).loc r) := (W7_keep m ρ c r h.2.2.2.2.2.2.1).trans (W6_launch m ρ h c)
theorem W8_launch (h : Kept r) (c : Dev nD) : W8 m ρ c (Proc.devRef .tc r) = m ((c : Thread nD τ).loc r) := (W8_of m ρ c r h.2.2.2.2.2.2.2.1).trans (W7_launch m ρ h c)
theorem W9_launch (h : Kept r) (c : Dev nD) : W9 m ρ c (Proc.devRef .tc r) = m ((c : Thread nD τ).loc r) := (W9_keep m ρ c r h.2.2.2.2.2.2.2.2.1).trans (W8_launch m ρ h c)
theorem W10_launch (h : Kept r) (c : Dev nD) : W10 m ρ c (Proc.devRef .tc r) = m ((c : Thread nD τ).loc r) := (W10_of m ρ c r h.2.2.2.2.2.2.2.2.2.1).trans (W9_launch m ρ h c)
theorem W11_launch (h : Kept r) (c : Dev nD) : W11 m ρ c (Proc.devRef .tc r) = m ((c : Thread nD τ).loc r) := (W11_of m ρ c r h.2.2.2.2.2.2.2.2.2.2.1).trans (W10_launch m ρ h c)
theorem W12_launch (h : Kept r) (c : Dev nD) : W12 m ρ c (Proc.devRef .tc r) = m ((c : Thread nD τ).loc r) := (W12_of m ρ c r h.2.2.2.2.2.2.2.2.2.2.2).trans (W11_launch m ρ h c)

end Host

open Host

/-! ## Where each result buffer's contents come from

Each buffer is followed back to the item that wrote it last: across a host stretch that does not write it, across a
region of which it is no output window's array. At that item, a host stretch's buffer is its operations' functions
applied to what they read, and a region's output array is what the pipeline's write-backs leave. -/

/-- The two operands of the first product enter region 0 as launched. -/
theorem V1_arg0 (c : Dev nD) : V1 m ρ c main_arg0 = m ((c : Thread nD τ).loc main_arg0) := W1_launch m ρ (r := main_arg0) (by decide) c
theorem V1_arg2 (c : Dev nD) : V1 m ρ c main_arg2 = m ((c : Thread nD τ).loc main_arg2) := W1_launch m ρ (r := main_arg2) (by decide) c

/-- Region 1's operands: the adjacency matrix as the first host stretch left it, and region 0's product. -/
theorem V2_v63 (c : Dev nD) : V2 m ρ c main_v63 = W1 m ρ c (Proc.devRef .tc main_v63) := W2_keep m ρ c main_v63 (by decide)
theorem V2_v64 (c : Dev nD) : V2 m ρ c main_v64 = (dat0 (V1 m ρ) c).arrAt 2 cfg0.N := W2_arr m ρ c 2

/-- Region 1's result. -/
theorem W3_v65 (c : Dev nD) : W3 m ρ c (Proc.devRef .tc main_v65) = (dat1 (V2 m ρ) c).arrAt 2 cfg1.N := W3_arr m ρ c 2

/-- Region 2's first operand is still the adjacency matrix of the first host stretch. -/
theorem V6_v63 (c : Dev nD) : V6 m ρ c main_v63 = W1 m ρ c (Proc.devRef .tc main_v63) :=
  (W6_of m ρ c main_v63 (by decide)).trans <| (W5_of m ρ c main_v63 (by decide)).trans <| (W4_of m ρ c main_v63 (by decide)).trans <|
    (W3_keep m ρ c main_v63 (by decide)).trans (W2_keep m ρ c main_v63 (by decide))

/-- Region 2's second operand: region 1's result plus the first bias, rectified, times the second weight matrix. -/
theorem V6_v70 (c : Dev nD) : V6 m ρ c main_v70
    = Host.dotGeneral (F := Ideal) (φ₁ := .f32) (φ₂ := .f32) dot_S5000x64_S64x32_S5000x32_1_0_0_1_n_n none
        (maximumf (addf (W3 m ρ c (Proc.devRef .tc main_v65))
            (broadcastInDim S5000x64 ![0, 1] bcast_S1x64_S5000x64_0_1 (broadcastInDim S1x64 ![1] bcast_S64_S1x64_1 (m ((c : Thread nD τ).loc main_arg3)))))
          (broadcastInDim S5000x64 ![] bcast_S_S5000x64 (constant (F := Ideal) S_ .f32 0x00000000#32)))
        (m ((c : Thread nD τ).loc main_arg4)) := by
  rw [← W3_launch m ρ (r := main_arg3) (by decide) c, ← W3_launch m ρ (r := main_arg4) (by decide) c]
  show StableHlo.after hostOps2_2 (StableHlo.after hostOps2_1 (StableHlo.after hostOps2 (W3 m ρ c))) (Proc.devRef .tc main_v70) = _
  after_results
  rfl

/-- Region 2's result. -/
theorem W7_v71 (c : Dev nD) : W7 m ρ c (Proc.devRef .tc main_v71) = (dat2 (V6 m ρ) c).arrAt 2 cfg2.N := W7_arr m ρ c 2

/-- The encoder's output: region 2's result plus the second bias; nothing after the second bias stretch writes it. -/
theorem W12_v74 (c : Dev nD) : W12 m ρ c (Proc.devRef .tc main_v74)
    = addf (F := Ideal) (φ := .f32) (W7 m ρ c (Proc.devRef .tc main_v71))
        (broadcastInDim S5000x32 ![0, 1] bcast_S1x32_S5000x32_0_1 (broadcastInDim S1x32 ![1] bcast_S32_S1x32_1 (m ((c : Thread nD τ).loc main_arg5)))) := by
  rw [W12_of m ρ c main_v74 (by decide), W11_of m ρ c main_v74 (by decide), W10_of m ρ c main_v74 (by decide),
    W9_keep m ρ c main_v74 (by decide), ← W7_launch m ρ (r := main_arg5) (by decide) c]
  show StableHlo.after hostOps3 (W7 m ρ c) (Proc.devRef .tc main_v74) = _
  after_results

/-- Region 3's operand enters it as launched, and its result is not written again. -/
theorem V8_arg6 (c : Dev nD) : V8 m ρ c main_arg6 = m ((c : Thread nD τ).loc main_arg6) := W8_launch m ρ (r := main_arg6) (by decide) c
theorem W12_v75 (c : Dev nD) : W12 m ρ c (Proc.devRef .tc main_v75) = (dat3 (V8 m ρ) c).arrAt 1 cfg3.N :=
  (W12_of m ρ c main_v75 (by decide)).trans <| (W11_of m ρ c main_v75 (by decide)).trans <| (W10_of m ρ c main_v75 (by decide)).trans
    (W9_arr m ρ c 1)

end Cert.KernelIdeal.Hand

end
-- ==== Proof.KIFrame.lean ====
import proofs.«412470_j4346506903645_2_alg».proof.Proof.KIHost

/-!
# The frame of the idealized kernel program

No host operation writes an argument array, and a kernel region reads one only through an input window; so each
argument's buffer holds at the end what the launch put there.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

theorem W12_main_arg0 (c : Dev nD) : W12 m ρ c (Proc.devRef .tc main_arg0) = m ((c : Thread nD τ).loc main_arg0) := Host.W12_launch m ρ (r := main_arg0) (by decide) c
theorem W12_main_arg1 (c : Dev nD) : W12 m ρ c (Proc.devRef .tc main_arg1) = m ((c : Thread nD τ).loc main_arg1) := Host.W12_launch m ρ (r := main_arg1) (by decide) c
theorem W12_main_arg2 (c : Dev nD) : W12 m ρ c (Proc.devRef .tc main_arg2) = m ((c : Thread nD τ).loc main_arg2) := Host.W12_launch m ρ (r := main_arg2) (by decide) c
theorem W12_main_arg3 (c : Dev nD) : W12 m ρ c (Proc.devRef .tc main_arg3) = m ((c : Thread nD τ).loc main_arg3) := Host.W12_launch m ρ (r := main_arg3) (by decide) c
theorem W12_main_arg4 (c : Dev nD) : W12 m ρ c (Proc.devRef .tc main_arg4) = m ((c : Thread nD τ).loc main_arg4) := Host.W12_launch m ρ (r := main_arg4) (by decide) c
theorem W12_main_arg5 (c : Dev nD) : W12 m ρ c (Proc.devRef .tc main_arg5) = m ((c : Thread nD τ).loc main_arg5) := Host.W12_launch m ρ (r := main_arg5) (by decide) c
theorem W12_main_arg6 (c : Dev nD) : W12 m ρ c (Proc.devRef .tc main_arg6) = m ((c : Thread nD τ).loc main_arg6) := Host.W12_launch m ρ (r := main_arg6) (by decide) c
theorem W12_main_arg7 (c : Dev nD) : W12 m ρ c (Proc.devRef .tc main_arg7) = m ((c : Thread nD τ).loc main_arg7) := Host.W12_launch m ρ (r := main_arg7) (by decide) c
theorem W12_main_arg8 (c : Dev nD) : W12 m ρ c (Proc.devRef .tc main_arg8) = m ((c : Thread nD τ).loc main_arg8) := Host.W12_launch m ρ (r := main_arg8) (by decide) c
theorem W12_main_arg9 (c : Dev nD) : W12 m ρ c (Proc.devRef .tc main_arg9) = m ((c : Thread nD τ).loc main_arg9) := Host.W12_launch m ρ (r := main_arg9) (by decide) c
theorem W12_main_arg10 (c : Dev nD) : W12 m ρ c (Proc.devRef .tc main_arg10) = m ((c : Thread nD τ).loc main_arg10) := Host.W12_launch m ρ (r := main_arg10) (by decide) c
theorem W12_main_arg11 (c : Dev nD) : W12 m ρ c (Proc.devRef .tc main_arg11) = m ((c : Thread nD τ).loc main_arg11) := Host.W12_launch m ρ (r := main_arg11) (by decide) c
theorem W12_main_arg12 (c : Dev nD) : W12 m ρ c (Proc.devRef .tc main_arg12) = m ((c : Thread nD τ).loc main_arg12) := Host.W12_launch m ρ (r := main_arg12) (by decide) c

/-- From any memory with zero counters, every fair execution of the program terminates, nothing faulting, and every argument
    array ends holding what the launch put there. -/
theorem frame_ideal : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c)⟩)
    (run_all m ρ)

end Cert.KernelIdeal.Hand

end
-- ==== Proof.KITail.lean ====
import proofs.«412470_j4346506903645_2_alg».proof.Proof.KIRun
import proofs.«412470_j4346506903645_2_alg».proof.Proof.Gen.ReferenceIdeal.Run

/-!
# The two results that only host operations compute

Two of the program's results never pass through a kernel region: the row softmax of the array `V` (20000 × 20), and the
decoder's product, a two-layer perceptron of the profiles scaled row by row by 20000 times the column mean of that softmax.
Both programs compute them by the same operations from the same arguments. The terms are named here once, the reference
program's run is restated over these names, and the kernel program's last buffer contents are read back to the same names:
the arguments these operations read reach the last host stretches unchanged from the launch, since no earlier operation
writes them and no region has them as a window.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The terms -/

/-- The exponentials of the entries of `x` less their row's maximum (the maximum taken with `-∞`, the fold's unit). -/
def refE (x : FVec Ideal S20000x20 .f32) : FVec Ideal S20000x20 .f32 :=
  Host.exp (F := Ideal) (subf x (broadcastInDim S20000x20 ![0, 1] bcast_S20000x1_S20000x20_0_1
    (broadcastInDim S20000x1 ![0] bcast_S20000_S20000x1_0
      (maximumf (broadcastInDim S20000 ![] bcast_S_S20000 (constant (F := Ideal) S_ .f32 0xFF800000#32))
        (Host.reduce (FloatOps.maximumf (F := Ideal) (φ := .f32)) x (constant (F := Ideal) S_ .f32 0xFF800000#32) reducesTo_S20000x20_S20000_d1 h_S_)))))

/-- The row softmax of `x`: each shifted exponential divided by the sum of its row's. -/
def refB (x : FVec Ideal S20000x20 .f32) : FVec Ideal S20000x20 .f32 :=
  Host.divf (F := Ideal) (refE x) (broadcastInDim S20000x20 ![0, 1] bcast_S20000x1_S20000x20_0_1
    (broadcastInDim S20000x1 ![0] bcast_S20000_S20000x1_0
      (Host.reduceAdd (F := Ideal) (refE x) (constant (F := Ideal) S_ .f32 0x00000000#32) reducesTo_S20000x20_S20000_d1 h_S_)))

/-- The column mean of the row softmax of `x`: each column's sum over the 20000 rows, divided by 20000. -/
def refP (x : FVec Ideal S20000x20 .f32) : FVec Ideal S20 .f32 :=
  Host.divf (F := Ideal) (Host.reduceAdd (F := Ideal) (refB x) (constant (F := Ideal) S_ .f32 0x00000000#32) reducesTo_S20000x20_S20_d0 h_S_)
    (broadcastInDim S20 ![] bcast_S_S20 (constant (F := Ideal) S_ .f32 0x469C4000#32))

/-- The decoder's hidden layer: the profiles times the first weights, plus the first bias on every row, rectified. -/
def refH (x8 : FVec Ideal S20x32 .f32) (x9 : FVec Ideal S32x256 .f32)
    (x10 : FVec Ideal S256 .f32) : FVec Ideal S20x256 .f32 :=
  maximumf (addf (Host.dotGeneral (F := Ideal) (φ₁ := .f32) (φ₂ := .f32) dot_S20x32_S32x256_S20x256_1_0_0_1_n_n none x8 x9)
      (broadcastInDim S20x256 ![0, 1] bcast_S1x256_S20x256_0_1 (broadcastInDim S1x256 ![1] bcast_S256_S1x256_1 x10)))
    (broadcastInDim S20x256 ![] bcast_S_S20x256 (constant (F := Ideal) S_ .f32 0x00000000#32))

/-- The decoder's product: the hidden layer times the second weights, plus the second bias on every row, each row then
    multiplied by 20000 times its entry of the column mean of the softmax of `x7`. -/
def refM (x7 : FVec Ideal S20000x20 .f32) (x8 : FVec Ideal S20x32 .f32)
    (x9 : FVec Ideal S32x256 .f32) (x10 : FVec Ideal S256 .f32)
    (x11 : FVec Ideal S256x2000 .f32) (x12 : FVec Ideal S2000 .f32) :
    FVec Ideal S20x2000 .f32 :=
  mulf (addf (Host.dotGeneral (F := Ideal) (φ₁ := .f32) (φ₂ := .f32) dot_S20x256_S256x2000_S20x2000_1_0_0_1_n_n none (refH x8 x9 x10) x11)
      (broadcastInDim S20x2000 ![0, 1] bcast_S1x2000_S20x2000_0_1 (broadcastInDim S1x2000 ![1] bcast_S2000_S1x2000_1 x12)))
    (broadcastInDim S20x2000 ![0, 1] bcast_S20x1_S20x2000_0_1 (broadcastInDim S20x1 ![0] bcast_S20_S20x1_0
      (mulf (broadcastInDim S20 ![] bcast_S_S20 (constant (F := Ideal) S_ .f32 0x469C4000#32)) (refP x7))))

/-! ## The reference program's run over these terms -/

/-- Every fair execution of the reference program terminates with the softmax of `V` and the decoder's product at the
    terms above (the two programs' shapes and dimension records are the same literals), the profiles unchanged. -/
theorem ref_tail (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v142)
            = refB (m' ((c.tc : Thread Cert.ReferenceIdeal.nD Cert.ReferenceIdeal.τ).loc Cert.ReferenceIdeal.main_arg7))
        ∧ r.2.mem ((c.tc : Thread Cert.ReferenceIdeal.nD Cert.ReferenceIdeal.τ).loc Cert.ReferenceIdeal.main_v159)
            = refM (m' ((c.tc : Thread Cert.ReferenceIdeal.nD Cert.ReferenceIdeal.τ).loc Cert.ReferenceIdeal.main_arg7))
                (m' ((c.tc : Thread Cert.ReferenceIdeal.nD Cert.ReferenceIdeal.τ).loc Cert.ReferenceIdeal.main_arg8))
                (m' ((c.tc : Thread Cert.ReferenceIdeal.nD Cert.ReferenceIdeal.τ).loc Cert.ReferenceIdeal.main_arg9))
                (m' ((c.tc : Thread Cert.ReferenceIdeal.nD Cert.ReferenceIdeal.τ).loc Cert.ReferenceIdeal.main_arg10))
                (m' ((c.tc : Thread Cert.ReferenceIdeal.nD Cert.ReferenceIdeal.τ).loc Cert.ReferenceIdeal.main_arg11))
                (m' ((c.tc : Thread Cert.ReferenceIdeal.nD Cert.ReferenceIdeal.τ).loc Cert.ReferenceIdeal.main_arg12))
        ∧ r.2.mem ((c.tc : Thread Cert.ReferenceIdeal.nD Cert.ReferenceIdeal.τ).loc Cert.ReferenceIdeal.main_arg8)
            = m' ((c.tc : Thread Cert.ReferenceIdeal.nD Cert.ReferenceIdeal.τ).loc Cert.ReferenceIdeal.main_arg8)) :=
  (θ_run _ _ _).mono (fun r h c => ⟨(h c).2.1, (h c).2.2.2.1, (h c).2.2.2.2.1⟩) (Cert.ReferenceIdeal.Value.run (F := Ideal) m' ρ')

/-! ## The kernel program's last contents at these terms -/

variable (m : (ℓ : Loc nD τ sig) → Buf (Elt Ideal) ℓ) (ρ : Dev nD → PrngReg)

/-- A host stretch keeps a buffer none of its operations writes: the goal `after ops W b = t` becomes `W b = t`. -/
local macro "host_keeps" : tactic => `(tactic| (
  refine (StableHlo.after_of_forall_not_mem _ _ (List.forall_iff_forall_mem.mp ?_)).trans ?_
  · simp only [hostOps0, hostOps2, hostOps2_1, hostOps2_2, hostOps3, hostOps4, hostOps4_1, hostOps4_2, List.Forall,
      StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.mem_singleton]
    repeat' apply And.intro
    all_goals exact StableHlo.devRef_ne_of_ne (by decide)))

/-- An argument that no region has as a window and no host operation writes is, at region 3's exit, as launched: the goal
    `W9 m ρ c b = t` becomes `W0 m ρ c b = t`, item by item backwards. -/
local macro "to_launch" b:term : tactic => `(tactic| (
  refine (W9_of_ne _ _ _ $b (by decide)).trans ?_
  show StableHlo.after hostOps3 (W7 _ _ _) (Proc.devRef .tc $b) = _
  host_keeps
  refine (W7_of_ne _ _ _ $b (by decide)).trans ?_
  show StableHlo.after hostOps2_2 (W5 _ _ _) (Proc.devRef .tc $b) = _
  host_keeps
  show StableHlo.after hostOps2_1 (W4 _ _ _) (Proc.devRef .tc $b) = _
  host_keeps
  show StableHlo.after hostOps2 (W3 _ _ _) (Proc.devRef .tc $b) = _
  host_keeps
  refine (W3_of_ne _ _ _ $b (by decide)).trans ?_
  refine (W2_of_ne _ _ _ $b (by decide)).trans ?_
  show StableHlo.after hostOps0 (W0 _ _ _) (Proc.devRef .tc $b) = _
  host_keeps))

theorem W9_arg7 (c : Dev nD) : W9 m ρ c (Proc.devRef .tc main_arg7) = m ((c : Thread nD τ).loc main_arg7) := by
  to_launch main_arg7; rfl
theorem W9_arg8 (c : Dev nD) : W9 m ρ c (Proc.devRef .tc main_arg8) = m ((c : Thread nD τ).loc main_arg8) := by
  to_launch main_arg8; rfl
theorem W9_arg9 (c : Dev nD) : W9 m ρ c (Proc.devRef .tc main_arg9) = m ((c : Thread nD τ).loc main_arg9) := by
  to_launch main_arg9; rfl
theorem W9_arg10 (c : Dev nD) : W9 m ρ c (Proc.devRef .tc main_arg10) = m ((c : Thread nD τ).loc main_arg10) := by
  to_launch main_arg10; rfl
theorem W9_arg11 (c : Dev nD) : W9 m ρ c (Proc.devRef .tc main_arg11) = m ((c : Thread nD τ).loc main_arg11) := by
  to_launch main_arg11; rfl
theorem W9_arg12 (c : Dev nD) : W9 m ρ c (Proc.devRef .tc main_arg12) = m ((c : Thread nD τ).loc main_arg12) := by
  to_launch main_arg12; rfl

/-! The last three host stretches read back: each result is its operations' term of the buffers at region 3's exit, and
those buffers are the launch's arguments. -/

/-- The kernel program's softmax of `V`, in the last contents, is the term the reference program ends with. -/
theorem W12_v86 (c : Dev nD) : W12 m ρ c (Proc.devRef .tc main_v86) = refB (m ((c : Thread nD τ).loc main_arg7)) := by
  show StableHlo.after hostOps4_2 (StableHlo.after hostOps4_1 (StableHlo.after hostOps4 (W9 m ρ c))) (Proc.devRef .tc main_v86) = _
  after_results_simp
  rw [W9_arg7]; rfl

/-- The kernel program's decoder product, in the last contents, is the term the reference program ends with. -/
theorem W12_v103 (c : Dev nD) : W12 m ρ c (Proc.devRef .tc main_v103)
    = refM (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) := by
  show StableHlo.after hostOps4_2 (StableHlo.after hostOps4_1 (StableHlo.after hostOps4 (W9 m ρ c))) (Proc.devRef .tc main_v103) = _
  after_results_simp
  rw [W9_arg7, W9_arg8, W9_arg9, W9_arg10, W9_arg11, W9_arg12]; rfl

/-- The profiles are, in the last contents, as launched. -/
theorem W12_arg8 (c : Dev nD) : W12 m ρ c (Proc.devRef .tc main_arg8) = m ((c : Thread nD τ).loc main_arg8) := by
  show StableHlo.after hostOps4_2 (StableHlo.after hostOps4_1 (StableHlo.after hostOps4 (W9 m ρ c))) (Proc.devRef .tc main_arg8) = _
  after_results_simp
  exact W9_arg8 m ρ c

end Cert.KernelIdeal.Hand

end
-- ==== Proof.KIVal.lean ====
import proofs.«412470_j4346506903645_2_alg».proof.Proof.KIReg0
import proofs.«412470_j4346506903645_2_alg».proof.Proof.KIReg1
import proofs.«412470_j4346506903645_2_alg».proof.Proof.KIReg2
import Idealize.ShloMosaic.Lib.Pipeline.Value
import Idealize.ShloMosaic.Lib.ValueIdx
import Idealize.ShloMosaic.Lib.ValueIdxCoords
import Idealize.ShloMosaic.PureOps.Ideal.Laws

/-!
# The three matrix-product regions, read as values over the extended reals

Each of the three regions multiplies a tall left operand, taken in 25 row blocks of 200 rows, by a right operand taken
whole, and stores each block's product into the matching row block of its result. Over the extended reals the narrowing
of the operands to bf16 is the identity and the product accumulates into zero, so a block's product at (row, column) is
the plain sum over the contracted axis of left(row, k) · right(k, column). Row `r` of the result is written by grid
point `r / 200` and by no other, the row blocks tile the result, and so after the region the result array is the product
of the two operand arrays as the region found them, entry by entry.
-/

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The zero offsets of a whole-buffer rectangle, however spelt. -/
theorem zero_offsets : (![0, 0] : Fin 2 → Nat) = fun _ => 0 := funext fun a => by fin_cases a <;> rfl

/-! ## Region 0: a 5000×2000 array times a 2000×64 array -/

/-- The operand coordinates of the contraction: the left operand is read at (output row, contraction index), -/
theorem lhs_k0_0 (i : S200x64.Idx) (q : dot_S200x2000_S2000x64_S200x64_1_0_0_1_n_n.contr.Idx) :
    (dot_S200x2000_S2000x64_S200x64_1_0_0_1_n_n.lhsIdx i q 0).val = (i 0).val := by
  unfold DotDims.lhsIdx
  rw [dif_neg (show ¬(0 : Fin S200x2000.rank) ∈ dot_S200x2000_S2000x64_S200x64_1_0_0_1_n_n.lhsBatch by decide), dif_pos (show (0 : Fin S200x2000.rank) ∈ dot_S200x2000_S2000x64_S200x64_1_0_0_1_n_n.lhsNonContracting by decide)]
  rfl
theorem lhs_k0_1 (i : S200x64.Idx) (q : dot_S200x2000_S2000x64_S200x64_1_0_0_1_n_n.contr.Idx) :
    (dot_S200x2000_S2000x64_S200x64_1_0_0_1_n_n.lhsIdx i q 1).val = (q ⟨0, by decide⟩).val :=
  dot_S200x2000_S2000x64_S200x64_1_0_0_1_n_n.lhsIdx_val_of_single rfl i q
/-- the right operand at (contraction index, output column). -/
theorem rhs_k0_0 (i : S200x64.Idx) (q : dot_S200x2000_S2000x64_S200x64_1_0_0_1_n_n.contr.Idx) :
    (dot_S200x2000_S2000x64_S200x64_1_0_0_1_n_n.rhsIdx i q 0).val = (q ⟨0, by decide⟩).val :=
  dot_S200x2000_S2000x64_S200x64_1_0_0_1_n_n.rhsIdx_val_of_single rfl i q
theorem rhs_k0_1 (i : S200x64.Idx) (q : dot_S200x2000_S2000x64_S200x64_1_0_0_1_n_n.contr.Idx) :
    (dot_S200x2000_S2000x64_S200x64_1_0_0_1_n_n.rhsIdx i q 1).val = (i 1).val := by
  unfold DotDims.rhsIdx
  rw [dif_neg (show ¬(1 : Fin S2000x64.rank) ∈ dot_S200x2000_S2000x64_S200x64_1_0_0_1_n_n.rhsBatch by decide), dif_pos (show (1 : Fin S2000x64.rank) ∈ dot_S200x2000_S2000x64_S200x64_1_0_0_1_n_n.rhsNonContracting by decide)]
  rfl

/-- The body's value at an index of its block: over the extended reals the narrowing to bf16 is the identity and the
    product accumulates into zero, so it is the plain sum of products along the contracted axis. -/
theorem pay0_apply (x0 : Vec Ideal S200x2000 .f32) (x1 : Vec Ideal S2000x64 .f32) (j : S200x64.Idx) :
    k0_pay1 (F := Ideal) x0 x1 j
      = ∑ k : Fin 2000, x0 (ix2 (n0 := 200) (n1 := 2000) (j 0) k) * x1 (ix2 (n0 := 2000) (n1 := 64) k (j 1)) := by
  unfold k0_pay1
  simp only [matmul]
  rw [Ideal.matmul_constant_zero_apply, ← Equiv.sum_comp (contrEquiv1 dot_S200x2000_S2000x64_S200x64_1_0_0_1_n_n 2000 rfl rfl).symm]
  refine Finset.sum_congr rfl fun k _ => ?_
  have hk := contrEquiv1_symm_val dot_S200x2000_S2000x64_S200x64_1_0_0_1_n_n 2000 rfl rfl k
  have el : dot_S200x2000_S2000x64_S200x64_1_0_0_1_n_n.lhsIdx j ((contrEquiv1 dot_S200x2000_S2000x64_S200x64_1_0_0_1_n_n 2000 rfl rfl).symm k) = ix2 (n0 := 200) (n1 := 2000) (j 0) k := funext fun a => Fin.ext (by
    match a with
    | ⟨0, _⟩ => exact lhs_k0_0 _ _
    | ⟨1, _⟩ => exact (lhs_k0_1 _ _).trans hk)
  have er : dot_S200x2000_S2000x64_S200x64_1_0_0_1_n_n.rhsIdx j ((contrEquiv1 dot_S200x2000_S2000x64_S200x64_1_0_0_1_n_n 2000 rfl rfl).symm k) = ix2 (n0 := 2000) (n1 := 64) k (j 1) := funext fun a => Fin.ext (by
    match a with
    | ⟨0, _⟩ => exact (rhs_k0_0 _ _).trans hk
    | ⟨1, _⟩ => exact rhs_k0_1 _ _)
  rw [truncf_apply, truncf_apply, el, er]

/-- The product of a 5000×2000 array with a 2000×64 array, index by index. -/
def prod0 (a : S5000x2000.Idx → EReal) (b : S2000x64.Idx → EReal) : S5000x64.Idx → EReal :=
  fun i => ∑ k : Fin 2000, a (ix2 (n0 := 5000) (n1 := 2000) (i 0) k) * b (ix2 (n0 := 2000) (n1 := 64) k (i 1))

/-- Where the blocks sit: at point `t` the left operand's and the result's blocks are row block `t`; the right operand's
    block is the whole array. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two operand arrays as the region finds them. -/
theorem flushed0_eq (c : Dev nD) (t : Fin cfg0.N) :
    (dat0 V c).flushed 2 t = ((cfg0.win 2).blk t).view.read (Elt Ideal) (prod0 (V c main_arg0) (V c main_arg2)) := by
  show (cfg0.win 2).cut (grid0.coords t) ((dat0 V c).after 2 t) = _
  rw [after0_2]
  unfold out0_2
  rw [View.canon_unit_zero zero_offsets]
  simp only [View.ld_unit_zero (S := S200x2000) zero_offsets, View.ld_unit_zero (S := S2000x64) zero_offsets]
  obtain ⟨e0, e1, e2, e3, e4, e5⟩ := blocks0 t
  funext j
  show k0_pay1 (F := Ideal) (iblk0 V c 0 t) (iblk0 V c 1 t) j = prod0 (V c main_arg0) (V c main_arg2) (((cfg0.win 2).blk t).view.emb j)
  rw [pay0_apply]
  unfold prod0
  refine Finset.sum_congr rfl fun k _ => ?_
  have hj0 : (j 0).val < 200 := (j 0).isLt
  have hj1 : (j 1).val < 64 := (j 1).isLt
  have hk : k.val < 2000 := k.isLt
  have hl : iblk0 V c 0 t (ix2 (n0 := 200) (n1 := 2000) (j 0) k)
      = V c main_arg0 (ix2 (n0 := 5000) (n1 := 2000) ((((cfg0.win 2).blk t).view.emb j) 0) k) := by
    show V c main_arg0 (((cfg0.win 0).blk t).view.emb (ix2 (n0 := 200) (n1 := 2000) (j 0) k)) = _
    refine congrArg (V c main_arg0) (funext fun a => Fin.ext ?_)
    match a with
    | ⟨0, _⟩ => show win0_0.index t (0 : Fin 2) * 200 + 1 * (j 0).val = win0_2.index t (0 : Fin 2) * 200 + 1 * (j 0).val; omega
    | ⟨1, _⟩ => show win0_0.index t (1 : Fin 2) * 2000 + 1 * k.val = k.val; omega
  have hr : iblk0 V c 1 t (ix2 (n0 := 2000) (n1 := 64) k (j 1))
      = V c main_arg2 (ix2 (n0 := 2000) (n1 := 64) k ((((cfg0.win 2).blk t).view.emb j) 1)) := by
    show V c main_arg2 (((cfg0.win 1).blk t).view.emb (ix2 (n0 := 2000) (n1 := 64) k (j 1))) = _
    refine congrArg (V c main_arg2) (funext fun a => Fin.ext ?_)
    match a with
    | ⟨0, _⟩ => show win0_1.index t (0 : Fin 2) * 2000 + 1 * k.val = k.val; omega
    | ⟨1, _⟩ => show win0_1.index t (1 : Fin 2) * 64 + 1 * (j 1).val = win0_2.index t (1 : Fin 2) * 64 + 1 * (j 1).val; omega
  rw [hl, hr]

/-- An index of the result array is in point `t`'s block iff each coordinate is in the block's range on its axis. -/
theorem mem_blk0 (t : Fin cfg0.N) (i : S5000x64.Idx) :
    i ∈ ((cfg0.win 2).blk t).view.set ↔ ∀ a : Fin 2, win0_2.index t a * S200x64.size a ≤ (i a).val ∧ (i a).val < win0_2.index t a * S200x64.size a + S200x64.size a := by
  show i ∈ ((View.whole main_v64).slice (win0_2.rect t)).set ↔ _
  rw [View.set_slice_whole, Rect.mem_set_unit]
  exact Iff.rfl

/-- The row blocks tile the result: row `r` lies in the block of point `r / 200`, which writes it back. -/
theorem cover0 (i : S5000x64.Idx) :
    ∃ t : Fin cfg0.N, (cfg0.win 2).flush t = true ∧ i ∈ ((cfg0.win 2).blk t).view.set := by
  have hi0 : (i 0).val < 5000 := (i 0).isLt
  have hi1 : (i 1).val < 64 := (i 1).isLt
  have ht : (i 0).val / 200 < cfg0.N := by show _ < 25; omega
  obtain ⟨e0, e1, e2, e3, e4, e5⟩ := blocks0 ⟨(i 0).val / 200, ht⟩
  refine ⟨⟨(i 0).val / 200, ht⟩, flush0_2 _, ?_⟩
  rw [mem_blk0]
  intro a
  match a with
  | ⟨0, _⟩ =>
    show win0_2.index ⟨(i 0).val / 200, ht⟩ (0 : Fin 2) * 200 ≤ (i 0).val ∧ (i 0).val < win0_2.index ⟨(i 0).val / 200, ht⟩ (0 : Fin 2) * 200 + 200
    rw [e4]; show (i 0).val / 200 * 200 ≤ (i 0).val ∧ (i 0).val < (i 0).val / 200 * 200 + 200; omega
  | ⟨1, _⟩ =>
    show win0_2.index ⟨(i 0).val / 200, ht⟩ (1 : Fin 2) * 64 ≤ (i 1).val ∧ (i 1).val < win0_2.index ⟨(i 0).val / 200, ht⟩ (1 : Fin 2) * 64 + 64
    rw [e5]; omega

/-- After the region the result array is the product of the two operand arrays. -/
theorem arr0 (c : Dev nD) : (dat0 V c).arrAt 2 cfg0.N = prod0 (V c main_arg0) (V c main_arg2) :=
  (dat0 V c).arrAt_eq_of_cover 2 _ (fun t _ => flushed0_eq V c t) cover0

/-- The same, entry by entry. -/
theorem val0 (c : Dev nD) (p : Fin 5000) (q : Fin 64) :
    @Eq EReal ((dat0 V c).arrAt 2 cfg0.N (ix2 p q))
      (∑ k : Fin 2000, HMul.hMul (α := EReal) (β := EReal) (γ := EReal) (V c main_arg0 (ix2 p k)) (V c main_arg2 (ix2 k q))) := by
  rw [arr0]; rfl

/-! ## Region 1: a 5000×5000 array times a 5000×64 array -/

/-- The operand coordinates of the contraction: the left operand is read at (output row, contraction index), -/
theorem lhs_k1_0 (i : S200x64.Idx) (q : dot_S200x5000_S5000x64_S200x64_1_0_0_1_n_n.contr.Idx) :
    (dot_S200x5000_S5000x64_S200x64_1_0_0_1_n_n.lhsIdx i q 0).val = (i 0).val := by
  unfold DotDims.lhsIdx
  rw [dif_neg (show ¬(0 : Fin S200x5000.rank) ∈ dot_S200x5000_S5000x64_S200x64_1_0_0_1_n_n.lhsBatch by decide), dif_pos (show (0 : Fin S200x5000.rank) ∈ dot_S200x5000_S5000x64_S200x64_1_0_0_1_n_n.lhsNonContracting by decide)]
  rfl
theorem lhs_k1_1 (i : S200x64.Idx) (q : dot_S200x5000_S5000x64_S200x64_1_0_0_1_n_n.contr.Idx) :
    (dot_S200x5000_S5000x64_S200x64_1_0_0_1_n_n.lhsIdx i q 1).val = (q ⟨0, by decide⟩).val :=
  dot_S200x5000_S5000x64_S200x64_1_0_0_1_n_n.lhsIdx_val_of_single rfl i q
/-- the right operand at (contraction index, output column). -/
theorem rhs_k1_0 (i : S200x64.Idx) (q : dot_S200x5000_S5000x64_S200x64_1_0_0_1_n_n.contr.Idx) :
    (dot_S200x5000_S5000x64_S200x64_1_0_0_1_n_n.rhsIdx i q 0).val = (q ⟨0, by decide⟩).val :=
  dot_S200x5000_S5000x64_S200x64_1_0_0_1_n_n.rhsIdx_val_of_single rfl i q
theorem rhs_k1_1 (i : S200x64.Idx) (q : dot_S200x5000_S5000x64_S200x64_1_0_0_1_n_n.contr.Idx) :
    (dot_S200x5000_S5000x64_S200x64_1_0_0_1_n_n.rhsIdx i q 1).val = (i 1).val := by
  unfold DotDims.rhsIdx
  rw [dif_neg (show ¬(1 : Fin S5000x64.rank) ∈ dot_S200x5000_S5000x64_S200x64_1_0_0_1_n_n.rhsBatch by decide), dif_pos (show (1 : Fin S5000x64.rank) ∈ dot_S200x5000_S5000x64_S200x64_1_0_0_1_n_n.rhsNonContracting by decide)]
  rfl

/-- The body's value at an index of its block: over the extended reals the narrowing to bf16 is the identity, the cast to
    the same shape changes nothing, and the
    product accumulates into zero, so it is the plain sum of products along the contracted axis. -/
theorem pay1_apply (x0 : Vec Ideal S200x5000 .f32) (x1 : Vec Ideal S5000x64 .f32) (j : S200x64.Idx) :
    k1_pay1 (F := Ideal) x0 x1 j
      = ∑ k : Fin 5000, x0 (ix2 (n0 := 200) (n1 := 5000) (j 0) k) * x1 (ix2 (n0 := 5000) (n1 := 64) k (j 1)) := by
  unfold k1_pay1
  simp only [matmul, shapeCast_self]
  rw [Ideal.matmul_constant_zero_apply, ← Equiv.sum_comp (contrEquiv1 dot_S200x5000_S5000x64_S200x64_1_0_0_1_n_n 5000 rfl rfl).symm]
  refine Finset.sum_congr rfl fun k _ => ?_
  have hk := contrEquiv1_symm_val dot_S200x5000_S5000x64_S200x64_1_0_0_1_n_n 5000 rfl rfl k
  have el : dot_S200x5000_S5000x64_S200x64_1_0_0_1_n_n.lhsIdx j ((contrEquiv1 dot_S200x5000_S5000x64_S200x64_1_0_0_1_n_n 5000 rfl rfl).symm k) = ix2 (n0 := 200) (n1 := 5000) (j 0) k := funext fun a => Fin.ext (by
    match a with
    | ⟨0, _⟩ => exact lhs_k1_0 _ _
    | ⟨1, _⟩ => exact (lhs_k1_1 _ _).trans hk)
  have er : dot_S200x5000_S5000x64_S200x64_1_0_0_1_n_n.rhsIdx j ((contrEquiv1 dot_S200x5000_S5000x64_S200x64_1_0_0_1_n_n 5000 rfl rfl).symm k) = ix2 (n0 := 5000) (n1 := 64) k (j 1) := funext fun a => Fin.ext (by
    match a with
    | ⟨0, _⟩ => exact (rhs_k1_0 _ _).trans hk
    | ⟨1, _⟩ => exact rhs_k1_1 _ _)
  rw [truncf_apply, truncf_apply, el, er]

/-- The product of a 5000×5000 array with a 5000×64 array, index by index. -/
def prod1 (a : S5000x5000.Idx → EReal) (b : S5000x64.Idx → EReal) : S5000x64.Idx → EReal :=
  fun i => ∑ k : Fin 5000, a (ix2 (n0 := 5000) (n1 := 5000) (i 0) k) * b (ix2 (n0 := 5000) (n1 := 64) k (i 1))

/-- Where the blocks sit: at point `t` the left operand's and the result's blocks are row block `t`; the right operand's
    block is the whole array. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two operand arrays as the region finds them. -/
theorem flushed1_eq (c : Dev nD) (t : Fin cfg1.N) :
    (dat1 V c).flushed 2 t = ((cfg1.win 2).blk t).view.read (Elt Ideal) (prod1 (V c main_v63) (V c main_v64)) := by
  show (cfg1.win 2).cut (grid1.coords t) ((dat1 V c).after 2 t) = _
  rw [after1_2]
  unfold out1_2
  rw [View.canon_unit_zero zero_offsets]
  simp only [View.ld_unit_zero (S := S200x5000) zero_offsets, View.ld_unit_zero (S := S5000x64) zero_offsets]
  obtain ⟨e0, e1, e2, e3, e4, e5⟩ := blocks1 t
  funext j
  show k1_pay1 (F := Ideal) (iblk1 V c 0 t) (iblk1 V c 1 t) j = prod1 (V c main_v63) (V c main_v64) (((cfg1.win 2).blk t).view.emb j)
  rw [pay1_apply]
  unfold prod1
  refine Finset.sum_congr rfl fun k _ => ?_
  have hj0 : (j 0).val < 200 := (j 0).isLt
  have hj1 : (j 1).val < 64 := (j 1).isLt
  have hk : k.val < 5000 := k.isLt
  have hl : iblk1 V c 0 t (ix2 (n0 := 200) (n1 := 5000) (j 0) k)
      = V c main_v63 (ix2 (n0 := 5000) (n1 := 5000) ((((cfg1.win 2).blk t).view.emb j) 0) k) := by
    show V c main_v63 (((cfg1.win 0).blk t).view.emb (ix2 (n0 := 200) (n1 := 5000) (j 0) k)) = _
    refine congrArg (V c main_v63) (funext fun a => Fin.ext ?_)
    match a with
    | ⟨0, _⟩ => show win1_0.index t (0 : Fin 2) * 200 + 1 * (j 0).val = win1_2.index t (0 : Fin 2) * 200 + 1 * (j 0).val; omega
    | ⟨1, _⟩ => show win1_0.index t (1 : Fin 2) * 5000 + 1 * k.val = k.val; omega
  have hr : iblk1 V c 1 t (ix2 (n0 := 5000) (n1 := 64) k (j 1))
      = V c main_v64 (ix2 (n0 := 5000) (n1 := 64) k ((((cfg1.win 2).blk t).view.emb j) 1)) := by
    show V c main_v64 (((cfg1.win 1).blk t).view.emb (ix2 (n0 := 5000) (n1 := 64) k (j 1))) = _
    refine congrArg (V c main_v64) (funext fun a => Fin.ext ?_)
    match a with
    | ⟨0, _⟩ => show win1_1.index t (0 : Fin 2) * 5000 + 1 * k.val = k.val; omega
    | ⟨1, _⟩ => show win1_1.index t (1 : Fin 2) * 64 + 1 * (j 1).val = win1_2.index t (1 : Fin 2) * 64 + 1 * (j 1).val; omega
  rw [hl, hr]

/-- An index of the result array is in point `t`'s block iff each coordinate is in the block's range on its axis. -/
theorem mem_blk1 (t : Fin cfg1.N) (i : S5000x64.Idx) :
    i ∈ ((cfg1.win 2).blk t).view.set ↔ ∀ a : Fin 2, win1_2.index t a * S200x64.size a ≤ (i a).val ∧ (i a).val < win1_2.index t a * S200x64.size a + S200x64.size a := by
  show i ∈ ((View.whole main_v65).slice (win1_2.rect t)).set ↔ _
  rw [View.set_slice_whole, Rect.mem_set_unit]
  exact Iff.rfl

/-- The row blocks tile the result: row `r` lies in the block of point `r / 200`, which writes it back. -/
theorem cover1 (i : S5000x64.Idx) :
    ∃ t : Fin cfg1.N, (cfg1.win 2).flush t = true ∧ i ∈ ((cfg1.win 2).blk t).view.set := by
  have hi0 : (i 0).val < 5000 := (i 0).isLt
  have hi1 : (i 1).val < 64 := (i 1).isLt
  have ht : (i 0).val / 200 < cfg1.N := by show _ < 25; omega
  obtain ⟨e0, e1, e2, e3, e4, e5⟩ := blocks1 ⟨(i 0).val / 200, ht⟩
  refine ⟨⟨(i 0).val / 200, ht⟩, flush1_2 _, ?_⟩
  rw [mem_blk1]
  intro a
  match a with
  | ⟨0, _⟩ =>
    show win1_2.index ⟨(i 0).val / 200, ht⟩ (0 : Fin 2) * 200 ≤ (i 0).val ∧ (i 0).val < win1_2.index ⟨(i 0).val / 200, ht⟩ (0 : Fin 2) * 200 + 200
    rw [e4]; show (i 0).val / 200 * 200 ≤ (i 0).val ∧ (i 0).val < (i 0).val / 200 * 200 + 200; omega
  | ⟨1, _⟩ =>
    show win1_2.index ⟨(i 0).val / 200, ht⟩ (1 : Fin 2) * 64 ≤ (i 1).val ∧ (i 1).val < win1_2.index ⟨(i 0).val / 200, ht⟩ (1 : Fin 2) * 64 + 64
    rw [e5]; omega

/-- After the region the result array is the product of the two operand arrays. -/
theorem arr1 (c : Dev nD) : (dat1 V c).arrAt 2 cfg1.N = prod1 (V c main_v63) (V c main_v64) :=
  (dat1 V c).arrAt_eq_of_cover 2 _ (fun t _ => flushed1_eq V c t) cover1

/-- The same, entry by entry. -/
theorem val1 (c : Dev nD) (p : Fin 5000) (q : Fin 64) :
    @Eq EReal ((dat1 V c).arrAt 2 cfg1.N (ix2 p q))
      (∑ k : Fin 5000, HMul.hMul (α := EReal) (β := EReal) (γ := EReal) (V c main_v63 (ix2 p k)) (V c main_v64 (ix2 k q))) := by
  rw [arr1]; rfl

/-! ## Region 2: a 5000×5000 array times a 5000×32 array -/

/-- The operand coordinates of the contraction: the left operand is read at (output row, contraction index), -/
theorem lhs_k2_0 (i : S200x32.Idx) (q : dot_S200x5000_S5000x32_S200x32_1_0_0_1_n_n.contr.Idx) :
    (dot_S200x5000_S5000x32_S200x32_1_0_0_1_n_n.lhsIdx i q 0).val = (i 0).val := by
  unfold DotDims.lhsIdx
  rw [dif_neg (show ¬(0 : Fin S200x5000.rank) ∈ dot_S200x5000_S5000x32_S200x32_1_0_0_1_n_n.lhsBatch by decide), dif_pos (show (0 : Fin S200x5000.rank) ∈ dot_S200x5000_S5000x32_S200x32_1_0_0_1_n_n.lhsNonContracting by decide)]
  rfl
theorem lhs_k2_1 (i : S200x32.Idx) (q : dot_S200x5000_S5000x32_S200x32_1_0_0_1_n_n.contr.Idx) :
    (dot_S200x5000_S5000x32_S200x32_1_0_0_1_n_n.lhsIdx i q 1).val = (q ⟨0, by decide⟩).val :=
  dot_S200x5000_S5000x32_S200x32_1_0_0_1_n_n.lhsIdx_val_of_single rfl i q
/-- the right operand at (contraction index, output column). -/
theorem rhs_k2_0 (i : S200x32.Idx) (q : dot_S200x5000_S5000x32_S200x32_1_0_0_1_n_n.contr.Idx) :
    (dot_S200x5000_S5000x32_S200x32_1_0_0_1_n_n.rhsIdx i q 0).val = (q ⟨0, by decide⟩).val :=
  dot_S200x5000_S5000x32_S200x32_1_0_0_1_n_n.rhsIdx_val_of_single rfl i q
theorem rhs_k2_1 (i : S200x32.Idx) (q : dot_S200x5000_S5000x32_S200x32_1_0_0_1_n_n.contr.Idx) :
    (dot_S200x5000_S5000x32_S200x32_1_0_0_1_n_n.rhsIdx i q 1).val = (i 1).val := by
  unfold DotDims.rhsIdx
  rw [dif_neg (show ¬(1 : Fin S5000x32.rank) ∈ dot_S200x5000_S5000x32_S200x32_1_0_0_1_n_n.rhsBatch by decide), dif_pos (show (1 : Fin S5000x32.rank) ∈ dot_S200x5000_S5000x32_S200x32_1_0_0_1_n_n.rhsNonContracting by decide)]
  rfl

/-- The body's value at an index of its block: over the extended reals the narrowing to bf16 is the identity, the cast to
    the same shape changes nothing, and the
    product accumulates into zero, so it is the plain sum of products along the contracted axis. -/
theorem pay2_apply (x0 : Vec Ideal S200x5000 .f32) (x1 : Vec Ideal S5000x32 .f32) (j : S200x32.Idx) :
    k2_pay1 (F := Ideal) x0 x1 j
      = ∑ k : Fin 5000, x0 (ix2 (n0 := 200) (n1 := 5000) (j 0) k) * x1 (ix2 (n0 := 5000) (n1 := 32) k (j 1)) := by
  unfold k2_pay1
  simp only [matmul, shapeCast_self]
  rw [Ideal.matmul_constant_zero_apply, ← Equiv.sum_comp (contrEquiv1 dot_S200x5000_S5000x32_S200x32_1_0_0_1_n_n 5000 rfl rfl).symm]
  refine Finset.sum_congr rfl fun k _ => ?_
  have hk := contrEquiv1_symm_val dot_S200x5000_S5000x32_S200x32_1_0_0_1_n_n 5000 rfl rfl k
  have el : dot_S200x5000_S5000x32_S200x32_1_0_0_1_n_n.lhsIdx j ((contrEquiv1 dot_S200x5000_S5000x32_S200x32_1_0_0_1_n_n 5000 rfl rfl).symm k) = ix2 (n0 := 200) (n1 := 5000) (j 0) k := funext fun a => Fin.ext (by
    match a with
    | ⟨0, _⟩ => exact lhs_k2_0 _ _
    | ⟨1, _⟩ => exact (lhs_k2_1 _ _).trans hk)
  have er : dot_S200x5000_S5000x32_S200x32_1_0_0_1_n_n.rhsIdx j ((contrEquiv1 dot_S200x5000_S5000x32_S200x32_1_0_0_1_n_n 5000 rfl rfl).symm k) = ix2 (n0 := 5000) (n1 := 32) k (j 1) := funext fun a => Fin.ext (by
    match a with
    | ⟨0, _⟩ => exact (rhs_k2_0 _ _).trans hk
    | ⟨1, _⟩ => exact rhs_k2_1 _ _)
  rw [truncf_apply, truncf_apply, el, er]

/-- The product of a 5000×5000 array with a 5000×32 array, index by index. -/
def prod2 (a : S5000x5000.Idx → EReal) (b : S5000x32.Idx → EReal) : S5000x32.Idx → EReal :=
  fun i => ∑ k : Fin 5000, a (ix2 (n0 := 5000) (n1 := 5000) (i 0) k) * b (ix2 (n0 := 5000) (n1 := 32) k (i 1))

/-- Where the blocks sit: at point `t` the left operand's and the result's blocks are row block `t`; the right operand's
    block is the whole array. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two operand arrays as the region finds them. -/
theorem flushed2_eq (c : Dev nD) (t : Fin cfg2.N) :
    (dat2 V c).flushed 2 t = ((cfg2.win 2).blk t).view.read (Elt Ideal) (prod2 (V c main_v63) (V c main_v70)) := by
  show (cfg2.win 2).cut (grid2.coords t) ((dat2 V c).after 2 t) = _
  rw [after2_2]
  unfold out2_2
  rw [View.canon_unit_zero zero_offsets]
  simp only [View.ld_unit_zero (S := S200x5000) zero_offsets, View.ld_unit_zero (S := S5000x32) zero_offsets]
  obtain ⟨e0, e1, e2, e3, e4, e5⟩ := blocks2 t
  funext j
  show k2_pay1 (F := Ideal) (iblk2 V c 0 t) (iblk2 V c 1 t) j = prod2 (V c main_v63) (V c main_v70) (((cfg2.win 2).blk t).view.emb j)
  rw [pay2_apply]
  unfold prod2
  refine Finset.sum_congr rfl fun k _ => ?_
  have hj0 : (j 0).val < 200 := (j 0).isLt
  have hj1 : (j 1).val < 32 := (j 1).isLt
  have hk : k.val < 5000 := k.isLt
  have hl : iblk2 V c 0 t (ix2 (n0 := 200) (n1 := 5000) (j 0) k)
      = V c main_v63 (ix2 (n0 := 5000) (n1 := 5000) ((((cfg2.win 2).blk t).view.emb j) 0) k) := by
    show V c main_v63 (((cfg2.win 0).blk t).view.emb (ix2 (n0 := 200) (n1 := 5000) (j 0) k)) = _
    refine congrArg (V c main_v63) (funext fun a => Fin.ext ?_)
    match a with
    | ⟨0, _⟩ => show win2_0.index t (0 : Fin 2) * 200 + 1 * (j 0).val = win2_2.index t (0 : Fin 2) * 200 + 1 * (j 0).val; omega
    | ⟨1, _⟩ => show win2_0.index t (1 : Fin 2) * 5000 + 1 * k.val = k.val; omega
  have hr : iblk2 V c 1 t (ix2 (n0 := 5000) (n1 := 32) k (j 1))
      = V c main_v70 (ix2 (n0 := 5000) (n1 := 32) k ((((cfg2.win 2).blk t).view.emb j) 1)) := by
    show V c main_v70 (((cfg2.win 1).blk t).view.emb (ix2 (n0 := 5000) (n1 := 32) k (j 1))) = _
    refine congrArg (V c main_v70) (funext fun a => Fin.ext ?_)
    match a with
    | ⟨0, _⟩ => show win2_1.index t (0 : Fin 2) * 5000 + 1 * k.val = k.val; omega
    | ⟨1, _⟩ => show win2_1.index t (1 : Fin 2) * 32 + 1 * (j 1).val = win2_2.index t (1 : Fin 2) * 32 + 1 * (j 1).val; omega
  rw [hl, hr]

/-- An index of the result array is in point `t`'s block iff each coordinate is in the block's range on its axis. -/
theorem mem_blk2 (t : Fin cfg2.N) (i : S5000x32.Idx) :
    i ∈ ((cfg2.win 2).blk t).view.set ↔ ∀ a : Fin 2, win2_2.index t a * S200x32.size a ≤ (i a).val ∧ (i a).val < win2_2.index t a * S200x32.size a + S200x32.size a := by
  show i ∈ ((View.whole main_v71).slice (win2_2.rect t)).set ↔ _
  rw [View.set_slice_whole, Rect.mem_set_unit]
  exact Iff.rfl

/-- The row blocks tile the result: row `r` lies in the block of point `r / 200`, which writes it back. -/
theorem cover2 (i : S5000x32.Idx) :
    ∃ t : Fin cfg2.N, (cfg2.win 2).flush t = true ∧ i ∈ ((cfg2.win 2).blk t).view.set := by
  have hi0 : (i 0).val < 5000 := (i 0).isLt
  have hi1 : (i 1).val < 32 := (i 1).isLt
  have ht : (i 0).val / 200 < cfg2.N := by show _ < 25; omega
  obtain ⟨e0, e1, e2, e3, e4, e5⟩ := blocks2 ⟨(i 0).val / 200, ht⟩
  refine ⟨⟨(i 0).val / 200, ht⟩, flush2_2 _, ?_⟩
  rw [mem_blk2]
  intro a
  match a with
  | ⟨0, _⟩ =>
    show win2_2.index ⟨(i 0).val / 200, ht⟩ (0 : Fin 2) * 200 ≤ (i 0).val ∧ (i 0).val < win2_2.index ⟨(i 0).val / 200, ht⟩ (0 : Fin 2) * 200 + 200
    rw [e4]; show (i 0).val / 200 * 200 ≤ (i 0).val ∧ (i 0).val < (i 0).val / 200 * 200 + 200; omega
  | ⟨1, _⟩ =>
    show win2_2.index ⟨(i 0).val / 200, ht⟩ (1 : Fin 2) * 32 ≤ (i 1).val ∧ (i 1).val < win2_2.index ⟨(i 0).val / 200, ht⟩ (1 : Fin 2) * 32 + 32
    rw [e5]; omega

/-- After the region the result array is the product of the two operand arrays. -/
theorem arr2 (c : Dev nD) : (dat2 V c).arrAt 2 cfg2.N = prod2 (V c main_v63) (V c main_v70) :=
  (dat2 V c).arrAt_eq_of_cover 2 _ (fun t _ => flushed2_eq V c t) cover2

/-- The same, entry by entry. -/
theorem val2 (c : Dev nD) (p : Fin 5000) (q : Fin 32) :
    @Eq EReal ((dat2 V c).arrAt 2 cfg2.N (ix2 p q))
      (∑ k : Fin 5000, HMul.hMul (α := EReal) (β := EReal) (γ := EReal) (V c main_v63 (ix2 p k)) (V c main_v70 (ix2 k q))) := by
  rw [arr2]; rfl

end Cert.KernelIdeal.Hand

end
-- ==== Proof.ScatterRead.lean ====
import Idealize.ShloMosaic.PureOps.Ideal
import Idealize.ShloMosaic.PureOps.Dims
import Idealize.ShloMosaic.Lib.ValueIdx

noncomputable section

open scoped BigOperators

namespace Cert.ScatterRead

open Idealize.ShloMosaic Idealize.ShloMosaic.ValueIdx

/-! ## When an update lands at a given operand index -/

/-- An update index lands at operand index `i` exactly when, on every operand axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro heq a
      have hi := Option.some.inj heq
      rw [← hi]
      show d.start j idx a + (d.window j a : Int) = (((d.start j idx a + (d.window j a : Int)).toNat : Nat) : Int)
      rw [Int.toNat_of_nonneg (h a).1]
    · intro hall
      congr 1
      funext a
      apply Fin.ext
      show (d.start j idx a + (d.window j a : Int)).toNat = (i a).val
      rw [hall a]; exact Int.toNat_natCast _
  · rename_i h
    constructor
    · intro heq; exact absurd heq (by simp)
    · intro hall
      exfalso; apply h
      intro a
      rw [hall a]
      exact ⟨Int.natCast_nonneg _, by exact_mod_cast (i a).isLt⟩

/-! ## (B) one scalar index per update, into a vector -/

/-- The dimension numbers of a scalar scatter of `E` updates into a vector of `N` entries, the start indices an
    `[E × 1]` column. -/
abbrev dimsB (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem startB {N E w : Nat} (wf) (e : Fin E) (idx : IVec ⟨2, ![E, 1]⟩ w) :
    (dimsB N E wf).start (ix1 e) idx 0 = (idx (ix2 e 0)).toInt := by
  unfold ScatterDims.start
  rw [dif_pos (show (0 : Fin 1) ∈ (dimsB N E wf).scatterDimsToOperandDims from List.mem_singleton.mpr rfl)]
  congr 2
  funext b
  apply Fin.ext
  match b with
  | ⟨0, _⟩ => rfl
  | ⟨1, _⟩ => rfl

theorem windowB {N E : Nat} (wf) (j : (⟨1, ![E]⟩ : Shape).Idx) :
    (dimsB N E wf).window j 0 = 0 := by
  unfold ScatterDims.window
  have hk : (0 : Fin 1) ∉ (dimsB N E wf).sKept := fun h =>
    absurd (List.mem_singleton.mpr rfl) (of_decide_eq_true (List.mem_filter.1 h).2)
  rw [dif_neg hk]

/-- A rank-1 index set is its one coordinate's range. -/
def idxEquiv1 {n : Nat} : (⟨1, ![n]⟩ : Shape).Idx ≃ Fin n where
  toFun i := i 0
  invFun e := ix1 e
  left_inv i := (eq_ix1 i).symm
  right_inv _ := rfl

/-- Update `e` lands at entry `c` exactly when its index word, read signed, is `c`. -/
theorem resultIdx?_B {N E w : Nat} (wf) (e : Fin E) (idx : IVec ⟨2, ![E, 1]⟩ w) (c : Fin N) :
    (dimsB N E wf).resultIdx? (ix1 e) idx = some (ix1 c) ↔ (idx (ix2 e 0)).toInt = (c.val : Int) := by
  rw [resultIdx?_eq_some_iff, Fin.forall_fin_one, startB, windowB]
  simp

/-- THE SCALAR SCATTER INTO A VECTOR READ AT ENTRY `c`: the operand's entry plus the updates whose index word is `c`. -/
theorem scatterB_apply {N E w : Nat} (wf) (x : (⟨1, ![N]⟩ : Shape).Idx → EReal) (idx : IVec ⟨2, ![E, 1]⟩ w)
    (upd : (⟨1, ![E]⟩ : Shape).Idx → EReal) (c : Fin N) :
    Ideal.hostScatterAdd (dimsB N E wf) x idx upd (ix1 c)
      = x (ix1 c) + ∑ e ∈ Finset.univ.filter (fun e : Fin E => (idx (ix2 e 0)).toInt = (c.val : Int)), upd (ix1 e) := by
  unfold Ideal.hostScatterAdd
  congr 1
  refine Finset.sum_equiv idxEquiv1 (fun j => ?_) (fun j _ => ?_)
  · obtain ⟨e, rfl⟩ : ∃ e, j = ix1 e := ⟨j 0, eq_ix1 j⟩
    rw [Finset.mem_filter, Finset.mem_filter, resultIdx?_B]
    exact ⟨fun h => ⟨Finset.mem_univ _, h.2⟩, fun h => ⟨Finset.mem_univ _, h.2⟩⟩
  · obtain ⟨e, rfl⟩ : ∃ e, j = ix1 e := ⟨j 0, eq_ix1 j⟩
    rfl

/-! ## (A) two scalar indices per update, into a matrix -/

/-- The dimension numbers of a scalar scatter of `E` updates into an `[N × M]` matrix, the start indices an `[E × 2]`
    table of (row, column) pairs. -/
abbrev dimsA (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

theorem startA0 {N M E w : Nat} (wf) (e : Fin E) (idx : IVec ⟨2, ![E, 2]⟩ w) :
    (dimsA N M E wf).start (ix1 e) idx 0 = (idx (ix2 e 0)).toInt := by
  unfold ScatterDims.start
  rw [dif_pos (show (0 : Fin 2) ∈ (dimsA N M E wf).scatterDimsToOperandDims from List.mem_cons_self)]
  congr 2
  funext b
  apply Fin.ext
  match b with
  | ⟨0, _⟩ => rfl
  | ⟨1, _⟩ => rfl

theorem startA1 {N M E w : Nat} (wf) (e : Fin E) (idx : IVec ⟨2, ![E, 2]⟩ w) :
    (dimsA N M E wf).start (ix1 e) idx 1 = (idx (ix2 e 1)).toInt := by
  unfold ScatterDims.start
  rw [dif_pos (show (1 : Fin 2) ∈ (dimsA N M E wf).scatterDimsToOperandDims from
    List.mem_cons_of_mem _ List.mem_cons_self)]
  congr 2
  funext b
  apply Fin.ext
  match b with
  | ⟨0, _⟩ => rfl
  | ⟨1, _⟩ => rfl

theorem windowA {N M E : Nat} (wf) (j : (⟨1, ![E]⟩ : Shape).Idx) (a : Fin 2) :
    (dimsA N M E wf).window j a = 0 := by
  unfold ScatterDims.window
  have hk : a ∉ (dimsA N M E wf).sKept := fun h => by
    have h2 : a ∉ [(0 : Fin 2), 1] := of_decide_eq_true (List.mem_filter.1 h).2
    apply h2
    match a with
    | ⟨0, _⟩ => exact List.mem_cons_self
    | ⟨1, _⟩ => exact List.mem_cons_of_mem _ List.mem_cons_self
  rw [dif_neg hk]

/-- Update `e` lands at entry `(c, r)` exactly when its two index words, read signed, are `c` and `r`. -/
theorem resultIdx?_A {N M E w : Nat} (wf) (e : Fin E) (idx : IVec ⟨2, ![E, 2]⟩ w) (c : Fin N) (r : Fin M) :
    (dimsA N M E wf).resultIdx? (ix1 e) idx = some (ix2 c r)
      ↔ (idx (ix2 e 0)).toInt = (c.val : Int) ∧ (idx (ix2 e 1)).toInt = (r.val : Int) := by
  rw [resultIdx?_eq_some_iff, Fin.forall_fin_two, startA0, startA1, windowA, windowA]
  simp

/-- THE SCALAR SCATTER INTO A MATRIX READ AT ENTRY `(c, r)`: the operand's entry plus the updates whose index pair is
    `(c, r)`. -/
theorem scatterA_apply {N M E w : Nat} (wf) (x : (⟨2, ![N, M]⟩ : Shape).Idx → EReal) (idx : IVec ⟨2, ![E, 2]⟩ w)
    (upd : (⟨1, ![E]⟩ : Shape).Idx → EReal) (c : Fin N) (r : Fin M) :
    Ideal.hostScatterAdd (dimsA N M E wf) x idx upd (ix2 c r)
      = x (ix2 c r) + ∑ e ∈ Finset.univ.filter (fun e : Fin E =>
          (idx (ix2 e 0)).toInt = (c.val : Int) ∧ (idx (ix2 e 1)).toInt = (r.val : Int)), upd (ix1 e) := by
  unfold Ideal.hostScatterAdd
  congr 1
  refine Finset.sum_equiv idxEquiv1 (fun j => ?_) (fun j _ => ?_)
  · obtain ⟨e, rfl⟩ : ∃ e, j = ix1 e := ⟨j 0, eq_ix1 j⟩
    rw [Finset.mem_filter, Finset.mem_filter, resultIdx?_A]
    exact ⟨fun h => ⟨Finset.mem_univ _, h.2⟩, fun h => ⟨Finset.mem_univ _, h.2⟩⟩
  · obtain ⟨e, rfl⟩ : ∃ e, j = ix1 e := ⟨j 0, eq_ix1 j⟩
    rfl

/-! ## (C) one row index per update row, into a matrix -/

/-- The dimension numbers of a row scatter: `E` update rows of width `D` into an `[N × D]` matrix, the start indices
    an `[E × 1]` column of row numbers. -/
abbrev dimsC (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

theorem startC0 {N D E w : Nat} (wf) (e : Fin E) (k : Fin D) (idx : IVec ⟨2, ![E, 1]⟩ w) :
    (dimsC N D E wf).start (ix2 e k) idx 0 = (idx (ix2 e 0)).toInt := by
  unfold ScatterDims.start
  rw [dif_pos (show (0 : Fin 2) ∈ (dimsC N D E wf).scatterDimsToOperandDims from List.mem_singleton.mpr rfl)]
  congr 2
  funext b
  apply Fin.ext
  match b with
  | ⟨0, _⟩ => rfl
  | ⟨1, _⟩ => rfl

theorem startC1 {N D E w : Nat} (wf) (j : (⟨2, ![E, D]⟩ : Shape).Idx) (idx : IVec ⟨2, ![E, 1]⟩ w) :
    (dimsC N D E wf).start j idx 1 = 0 := by
  unfold ScatterDims.start
  have hk : (1 : Fin 2) ∉ (dimsC N D E wf).scatterDimsToOperandDims := by
    intro h; exact absurd (List.mem_singleton.mp h) (show (1 : Fin 2) ≠ 0 by decide)
  rw [dif_neg hk]

theorem windowC0 {N D E : Nat} (wf) (j : (⟨2, ![E, D]⟩ : Shape).Idx) :
    (dimsC N D E wf).window j 0 = 0 := by
  unfold ScatterDims.window
  have hk : (0 : Fin 2) ∉ (dimsC N D E wf).sKept := fun h =>
    absurd (List.mem_singleton.mpr rfl) (of_decide_eq_true (List.mem_filter.1 h).2)
  rw [dif_neg hk]

theorem windowC1 {N D E : Nat} (wf) (e : Fin E) (k : Fin D) :
    (dimsC N D E wf).window (ix2 e k) 1 = k.val := by
  unfold ScatterDims.window
  have hk : (1 : Fin 2) ∈ (dimsC N D E wf).sKept :=
    List.mem_filter.2 ⟨List.mem_finRange _, decide_eq_true (fun h => absurd (List.mem_singleton.mp h) (show (1 : Fin 2) ≠ 0 by decide))⟩
  rw [dif_pos hk]
  rfl

/-- Entry `k` of update row `e` lands at entry `(c, j)` exactly when the row's index word, read signed, is `c` and the
    columns agree. -/
theorem resultIdx?_C {N D E w : Nat} (wf) (e : Fin E) (k : Fin D) (idx : IVec ⟨2, ![E, 1]⟩ w) (c : Fin N) (j : Fin D) :
    (dimsC N D E wf).resultIdx? (ix2 e k) idx = some (ix2 c j)
      ↔ (idx (ix2 e 0)).toInt = (c.val : Int) ∧ k = j := by
  rw [resultIdx?_eq_some_iff, Fin.forall_fin_two, startC0, startC1, windowC0, windowC1]
  simp [Fin.ext_iff]

/-- THE ROW SCATTER READ AT ENTRY `(c, j)`: the operand's entry plus column `j` of the update rows whose index word
    is `c`. -/
theorem scatterC_apply {N D E w : Nat} (wf) (x : (⟨2, ![N, D]⟩ : Shape).Idx → EReal) (idx : IVec ⟨2, ![E, 1]⟩ w)
    (upd : (⟨2, ![E, D]⟩ : Shape).Idx → EReal) (c : Fin N) (j : Fin D) :
    Ideal.hostScatterAdd (dimsC N D E wf) x idx upd (ix2 c j)
      = x (ix2 c j) + ∑ e ∈ Finset.univ.filter (fun e : Fin E => (idx (ix2 e 0)).toInt = (c.val : Int)),
          upd (ix2 e j) := by
  unfold Ideal.hostScatterAdd
  congr 1
  symm
  refine Finset.sum_bij' (fun e _ => ix2 e j) (fun p _ => p 0) (fun e he => ?_) (fun p hp => ?_) (fun e _ => rfl)
    (fun p hp => ?_) (fun e _ => rfl)
  · rw [Finset.mem_filter, resultIdx?_C]
    exact ⟨Finset.mem_univ _, (Finset.mem_filter.1 he).2, rfl⟩
  · obtain ⟨e, k, rfl⟩ : ∃ e k, p = ix2 e k := ⟨p 0, p 1, eq_ix2 p⟩
    exact Finset.mem_filter.2 ⟨Finset.mem_univ _, (((resultIdx?_C wf e k idx c j).1 (Finset.mem_filter.1 hp).2)).1⟩
  · obtain ⟨e, k, rfl⟩ : ∃ e k, p = ix2 e k := ⟨p 0, p 1, eq_ix2 p⟩
    obtain rfl : k = j := (((resultIdx?_C wf e k idx c j).1 (Finset.mem_filter.1 hp).2)).2
    rfl

/-! ## The same three reads, stated for the host operation at the ideal instance

`Host.scatterAdd` at the ideal instance is the exact sum above by definition. -/

theorem hostScatterB_apply {φ : FTy} {N E w : Nat} (wf) (x : FVec Ideal ⟨1, ![N]⟩ φ) (idx : IVec ⟨2, ![E, 1]⟩ w)
    (upd : FVec Ideal ⟨1, ![E]⟩ φ) (c : Fin N) :
    Host.scatterAdd (F := Ideal) (dimsB N E wf) x idx upd (ix1 c)
      = x (ix1 c) + ∑ e ∈ Finset.univ.filter (fun e : Fin E => (idx (ix2 e 0)).toInt = (c.val : Int)), upd (ix1 e) :=
  scatterB_apply wf x idx upd c

theorem hostScatterA_apply {φ : FTy} {N M E w : Nat} (wf) (x : FVec Ideal ⟨2, ![N, M]⟩ φ) (idx : IVec ⟨2, ![E, 2]⟩ w)
    (upd : FVec Ideal ⟨1, ![E]⟩ φ) (c : Fin N) (r : Fin M) :
    Host.scatterAdd (F := Ideal) (dimsA N M E wf) x idx upd (ix2 c r)
      = x (ix2 c r) + ∑ e ∈ Finset.univ.filter (fun e : Fin E =>
          (idx (ix2 e 0)).toInt = (c.val : Int) ∧ (idx (ix2 e 1)).toInt = (r.val : Int)), upd (ix1 e) :=
  scatterA_apply wf x idx upd c r

theorem hostScatterC_apply {φ : FTy} {N D E w : Nat} (wf) (x : FVec Ideal ⟨2, ![N, D]⟩ φ) (idx : IVec ⟨2, ![E, 1]⟩ w)
    (upd : FVec Ideal ⟨2, ![E, D]⟩ φ) (c : Fin N) (j : Fin D) :
    Host.scatterAdd (F := Ideal) (dimsC N D E wf) x idx upd (ix2 c j)
      = x (ix2 c j) + ∑ e ∈ Finset.univ.filter (fun e : Fin E => (idx (ix2 e 0)).toInt = (c.val : Int)),
          upd (ix2 e j) :=
  scatterC_apply wf x idx upd c j

/-! ## The gathers: a table, or the rows of a matrix, read at a column of positions -/

/-- The dimension numbers of `table[idx]` over a rank-1 table of `N` entries at an `[E × 1]` column of positions. -/
abbrev gdims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE TABLE GATHER READ AT POSITION `e`: with the index word in range, the clamp is idle and the result is the table's
    entry at that word. -/
theorem gather1_apply {α : Type} {N E w : Nat} (wf) (x : (⟨1, ![N]⟩ : Shape).Idx → α) (idx : IVec ⟨2, ![E, 1]⟩ w)
    (e : Fin E) (h0 : 0 ≤ (idx (ix2 e 0)).toInt) (hN : (idx (ix2 e 0)).toInt < (N : Int)) :
    Host.gather (gdims1 N E wf) x idx (ix1 e) = x (ix1 ⟨(idx (ix2 e 0)).toInt.toNat, by omega⟩) := by
  unfold Host.gather
  congr 1
  funext a
  apply Fin.ext
  match a with
  | ⟨0, _⟩ =>
    show (gdims1 N E wf).start (ix1 e) idx 0 + (gdims1 N E wf).batchCoord (ix1 e) 0 + (gdims1 N E wf).offCoord (ix1 e) 0
      = (idx (ix2 e 0)).toInt.toNat
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 1) ∈ (gdims1 N E wf).startIndexMap from List.mem_singleton.mpr rfl)]
    have hsi : (gdims1 N E wf).siIdx (ix1 e) ⟨List.idxOf (0 : Fin 1) (gdims1 N E wf).startIndexMap,
        List.idxOf_lt_length_iff.2 (List.mem_singleton.mpr rfl)⟩ = ix2 e 0 := by
      funext b; apply Fin.ext
      match b with
      | ⟨0, _⟩ => rfl
      | ⟨1, _⟩ => rfl
    rw [hsi]
    show min (idx (ix2 e 0)).toInt.toNat (N - 1) + 0 + 0 = _
    omega

/-- The dimension numbers of `matrix[idx]` (whole rows) over an `[N × D]` matrix at an `[E × 1]` column of row
    numbers. -/
abbrev gdims2 (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, j)`: with the index word in range, entry `j` of the matrix row that word names. -/
theorem gather2_apply {α : Type} {N D E w : Nat} (wf) (x : (⟨2, ![N, D]⟩ : Shape).Idx → α)
    (idx : IVec ⟨2, ![E, 1]⟩ w) (e : Fin E) (j : Fin D)
    (h0 : 0 ≤ (idx (ix2 e 0)).toInt) (hN : (idx (ix2 e 0)).toInt < (N : Int)) :
    Host.gather (gdims2 N D E wf) x idx (ix2 e j) = x (ix2 ⟨(idx (ix2 e 0)).toInt.toNat, by omega⟩ j) := by
  unfold Host.gather
  congr 1
  funext a
  apply Fin.ext
  match a with
  | ⟨0, _⟩ =>
    show (gdims2 N D E wf).start (ix2 e j) idx 0 + (gdims2 N D E wf).batchCoord (ix2 e j) 0
      + (gdims2 N D E wf).offCoord (ix2 e j) 0 = (idx (ix2 e 0)).toInt.toNat
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gdims2 N D E wf).startIndexMap from List.mem_singleton.mpr rfl)]
    have hsi : (gdims2 N D E wf).siIdx (ix2 e j) ⟨List.idxOf (0 : Fin 2) (gdims2 N D E wf).startIndexMap,
        List.idxOf_lt_length_iff.2 (List.mem_singleton.mpr rfl)⟩ = ix2 e 0 := by
      funext b; apply Fin.ext
      match b with
      | ⟨0, _⟩ => rfl
      | ⟨1, _⟩ => rfl
    rw [hsi]
    show min (idx (ix2 e 0)).toInt.toNat (N - 1) + 0 + 0 = _
    omega
  | ⟨1, _⟩ =>
    show (gdims2 N D E wf).start (ix2 e j) idx 1 + (gdims2 N D E wf).batchCoord (ix2 e j) 1
      + (gdims2 N D E wf).offCoord (ix2 e j) 1 = j.val
    rw [GatherDims.batchCoord_eq_zero _ _ _ List.not_mem_nil]
    unfold GatherDims.start
    have hm : (1 : Fin 2) ∉ (gdims2 N D E wf).startIndexMap := fun h =>
      absurd (List.mem_singleton.mp h) (show (1 : Fin 2) ≠ 0 by decide)
    rw [dif_neg hm]
    unfold GatherDims.offCoord
    have hk : (1 : Fin 2) ∈ (gdims2 N D E wf).sKept :=
      (GatherDims.mem_sKept _ _).2 ⟨fun h => absurd (List.mem_singleton.mp h) (show (1 : Fin 2) ≠ 0 by decide),
        List.not_mem_nil⟩
    rw [dif_pos hk]
    show 0 + 0 + j.val = j.val
    omega

end Cert.ScatterRead

end
-- ==== Proof.GcnMath.lean ====
/- The mathematics of a graph-convolution layer over the extended reals.

   A dense normalized adjacency matrix assembled entry by entry from nonnegative edge coefficients and a
   nonnegative diagonal, then multiplied with a feature column, equals the edge-by-edge accumulation of the
   scaled feature rows. Over EReal multiplication distributes over a sum only when the summands are
   nonnegative, which is why the coefficients' signs are hypotheses; the feature values are arbitrary
   extended reals (infinite ones included). -/
import Mathlib.Data.EReal.Operations
import Mathlib.Data.EReal.Inv
import Mathlib.Algebra.BigOperators.Group.Finset.Basic
import Mathlib.Algebra.Order.BigOperators.Group.Finset
import Mathlib.Analysis.SpecialFunctions.Pow.Real
import Idealize.ShloMosaic.PureOps.Ideal

noncomputable section

namespace Cert.GcnMath

open Idealize.ShloMosaic
open scoped BigOperators

/-! ### Distributing a product over a sum of nonnegative terms -/

/-- A finite sum of nonnegative extended reals times any extended real is the sum of the products. -/
theorem sum_mul_of_nonneg {ι : Type*} (s : Finset ι) (f : ι → EReal) (x : EReal)
    (hf : ∀ i ∈ s, 0 ≤ f i) : (∑ i ∈ s, f i) * x = ∑ i ∈ s, f i * x := by
  induction s using Finset.cons_induction with
  | empty => simp
  | cons a s ha ih =>
    have hs : ∀ i ∈ s, 0 ≤ f i := fun i hi => hf i (Finset.mem_cons_of_mem hi)
    rw [Finset.sum_cons, Finset.sum_cons,
      EReal.right_distrib_of_nonneg (hf a (Finset.mem_cons_self a s)) (Finset.sum_nonneg hs), ih hs]

/-! ### The layer -/

section Layer

variable {E N : Type*} [Fintype E] [Fintype N] [DecidableEq N]
  (row col : E → N) (coef : E → EReal) (dg : N → EReal)

/-- The edge part: summing over the source node `r` the adjacency entry `(c, r)` times `X r` visits every
    edge into `c` exactly once, at its own source. -/
theorem edge_part (hcoef : ∀ e, 0 ≤ coef e) (X : N → EReal) (c : N) :
    (∑ r : N, (∑ e ∈ Finset.univ.filter (fun e => col e = c ∧ row e = r), coef e) * X r)
      = ∑ e ∈ Finset.univ.filter (fun e => col e = c), X (row e) * coef e := by
  rw [← Finset.sum_fiberwise (Finset.univ.filter (fun e => col e = c)) row (fun e => X (row e) * coef e)]
  refine Finset.sum_congr rfl fun r _ => ?_
  rw [sum_mul_of_nonneg _ _ _ (fun e _ => hcoef e), Finset.filter_filter]
  refine Finset.sum_congr rfl fun e he => ?_
  rw [(Finset.mem_filter.1 he).2.2, mul_comm]

/-- The diagonal part: the entry `(c, r)` receives `dg k` from the one node `k = c = r`, so only the source
    `r = c` contributes. -/
theorem diag_part (X : N → EReal) (c : N) :
    (∑ r : N, (∑ k ∈ Finset.univ.filter (fun k : N => k = c ∧ k = r), dg k) * X r) = X c * dg c := by
  rw [Finset.sum_eq_single c]
  · have h : Finset.univ.filter (fun k : N => k = c ∧ k = c) = {c} := by
      ext k; simp
    rw [h, Finset.sum_singleton, mul_comm]
  · intro r _ hr
    have h : Finset.univ.filter (fun k : N => k = c ∧ k = r) = ∅ := by
      ext k
      simp only [Finset.mem_filter, Finset.mem_univ, true_and, Finset.notMem_empty, iff_false, not_and]
      rintro rfl rfl
      exact hr rfl
    rw [h, Finset.sum_empty, zero_mul]
  · intro h; exact absurd (Finset.mem_univ c) h

/-- The dense route (assemble the adjacency row of `c`, then contract it with the feature column `X`) equals
    the sparse route (accumulate `X (row e) * coef e` over the edges into `c`, then add the self loop). -/
theorem gcn_layer (hcoef : ∀ e, 0 ≤ coef e) (hdg : ∀ k, 0 ≤ dg k) (X : N → EReal) (c : N) :
    (∑ r : N, (((0 : EReal) + ∑ e ∈ Finset.univ.filter (fun e => col e = c ∧ row e = r), coef e)
        + ∑ k ∈ Finset.univ.filter (fun k : N => k = c ∧ k = r), dg k) * X r)
      = ((0 : EReal) + ∑ e ∈ Finset.univ.filter (fun e => col e = c), X (row e) * coef e) + X c * dg c := by
  have hsplit : ∀ r : N,
      (((0 : EReal) + ∑ e ∈ Finset.univ.filter (fun e => col e = c ∧ row e = r), coef e)
        + ∑ k ∈ Finset.univ.filter (fun k : N => k = c ∧ k = r), dg k) * X r
      = (∑ e ∈ Finset.univ.filter (fun e => col e = c ∧ row e = r), coef e) * X r
        + (∑ k ∈ Finset.univ.filter (fun k : N => k = c ∧ k = r), dg k) * X r := by
    intro r
    rw [zero_add, EReal.right_distrib_of_nonneg (Finset.sum_nonneg fun e _ => hcoef e)
      (Finset.sum_nonneg fun k _ => hdg k)]
  rw [Finset.sum_congr rfl fun r _ => hsplit r, Finset.sum_add_distrib, edge_part row col coef hcoef X c,
    diag_part dg X c, zero_add]

/-- The same with the contraction's zero initial value written out. -/
theorem gcn_layer' (hcoef : ∀ e, 0 ≤ coef e) (hdg : ∀ k, 0 ≤ dg k) (X : N → EReal) (c : N) :
    (0 : EReal) + (∑ r : N, (((0 : EReal) + ∑ e ∈ Finset.univ.filter (fun e => col e = c ∧ row e = r), coef e)
        + ∑ k ∈ Finset.univ.filter (fun k : N => k = c ∧ k = r), dg k) * X r)
      = ((0 : EReal) + ∑ e ∈ Finset.univ.filter (fun e => col e = c), X (row e) * coef e) + X c * dg c := by
  rw [zero_add, gcn_layer row col coef dg hcoef hdg X c]

end Layer

/-! ### Signs of the coefficients -/

/-- The pattern of the single-precision `1.0` denotes `1`: sign bit clear, biased exponent `127`, significand
    field `0`, so the value is `2^23 * 2^(127 - 127 - 23) = 1`. -/
theorem ofBits_one : Ideal.ofBits .f32 0x3F800000#32 = 1 := by
  show Ideal.ieee 8 23 (0x3F800000#32) = 1
  have hs : BitVec.extractLsb' (8 + 23) 1 (0x3F800000#32) = 0#1 := by decide
  have he : (BitVec.extractLsb' 23 8 (0x3F800000#32)).toNat = 127 := by decide
  have hf : (BitVec.extractLsb' 0 23 (0x3F800000#32)).toNat = 0 := by decide
  unfold Ideal.ieee
  simp only [hs, he, hf]
  norm_num

/-- The pattern of the single-precision `+0.0` denotes `0`: every field is zero, the subnormal `0 * 2^(-149)`. -/
theorem ofBits_zero : Ideal.ofBits .f32 0x00000000#32 = 0 := by
  show Ideal.ieee 8 23 (0x00000000#32) = 0
  have hs : BitVec.extractLsb' (8 + 23) 1 (0x00000000#32) = 0#1 := by decide
  have he : (BitVec.extractLsb' 23 8 (0x00000000#32)).toNat = 0 := by decide
  have hf : (BitVec.extractLsb' 0 23 (0x00000000#32)).toNat = 0 := by decide
  unfold Ideal.ieee
  simp only [hs, he, hf]
  norm_num

/-- A power of a nonnegative base is nonnegative, whatever the exponent: at `⊤` every branch of the table
    is `⊤`, `1` or `0`; at a real base `x ≥ 0` the branches at an infinite exponent are again `⊤`, `1` or `0`
    and at a real exponent the value is `Real.rpow x y ≥ 0`. -/
theorem pow_nonneg_of_nonneg (d y : EReal) (hd : 0 ≤ d) : 0 ≤ Ideal.pow d y := by
  induction d using EReal.rec with
  | bot => exact absurd hd (by simp)
  | top =>
    rw [Ideal.pow_top]
    split_ifs <;> simp
  | coe x =>
    have hx : 0 ≤ x := by exact_mod_cast hd
    induction y using EReal.rec with
    | bot =>
      rw [Ideal.pow_coe_bot, if_neg (not_lt.2 hx)]
      split_ifs <;> simp
    | top =>
      rw [Ideal.pow_coe_top, if_neg (not_lt.2 hx)]
      split_ifs <;> simp
    | coe y =>
      rw [Ideal.pow_coe_coe]
      exact_mod_cast Real.rpow_nonneg hx y

/-- The inverse square root of a nonnegative degree (the exponent is the pattern of `-0.5`) is nonnegative. -/
theorem pow_neg_half_nonneg (d : EReal) (hd : 0 ≤ d) :
    0 ≤ Ideal.pow d (Ideal.ofBits .f32 0xBF000000#32) :=
  pow_nonneg_of_nonneg d _ hd

/-- A positive numerator over a nonnegative denominator is nonnegative: by zero the quotient is `⊤`,
    otherwise it is the product with the (nonnegative) inverse. -/
theorem div_nonneg_of_pos (x d : EReal) (hx : 0 < x) (hd : 0 ≤ d) : 0 ≤ Ideal.div x d := by
  unfold Ideal.div
  split_ifs with h0
  · exact le_top
  · exact mul_nonneg hx.le (EReal.inv_nonneg_of_nonneg hd)

/-- The reciprocal of a nonnegative degree is nonnegative. -/
theorem div_one_nonneg (d : EReal) (hd : 0 ≤ d) :
    0 ≤ Ideal.div (Ideal.ofBits .f32 0x3F800000#32) d := by
  rw [ofBits_one]
  exact div_nonneg_of_pos 1 d zero_lt_one hd

/-- A degree counted as `0 + (one per incident edge) + 1` is nonnegative. -/
theorem deg_nonneg {ι : Type*} (s : Finset ι) :
    0 ≤ ((0 : EReal) + ∑ _i ∈ s, Ideal.ofBits .f32 0x3F800000#32) + Ideal.ofBits .f32 0x3F800000#32 := by
  rw [ofBits_one]
  exact add_nonneg (add_nonneg le_rfl (Finset.sum_nonneg fun _ _ => zero_le_one)) zero_le_one

/-- The same with the initial zero spelled as the pattern of `+0.0`. -/
theorem deg_nonneg' {ι : Type*} (s : Finset ι) :
    0 ≤ (Ideal.ofBits .f32 0x00000000#32 + ∑ _i ∈ s, Ideal.ofBits .f32 0x3F800000#32)
      + Ideal.ofBits .f32 0x3F800000#32 := by
  rw [ofBits_zero]
  exact deg_nonneg s

end Cert.GcnMath

end
-- ==== Proof.KIAdj.lean ====
import proofs.«412470_j4346506903645_2_alg».proof.Proof.KIRun
import proofs.«412470_j4346506903645_2_alg».proof.Proof.ScatterRead
import proofs.«412470_j4346506903645_2_alg».proof.Proof.GcnMath
import proofs.«412470_j4346506903645_2_alg».proof.Proof.GcnSpec
import Idealize.ShloMosaic.Lib.ValueLayout
import Idealize.ShloMosaic.Lib.IdealHost
import Idealize.ShloMosaic.Lib.DynamicIndex

/-!
# The kernel program's normalized adjacency matrix, entry by entry

The first host stretch of the kernel program builds, from the edge list, the dense matrix the two aggregations multiply by:
entry `(p, r)` is the sum of the coefficients of the edges from `r` to `p`, plus the self loop's coefficient on the diagonal.
This module names the stretch's intermediate arrays as functions of the edge list, reads each at an index, and concludes
that one aggregation through the matrix is the edge-by-edge layer.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Tactic
open scoped BigOperators

/-! ## The stretch's arrays as functions of the edge list -/

section Terms

variable (a1 : IVec S2x80000 32)

/-- The sources' index words: row 0 of the edge list. -/
def rowV : IVec S80000 32 :=
  shapeCast S80000 (extractStridedSlice S1x80000 ![0, 0] a1 slices_S2x80000_S1x80000_0_0) shapeCasts_S1x80000_S80000
/-- The targets' index words: row 1 of the edge list. -/
def colV : IVec S80000 32 :=
  shapeCast S80000 (extractStridedSlice S1x80000 ![1, 0] a1 slices_S2x80000_S1x80000_1_0) shapeCasts_S1x80000_S80000

/-- A negative index word counts from the end: `5000` is added to it. -/
def wrapE (v : IVec S80000 32) : IVec S80000 32 :=
  select (cmpi .slt v (broadcastInDim S80000 ![] bcast_S_S80000 (constantI S_ 32 0#32)))
    (addi v (broadcastInDim S80000 ![] bcast_S_S80000 (constantI S_ 32 5000#32))) v
/-- The same over the `5000` node numbers. -/
def wrapN (v : IVec S5000 32) : IVec S5000 32 :=
  select (cmpi .slt v (broadcastInDim S5000 ![] bcast_S_S5000 (constantI S_ 32 0#32)))
    (addi v (broadcastInDim S5000 ![] bcast_S_S5000 (constantI S_ 32 5000#32))) v

/-- The wrapped targets and sources as `[80000 × 1]` columns of start indices. -/
def colI : IVec S80000x1 32 := broadcastInDim S80000x1 ![0] bcast_S80000_S80000x1_0 (wrapE (colV a1))
def rowI : IVec S80000x1 32 := broadcastInDim S80000x1 ![0] bcast_S80000_S80000x1_0 (wrapE (rowV a1))

/-- The degrees: ones scattered at the targets onto zeros, plus one. -/
def degT : FVec Ideal S5000 .f32 :=
  addf (Host.scatterAdd (F := Ideal) scatter_S5000_S80000x1_S80000_n_0_0_1
      (broadcastInDim S5000 ![] bcast_S_S5000 (constant (F := Ideal) S_ .f32 0x00000000#32)) (colI a1)
      (broadcastInDim S80000 ![] bcast_S_S80000 (constant (F := Ideal) S_ .f32 0x3F800000#32)))
    (broadcastInDim S5000 ![] bcast_S_S5000 (constant (F := Ideal) S_ .f32 0x3F800000#32))
/-- The degrees to the power `-1/2`. -/
def dinvT : FVec Ideal S5000 .f32 :=
  Host.powf (F := Ideal) (degT a1) (broadcastInDim S5000 ![] bcast_S_S5000 (constant (F := Ideal) S_ .f32 0xBF000000#32))
/-- The edges' coefficients: the source's factor times the target's. -/
def coefT : FVec Ideal S80000 .f32 :=
  mulf (F := Ideal) (Host.gather gather_S5000_S80000x1_S80000_n_0_n_n_0_1_1 (dinvT a1) (rowI a1))
    (Host.gather gather_S5000_S80000x1_S80000_n_0_n_n_0_1_1 (dinvT a1) (colI a1))
/-- The edges' (target, source) index pairs. -/
def edgeI : IVec S80000x2 32 :=
  concatenate S80000x2 1 [⟨S80000x1, colI a1⟩, ⟨S80000x1, rowI a1⟩] concatenates_S80000x1_S80000x1_S80000x2_d1
/-- The matrix without its diagonal part: the coefficients scattered at the pairs onto zeros. -/
def adj0T : FVec Ideal S5000x5000 .f32 :=
  Host.scatterAdd (F := Ideal) scatter_S5000x5000_S80000x2_S80000_n_01_01_1
    (broadcastInDim S5000x5000 ![] bcast_S_S5000x5000 (constant (F := Ideal) S_ .f32 0x00000000#32)) (edgeI a1) (coefT a1)
/-- The node numbers as a column of start indices. -/
def nodeI : IVec S5000x1 32 := broadcastInDim S5000x1 ![0] bcast_S5000_S5000x1_0 (wrapN (iotaInDim S5000 32 0))
/-- The diagonal's index pairs. -/
def diagI : IVec S5000x2 32 :=
  concatenate S5000x2 1 [⟨S5000x1, nodeI⟩, ⟨S5000x1, nodeI⟩] concatenates_S5000x1_S5000x1_S5000x2_d1
/-- One over the degrees. -/
def rdegT : FVec Ideal S5000 .f32 :=
  Host.divf (F := Ideal) (broadcastInDim S5000 ![] bcast_S_S5000 (constant (F := Ideal) S_ .f32 0x3F800000#32)) (degT a1)
/-- The matrix: the reciprocal degrees scattered onto the diagonal of the edge part. -/
def adjT : FVec Ideal S5000x5000 .f32 :=
  Host.scatterAdd (F := Ideal) scatter_S5000x5000_S5000x2_S5000_n_01_01_1 (adj0T a1) diagI (rdegT a1)

end Terms

variable (m : (ℓ : Loc nD τ sig) → Buf (Elt Ideal) ℓ) (ρ : Dev nD → PrngReg)

/-- A concatenation of two pieces is a function of the pieces. -/
theorem concat2_congr {α : Type} {t s : Shape} {ax : Fin t.rank} {a a' b b' : s.Idx → α}
    (h : Shape.Concatenates ([(⟨s, a⟩ : (s : Shape) × (s.Idx → α)), ⟨s, b⟩].map (·.1)) t ax) (ha : a = a') (hb : b = b') :
    concatenate t ax [⟨s, a⟩, ⟨s, b⟩] h = concatenate t ax [⟨s, a'⟩, ⟨s, b'⟩] h := by
  subst ha; subst hb; rfl

set_option maxHeartbeats 4000000 in
/-- THE MATRIX THE REGIONS READ: after the first host stretch, the buffer of the last scatter holds `adjT` of the edge list. -/
theorem W1_v63 (c : Dev nD) :
    W1 m ρ c (Proc.devRef .tc main_v63) = adjT (m ((c : Thread nD τ).loc main_arg1)) := by
  show StableHlo.after hostOps0 _ (Proc.devRef .tc main_v63) = _
  after_results_simp
  unfold adjT adj0T
  refine congrArg₂ (fun x i => Host.scatterAdd (F := Ideal) scatter_S5000x5000_S5000x2_S5000_n_01_01_1 x i _) ?_ ?_
  · refine congrArg (fun i => Host.scatterAdd (F := Ideal) scatter_S5000x5000_S80000x2_S80000_n_01_01_1 _ i _) ?_
    refine concat2_congr _ ?_ ?_
    · after_results_simp; rfl
    · after_results_simp; rfl
  · refine concat2_congr _ ?_ ?_
    · after_results_simp; rfl
    · after_results_simp; rfl

/-! ## The arrays read at an index -/

section Reads

variable (a1 : IVec S2x80000 32)

/-- Source word `e` is entry `(0, e)` of the edge list. -/
theorem rowV_apply (e : Fin 80000) : rowV a1 (ix1 e) = a1 (ix2 0 e) := by
  unfold rowV
  rw [shapeCast_1a_a_apply]
  exact slice2_axis0_apply 0 a1 _ 0 e 0 rfl

/-- Target word `e` is entry `(1, e)` of the edge list. -/
theorem colV_apply (e : Fin 80000) : colV a1 (ix1 e) = a1 (ix2 1 e) := by
  unfold colV
  rw [shapeCast_1a_a_apply]
  exact slice2_axis0_apply 1 a1 _ 0 e 1 rfl

/-- The wrap leaves a word that is not negative alone. -/
theorem wrap_apply {s : Shape} (hb : S_.BroadcastsInDim s ![]) (v : IVec s 32) (i : s.Idx) (h : 0 ≤ (v i).toInt) :
    select (cmpi .slt v (broadcastInDim s ![] hb (constantI S_ 32 0#32)))
      (addi v (broadcastInDim s ![] hb (constantI S_ 32 5000#32))) v i = v i := by
  have hz : broadcastInDim s ![] hb (constantI S_ 32 0#32) i = 0#32 := broadcastInDim_scalar_apply _ _ _
  have hlt : (v i).slt 0#32 = false := by
    simp only [BitVec.slt, BitVec.toInt_zero, decide_eq_false_iff_not, Int.not_lt]
    exact h
  show (if BitVec.ofBool ((v i).slt (broadcastInDim s ![] hb (constantI S_ 32 0#32) i)) = 1 then _ else _) = _
  rw [hz, hlt]
  rfl

theorem wrapE_apply (v : IVec S80000 32) (i : S80000.Idx) (h : 0 ≤ (v i).toInt) : wrapE v i = v i :=
  wrap_apply bcast_S_S80000 v i h
theorem wrapN_apply (v : IVec S5000 32) (i : S5000.Idx) (h : 0 ≤ (v i).toInt) : wrapN v i = v i :=
  wrap_apply bcast_S_S5000 v i h

/-- A vector laid out as a one-column matrix reads, at `(e, 0)`, its entry `e`. -/
theorem colI_apply (e : Fin 80000) : colI a1 (ix2 e 0) = wrapE (colV a1) (ix1 e) := by
  unfold colI
  exact broadcastInDim_apply _ _ _ _ (ix1 e) (fun a => by match a with | ⟨0, _⟩ => rfl)
theorem rowI_apply (e : Fin 80000) : rowI a1 (ix2 e 0) = wrapE (rowV a1) (ix1 e) := by
  unfold rowI
  exact broadcastInDim_apply _ _ _ _ (ix1 e) (fun a => by match a with | ⟨0, _⟩ => rfl)
theorem nodeI_apply (k : Fin 5000) : nodeI (ix2 k 0) = wrapN (iotaInDim S5000 32 0) (ix1 k) := by
  unfold nodeI
  exact broadcastInDim_apply _ _ _ _ (ix1 k) (fun a => by match a with | ⟨0, _⟩ => rfl)

/-- Node number `k` as a word, read signed, is `k`. -/
theorem nodeI_toInt (k : Fin 5000) : (nodeI (ix2 k 0)).toInt = (k.val : Int) := by
  have hi : (iotaInDim S5000 32 0 (ix1 k)).toInt = (k.val : Int) :=
    toInt_ofNat_of_lt (k := k.val) (by have := k.isLt; omega)
  rw [nodeI_apply, wrapN_apply _ _ (by rw [hi]; omega), hi]

/-- The two columns of the edges' index pairs. -/
theorem edgeI_apply0 (e : Fin 80000) : edgeI a1 (ix2 e 0) = colI a1 (ix2 e 0) := by
  unfold edgeI
  refine concatenate_apply_piece (a := 1) (xs := [⟨S80000x1, colI a1⟩, ⟨S80000x1, rowI a1⟩]) (h := concatenates_S80000x1_S80000x1_S80000x2_d1) (j := ix2 e 0) (k := 0) (hk := Nat.zero_lt_succ 1)
    (s₁ := S80000x1) (x₁ := colI a1) (hxk := rfl) (hr := rfl) (pre := 0) (hpre := ?_) (i := ix2 e 0) (hi := fun b hb => ?_) (ha := ?_)
  · rfl
  · match b with
    | ⟨0, _⟩ => rfl
    | ⟨1, _⟩ => exact absurd rfl hb
  · rfl
theorem edgeI_apply1 (e : Fin 80000) : edgeI a1 (ix2 e 1) = rowI a1 (ix2 e 0) := by
  unfold edgeI
  refine concatenate_apply_piece (a := 1) (xs := [⟨S80000x1, colI a1⟩, ⟨S80000x1, rowI a1⟩]) (h := concatenates_S80000x1_S80000x1_S80000x2_d1) (j := ix2 e 1) (k := 1) (hk := Nat.lt_succ_self 1)
    (s₁ := S80000x1) (x₁ := rowI a1) (hxk := rfl) (hr := rfl) (pre := 1) (hpre := ?_) (i := ix2 e 0) (hi := fun b hb => ?_) (ha := ?_)
  · rfl
  · match b with
    | ⟨0, _⟩ => rfl
    | ⟨1, _⟩ => exact absurd rfl hb
  · rfl
/-- The two columns of the diagonal's index pairs. -/
theorem diagI_apply0 (k : Fin 5000) : diagI (ix2 k 0) = nodeI (ix2 k 0) := by
  unfold diagI
  refine concatenate_apply_piece (a := 1) (xs := [⟨S5000x1, nodeI⟩, ⟨S5000x1, nodeI⟩]) (h := concatenates_S5000x1_S5000x1_S5000x2_d1) (j := ix2 k 0) (k := 0) (hk := Nat.zero_lt_succ 1)
    (s₁ := S5000x1) (x₁ := nodeI) (hxk := rfl) (hr := rfl) (pre := 0) (hpre := ?_) (i := ix2 k 0) (hi := fun b hb => ?_) (ha := ?_)
  · rfl
  · match b with
    | ⟨0, _⟩ => rfl
    | ⟨1, _⟩ => exact absurd rfl hb
  · rfl
theorem diagI_apply1 (k : Fin 5000) : diagI (ix2 k 1) = nodeI (ix2 k 0) := by
  unfold diagI
  refine concatenate_apply_piece (a := 1) (xs := [⟨S5000x1, nodeI⟩, ⟨S5000x1, nodeI⟩]) (h := concatenates_S5000x1_S5000x1_S5000x2_d1) (j := ix2 k 1) (k := 1) (hk := Nat.lt_succ_self 1)
    (s₁ := S5000x1) (x₁ := nodeI) (hxk := rfl) (hr := rfl) (pre := 1) (hpre := ?_) (i := ix2 k 0) (hi := fun b hb => ?_) (ha := ?_)
  · rfl
  · match b with
    | ⟨0, _⟩ => rfl
    | ⟨1, _⟩ => exact absurd rfl hb
  · rfl

end Reads

/-! ## The arrays' values, for an edge list whose words are node numbers -/

section Values

variable (a1 : IVec S2x80000 32) (row col : Fin 80000 → Fin 5000)
  (hrow : ∀ e, (a1 (ix2 0 e)).toInt = ((row e).val : Int)) (hcol : ∀ e, (a1 (ix2 1 e)).toInt = ((col e).val : Int))

include hcol in
/-- The wrapped target word of edge `e`, read signed, is the node `col e`. -/
theorem colI_toInt (e : Fin 80000) : (colI a1 (ix2 e 0)).toInt = ((col e).val : Int) := by
  have hv : (colV a1 (ix1 e)).toInt = ((col e).val : Int) := by rw [colV_apply, hcol]
  rw [colI_apply, wrapE_apply _ _ (by rw [hv]; omega), hv]

include hrow in
/-- The wrapped source word of edge `e`, read signed, is the node `row e`. -/
theorem rowI_toInt (e : Fin 80000) : (rowI a1 (ix2 e 0)).toInt = ((row e).val : Int) := by
  have hv : (rowV a1 (ix1 e)).toInt = ((row e).val : Int) := by rw [rowV_apply, hrow]
  rw [rowI_apply, wrapE_apply _ _ (by rw [hv]; omega), hv]

/-- The host's power and quotient at the ideal instance, read at an index. -/
theorem hostPowf_apply {s : Shape} {φ : FTy} (x y : FVec Ideal s φ) (i : s.Idx) :
    Host.powf (F := Ideal) x y i = Ideal.pow (x i) (y i) := rfl
theorem hostDivf_apply {s : Shape} {φ : FTy} (x y : FVec Ideal s φ) (i : s.Idx) :
    Host.divf (F := Ideal) x y i = Ideal.div (x i) (y i) := rfl

/-- Two node numbers that agree as integers are the same node. -/
theorem fin_eq_iff_cast {n : ℕ} (a b : Fin n) : ((a.val : Int) = (b.val : Int)) ↔ a = b :=
  ⟨fun h => Fin.ext (by exact_mod_cast h), fun h => by rw [h]⟩

include hcol in
/-- The degree of node `c`. -/
theorem degT_apply (c : Fin 5000) : degT a1 (ix1 c) = Cert.GcnSpec.deg col c := by
  unfold degT
  rw [addf_apply, show scatter_S5000_S80000x1_S80000_n_0_0_1
      = Cert.ScatterRead.dimsB 5000 80000 scatter_S5000_S80000x1_S80000_n_0_0_1_wf from rfl,
    Cert.ScatterRead.hostScatterB_apply]
  have hs : (∑ e ∈ Finset.univ.filter (fun e : Fin 80000 => (colI a1 (ix2 e 0)).toInt = (c.val : Int)),
        broadcastInDim S80000 ![] bcast_S_S80000 (constant (F := Ideal) S_ .f32 0x3F800000#32) (ix1 e))
      = ∑ _e ∈ Finset.univ.filter (fun e => col e = c), Cert.GcnSpec.one := by
    refine Finset.sum_congr (Finset.filter_congr fun e _ => ?_) fun e _ => ?_
    · rw [colI_toInt a1 col hcol e]
      exact fin_eq_iff_cast (col e) c
    · rw [broadcastInDim_scalar_apply, constant_apply]
  rw [hs, broadcastInDim_scalar_apply, broadcastInDim_scalar_apply, constant_apply, constant_apply]
  rfl

include hcol in
/-- The inverse square root of the degree of node `c`. -/
theorem dinvT_apply (c : Fin 5000) : dinvT a1 (ix1 c) = Cert.GcnSpec.dinv col c := by
  unfold dinvT
  rw [hostPowf_apply, degT_apply a1 col hcol c, broadcastInDim_scalar_apply, constant_apply]
  rfl

/-- A table read at a column of positions whose word `e`, read signed, is the node `k`: the table's entry `k`. -/
theorem gather_node (x : FVec Ideal S5000 .f32) (idx : IVec S80000x1 32) (e : Fin 80000) (k : Fin 5000)
    (hk : (idx (ix2 e 0)).toInt = (k.val : Int)) :
    Host.gather gather_S5000_S80000x1_S80000_n_0_n_n_0_1_1 x idx (ix1 e) = x (ix1 k) := by
  have h0 : 0 ≤ (idx (ix2 e 0)).toInt := by rw [hk]; omega
  have hN : (idx (ix2 e 0)).toInt < ((5000 : ℕ) : Int) := by rw [hk]; have := k.isLt; omega
  rw [show gather_S5000_S80000x1_S80000_n_0_n_n_0_1_1
      = Cert.ScatterRead.gdims1 5000 80000 gather_S5000_S80000x1_S80000_n_0_n_n_0_1_1_wf from rfl,
    Cert.ScatterRead.gather1_apply _ x idx e h0 hN]
  refine congrArg (fun q : Fin 5000 => x (ix1 q)) (Fin.ext ?_)
  show (idx (ix2 e 0)).toInt.toNat = k.val
  rw [hk]; exact Int.toNat_natCast _

include hrow hcol in
/-- The coefficient of edge `e`. -/
theorem coefT_apply (e : Fin 80000) : coefT a1 (ix1 e) = Cert.GcnSpec.coef row col e := by
  unfold coefT
  rw [mulf_apply, gather_node _ _ e (row e) (rowI_toInt a1 row hrow e), gather_node _ _ e (col e) (colI_toInt a1 col hcol e),
    dinvT_apply a1 col hcol, dinvT_apply a1 col hcol]
  rfl

include hcol in
/-- The self loop's coefficient at node `k`. -/
theorem rdegT_apply (k : Fin 5000) : rdegT a1 (ix1 k) = Cert.GcnSpec.dg col k := by
  unfold rdegT
  rw [hostDivf_apply, degT_apply a1 col hcol k, broadcastInDim_scalar_apply, constant_apply]
  rfl

include hrow hcol in
/-- The edge part of the matrix at `(p, r)`: the coefficients of the edges from `r` to `p`, added from zero. -/
theorem adj0T_apply (p r : Fin 5000) :
    adj0T a1 (ix2 p r)
      = (0 : EReal) + ∑ e ∈ Finset.univ.filter (fun e => col e = p ∧ row e = r), Cert.GcnSpec.coef row col e := by
  unfold adj0T
  rw [show scatter_S5000x5000_S80000x2_S80000_n_01_01_1
      = Cert.ScatterRead.dimsA 5000 5000 80000 scatter_S5000x5000_S80000x2_S80000_n_01_01_1_wf from rfl,
    Cert.ScatterRead.hostScatterA_apply, broadcastInDim_scalar_apply, constant_apply, Cert.GcnMath.ofBits_zero]
  refine congrArg (fun t => (0 : EReal) + t) ?_
  refine Finset.sum_congr (Finset.filter_congr fun e _ => ?_) fun e _ => coefT_apply a1 row col hrow hcol e
  rw [edgeI_apply0, edgeI_apply1, colI_toInt a1 col hcol e, rowI_toInt a1 row hrow e, fin_eq_iff_cast, fin_eq_iff_cast]

include hrow hcol in
/-- THE MATRIX AT `(p, r)`: the edges from `r` to `p`, and on the diagonal the self loop. -/
theorem adjT_apply (p r : Fin 5000) :
    adjT a1 (ix2 p r)
      = ((0 : EReal) + ∑ e ∈ Finset.univ.filter (fun e => col e = p ∧ row e = r), Cert.GcnSpec.coef row col e)
        + ∑ k ∈ Finset.univ.filter (fun k : Fin 5000 => k = p ∧ k = r), Cert.GcnSpec.dg col k := by
  unfold adjT
  rw [show scatter_S5000x5000_S5000x2_S5000_n_01_01_1
      = Cert.ScatterRead.dimsA 5000 5000 5000 scatter_S5000x5000_S5000x2_S5000_n_01_01_1_wf from rfl,
    Cert.ScatterRead.hostScatterA_apply, adj0T_apply a1 row col hrow hcol p r]
  refine congrArg (fun t => ((0 : EReal) + ∑ e ∈ Finset.univ.filter (fun e => col e = p ∧ row e = r),
    Cert.GcnSpec.coef row col e) + t) ?_
  refine Finset.sum_congr (Finset.filter_congr fun k _ => ?_) fun k _ => rdegT_apply a1 col hcol k
  rw [diagI_apply0, diagI_apply1, nodeI_toInt, fin_eq_iff_cast, fin_eq_iff_cast]

end Values

/-! ## The matrix in the core's buffers, and one aggregation through it -/

section Kernel

/-- The matrix as the regions find it: the contents of the last scatter's buffer after the first host stretch, named at its
    literal type. -/
abbrev adjW (c : Dev nD) : S5000x5000.Idx → EReal := W1 m ρ c (Proc.devRef .tc main_v63)

variable (c : Dev nD) (row col : Fin 80000 → Fin 5000)
  (hrow : ∀ e, ((m ((c : Thread nD τ).loc main_arg1) : IVec S2x80000 32) (ix2 0 e)).toInt = ((row e).val : Int))
  (hcol : ∀ e, ((m ((c : Thread nD τ).loc main_arg1) : IVec S2x80000 32) (ix2 1 e)).toInt = ((col e).val : Int))

include hrow hcol in
/-- THE NORMALIZED ADJACENCY MATRIX AT `(p, r)`, as the regions find it after the first host stretch. -/
theorem adj_apply (p r : Fin 5000) :
    W1 m ρ c (Proc.devRef .tc main_v63) (ix2 p r)
      = ((0 : EReal) + ∑ e ∈ Finset.univ.filter (fun e => col e = p ∧ row e = r), Cert.GcnSpec.coef row col e)
        + ∑ k ∈ Finset.univ.filter (fun k : Fin 5000 => k = p ∧ k = r), Cert.GcnSpec.dg col k := by
  rw [W1_v63 m ρ c]
  exact adjT_apply _ row col hrow hcol p r

/-- A degree is not negative. -/
theorem deg_nonneg (k : Fin 5000) : 0 ≤ Cert.GcnSpec.deg col k := Cert.GcnMath.deg_nonneg' _

/-- An edge's coefficient is not negative. -/
theorem coef_nonneg (e : Fin 80000) : 0 ≤ Cert.GcnSpec.coef row col e :=
  mul_nonneg (Cert.GcnMath.pow_nonneg_of_nonneg _ _ (deg_nonneg col (row e)))
    (Cert.GcnMath.pow_nonneg_of_nonneg _ _ (deg_nonneg col (col e)))

/-- A self loop's coefficient is not negative. -/
theorem dg_nonneg (k : Fin 5000) : 0 ≤ Cert.GcnSpec.dg col k :=
  Cert.GcnMath.div_one_nonneg _ (deg_nonneg col k)

include hrow hcol in
/-- ONE AGGREGATION THROUGH THE MATRIX: row `p` of the matrix against column `j` of the features is the edge-by-edge
    layer at `(p, j)`. -/
theorem kernel_layer {D : ℕ} (X : Fin 5000 → Fin D → EReal) (p : Fin 5000) (j : Fin D) :
    (∑ r : Fin 5000, adjW m ρ c (ix2 p r) * X r j) = Cert.GcnSpec.layer row col X p j := by
  rw [Finset.sum_congr rfl fun r _ => by rw [show adjW m ρ c (ix2 p r) = _ from adj_apply m ρ c row col hrow hcol p r],
    Cert.GcnMath.gcn_layer row col (Cert.GcnSpec.coef row col) (Cert.GcnSpec.dg col) (coef_nonneg row col) (dg_nonneg col)
      (fun r => X r j) p]
  unfold Cert.GcnSpec.layer
  rw [show Cert.GcnSpec.zero = (0 : EReal) from Cert.GcnMath.ofBits_zero]

end Kernel

end Cert.KernelIdeal.Hand

end
-- ==== Proof.KIComb.lean ====
/- The idealized kernel program's encoder result as the two-layer specification.

   The kernel builds a dense adjacency matrix once, on the host, and then runs each graph-convolution layer as matrix
   products: the features times the weights, then the adjacency matrix times that product; between the layers the host adds
   the first bias, applies the rectifier and multiplies by the second weight matrix, and after the second layer it adds
   the second bias. Read at an index, each product is a sum over its contracted axis, each bias broadcast is the bias at
   the column, and the rectifier is the larger of the value and the zero word.

   Contracting a row of the adjacency matrix with a feature matrix is the specification's aggregation at that node: that
   is the one fact about the adjacency matrix used here. The composition is stated over it first, and then with it
   supplied for the edge list the index words spell. -/
import proofs.«412470_j4346506903645_2_alg».proof.Proof.KIRun
import proofs.«412470_j4346506903645_2_alg».proof.Proof.KIVal
import proofs.«412470_j4346506903645_2_alg».proof.Proof.KIHost
import proofs.«412470_j4346506903645_2_alg».proof.Proof.KIAdj
import proofs.«412470_j4346506903645_2_alg».proof.Proof.GcnSpec

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

/-! ### The host operations between the regions, read at an index -/

/-- A row vector laid along the second axis of a rectangle reads, at `(a, k)`, the vector at `k`. -/
theorem bias_at {n d : Nat} (hd : d ≠ 1) (h₁ : (⟨1, ![d]⟩ : Shape).BroadcastsInDim ⟨2, ![1, d]⟩ ![1])
    (h₂ : (⟨2, ![1, d]⟩ : Shape).BroadcastsInDim ⟨2, ![n, d]⟩ ![0, 1]) (b : (⟨1, ![d]⟩ : Shape).Idx → EReal)
    (a : Fin n) (k : Fin d) :
    broadcastInDim ⟨2, ![n, d]⟩ ![0, 1] h₂ (broadcastInDim ⟨2, ![1, d]⟩ ![1] h₁ b) (ix2 a k) = b (ix1 k) := by
  rw [broadcastInDim_apply _ h₂ _ (ix2 a k) (ix2 0 k) (fun x => match x with
      | ⟨0, _⟩ => by show (0 : Nat) = if (1 : Nat) = 1 then 0 else a.val; rw [if_pos rfl]
      | ⟨1, _⟩ => by show k.val = if d = 1 then 0 else k.val; rw [if_neg hd]),
    broadcastInDim_apply _ h₁ b (ix2 0 k) (ix1 k) (fun x => match x with
      | ⟨0, _⟩ => by show k.val = if d = 1 then 0 else k.val; rw [if_neg hd])]

/-- The zero splat reads the zero word everywhere. -/
theorem zero_at {t : Shape} (h : (⟨0, ![]⟩ : Shape).BroadcastsInDim t ![]) (i : t.Idx) :
    broadcastInDim t ![] h (constant (F := Ideal) ⟨0, ![]⟩ .f32 0x00000000#32) i = GcnSpec.zero := by
  rw [broadcastInDim_apply _ h _ i ix0 (fun a => a.elim0)]
  rfl

/-- In the host product's dimension numbers the left operand's row coordinate is the output's row. -/
theorem dot2_lhs0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide),
    dif_pos (show (0 : Fin S5000x64.rank) ∈ dot_S5000x64_S64x32_S5000x32_1_0_0_1_n_n.lhsNonContracting by decide)]
  rfl

/-- The right operand's column coordinate is the output's column. -/
theorem dot2_rhs1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide),
    dif_pos (show (1 : Fin S64x32.rank) ∈ dot_S5000x64_S64x32_S5000x32_1_0_0_1_n_n.rhsNonContracting by decide)]
  rfl

/-- The host product of a `5000 × 64` matrix with a `64 × 32` matrix, entry by entry: the one contracted axis is the
    left operand's columns and the right operand's rows. -/
theorem dot2_at (l : FVec Ideal S5000x64 .f32) (r : FVec Ideal S64x32 .f32) (a : Fin 5000) (k : Fin 32) :
    Host.dotGeneral (F := Ideal) (φ₁ := .f32) (φ₂ := .f32) dot_S5000x64_S64x32_S5000x32_1_0_0_1_n_n none l r (ix2 a k)
      = ∑ kk : Fin 64, l (ix2 a kk) * r (ix2 kk k) := by
  simp only [Host.dotGeneral]
  rw [Ideal.dotGeneral_apply,
    ← Equiv.sum_comp (contrEquiv1 dot_S5000x64_S64x32_S5000x32_1_0_0_1_n_n 64 rfl rfl).symm]
  refine Finset.sum_congr rfl fun kk _ => ?_
  have hq := contrEquiv1_symm_val dot_S5000x64_S64x32_S5000x32_1_0_0_1_n_n 64 rfl rfl kk
  have el : dot_S5000x64_S64x32_S5000x32_1_0_0_1_n_n.lhsIdx (ix2 a k)
      ((contrEquiv1 dot_S5000x64_S64x32_S5000x32_1_0_0_1_n_n 64 rfl rfl).symm kk) = ix2 a kk := by
    funext x
    apply Fin.ext
    match x with
    | ⟨0, _⟩ => exact dot2_lhs0 _ _
    | ⟨1, _⟩ => exact (dot_S5000x64_S64x32_S5000x32_1_0_0_1_n_n.lhsIdx_val_of_single rfl _ _).trans hq
  have er : dot_S5000x64_S64x32_S5000x32_1_0_0_1_n_n.rhsIdx (ix2 a k)
      ((contrEquiv1 dot_S5000x64_S64x32_S5000x32_1_0_0_1_n_n 64 rfl rfl).symm kk) = ix2 kk k := by
    funext x
    apply Fin.ext
    match x with
    | ⟨0, _⟩ => exact (dot_S5000x64_S64x32_S5000x32_1_0_0_1_n_n.rhsIdx_val_of_single rfl _ _).trans hq
    | ⟨1, _⟩ => exact dot2_rhs1 _ _
  rw [el, er]

/-! ### The encoder's result

What the adjacency matrix does to a feature matrix is taken as a hypothesis here: contracting row `p` of the matrix the
first host stretch builds with a feature matrix `X` is the specification's aggregation of `X` at node `p`. Under it the
three regions' products, the two biases, the rectifier and the host product compose to the two-layer specification. -/

section Encoder

variable (m : (ℓ : Loc nD τ sig) → Buf (Elt Ideal) ℓ) (ρ : Dev nD → PrngReg)

/-- The kernel's encoder result at `(p, j)`, given that the adjacency matrix aggregates as the specification's layer. -/
theorem kernel_h2_of (c : Dev nD) (row col : Fin 80000 → Fin 5000)
    (hadj : ∀ {D : Nat} (X : Fin 5000 → Fin D → EReal) (p : Fin 5000) (j : Fin D),
      (∑ r : Fin 5000, HMul.hMul (α := EReal) (β := EReal) (γ := EReal)
          (W1 m ρ c (Proc.devRef .tc main_v63) (ix2 p r)) (X r j)) = GcnSpec.layer row col X p j)
    (p : Fin 5000) (j : Fin 32) :
    @Eq EReal (W12 m ρ c (Proc.devRef .tc main_v74) (ix2 p j))
      (GcnSpec.h2 row col (fun a k => m ((c.tc : Thread nD τ).loc main_arg0) (ix2 a k))
        (fun k q => m ((c.tc : Thread nD τ).loc main_arg2) (ix2 k q))
        (fun q => m ((c.tc : Thread nD τ).loc main_arg3) (ix1 q))
        (fun k q => m ((c.tc : Thread nD τ).loc main_arg4) (ix2 k q))
        (fun q => m ((c.tc : Thread nD τ).loc main_arg5) (ix1 q)) p j) := by
  -- region 0: the first product
  have h0 : @Eq (Fin 5000 → Fin 64 → EReal) (fun a k => V2 m ρ c main_v64 (ix2 a k))
      (GcnSpec.mm (fun a k => m ((c.tc : Thread nD τ).loc main_arg0) (ix2 a k))
          (fun k q => m ((c.tc : Thread nD τ).loc main_arg2) (ix2 k q))) := by
    funext a k
    rw [V2_v64 m ρ c, val0 (V1 m ρ) c a k, V1_arg0 m ρ c, V1_arg2 m ρ c]
    rfl
  -- region 1: the adjacency matrix against the first product
  have h1 : ∀ (a : Fin 5000) (k : Fin 64), @Eq EReal (W3 m ρ c (Proc.devRef .tc main_v65) (ix2 a k))
      (GcnSpec.layer row col (GcnSpec.mm (fun a k => m ((c.tc : Thread nD τ).loc main_arg0) (ix2 a k))
          (fun k q => m ((c.tc : Thread nD τ).loc main_arg2) (ix2 k q))) a k) := by
    intro a k
    rw [W3_v65 m ρ c, val1 (V2 m ρ) c a k, V2_v63 m ρ c, ← h0]
    exact hadj (fun r q => V2 m ρ c main_v64 (ix2 r q)) a k
  -- the first bias, the rectifier and the host product
  have h2p : ∀ (a : Fin 5000) (k : Fin 32), @Eq EReal (V6 m ρ c main_v70 (ix2 a k))
      (∑ kk : Fin 64, GcnSpec.relu (GcnSpec.layer row col
            (GcnSpec.mm (fun a k => m ((c.tc : Thread nD τ).loc main_arg0) (ix2 a k))
              (fun k q => m ((c.tc : Thread nD τ).loc main_arg2) (ix2 k q))) a kk
            + m ((c.tc : Thread nD τ).loc main_arg3) (ix1 kk))
          * m ((c.tc : Thread nD τ).loc main_arg4) (ix2 kk k)) := by
    intro a k
    rw [V6_v70 m ρ c, dot2_at]
    show @Eq EReal _ _
    refine Finset.sum_congr rfl fun kk _ => ?_
    rw [maximumf_apply, addf_apply, h1 a kk, bias_at (by decide) bcast_S64_S1x64_1 bcast_S1x64_S5000x64_0_1,
      zero_at bcast_S_S5000x64]
    rfl
  have h2 : @Eq (Fin 5000 → Fin 32 → EReal) (fun a k => V6 m ρ c main_v70 (ix2 a k))
      (GcnSpec.mm (fun a k => GcnSpec.relu (GcnSpec.layer row col
            (GcnSpec.mm (fun a k => m ((c.tc : Thread nD τ).loc main_arg0) (ix2 a k))
              (fun k q => m ((c.tc : Thread nD τ).loc main_arg2) (ix2 k q))) a k
            + m ((c.tc : Thread nD τ).loc main_arg3) (ix1 k)))
          (fun k q => m ((c.tc : Thread nD τ).loc main_arg4) (ix2 k q))) :=
    funext fun a => funext fun k => h2p a k
  -- region 2 and the second bias
  rw [W12_v74 m ρ c, addf_apply, W7_v71 m ρ c, val2 (V6 m ρ) c p j, V6_v63 m ρ c,
    bias_at (by decide) bcast_S32_S1x32_1 bcast_S1x32_S5000x32_0_1,
    hadj (fun r q => V6 m ρ c main_v70 (ix2 r q)) p j, h2]
  rfl

/-- The kernel's encoder result at `(p, j)` is the two-layer specification over the edge list `row`, `col` that the
    index words spell: the adjacency matrix the first host stretch builds aggregates as the specification's layer. -/
theorem kernel_h2 (c : Dev nD) (row col : Fin 80000 → Fin 5000)
    (hrow : ∀ e : Fin 80000, (m ((c.tc : Thread nD τ).loc main_arg1) (ix2 0 e)).toInt = ((row e).val : Int))
    (hcol : ∀ e : Fin 80000, (m ((c.tc : Thread nD τ).loc main_arg1) (ix2 1 e)).toInt = ((col e).val : Int))
    (p : Fin 5000) (j : Fin 32) :
    @Eq EReal (W12 m ρ c (Proc.devRef .tc main_v74) (ix2 p j))
      (GcnSpec.h2 row col (fun a k => m ((c.tc : Thread nD τ).loc main_arg0) (ix2 a k))
        (fun k q => m ((c.tc : Thread nD τ).loc main_arg2) (ix2 k q))
        (fun q => m ((c.tc : Thread nD τ).loc main_arg3) (ix1 q))
        (fun k q => m ((c.tc : Thread nD τ).loc main_arg4) (ix2 k q))
        (fun q => m ((c.tc : Thread nD τ).loc main_arg5) (ix1 q)) p j) :=
  kernel_h2_of m ρ c row col (fun X p j => kernel_layer m ρ c row col hrow hcol X p j) p j

end Encoder

end Cert.KernelIdeal.Hand

end
-- ==== Proof.KIValA.lean ====
import proofs.«412470_j4346506903645_2_alg».proof.Proof.KIReg3
import proofs.«412470_j4346506903645_2_alg».proof.Proof.KIPay3
import Idealize.ShloMosaic.Lib.Pipeline.Value

/-!
# The softmax region's result array

The region walks the 5000 rows of the logits in 79 blocks of 64 rows (the last cut to the 8 rows inside the array), every block
spanning all 20000 columns. At each block the body leaves the row softmax of the block; written back block by block, the result
array ends holding the row softmax of the logits: every row lies in the block numbered by its quotient by 64, and a row's softmax
reads that row only.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The row softmax at row `p` reads row `p` only: two matrices that agree on a row have the same softmax along it. -/
theorem softmax_congr {N N' C : ℕ} (u : Fin N → Fin C → EReal) (u' : Fin N' → Fin C → EReal) (p : Fin N) (p' : Fin N')
    (q q' : Fin C) (h : ∀ b, u p b = u' p' b) (hq : q = q') : Cert.GcnSpec.softmax u p q = Cert.GcnSpec.softmax u' p' q' := by
  subst hq
  have hm : Cert.GcnSpec.rowmax u p = Cert.GcnSpec.rowmax u' p' := by
    unfold Cert.GcnSpec.rowmax; exact congrArg _ (funext h)
  unfold Cert.GcnSpec.softmax
  rw [hm]; simp only [h]

/-- The block at point `t`, for both windows: block row `t`, block column 0; all 20000 columns moved; and the rows moved end at
    `64 t + 64` or at the array's end, whichever comes first. Decided over the 79 points. -/
theorem idx_facts3 : ∀ t : Fin cfg3.N, win3_1.index t 0 = t.val ∧ win3_1.index t 1 = 0 ∧ win3_0.index t 0 = t.val ∧ win3_0.index t 1 = 0
    ∧ win3_1.xsize (grid3.coords t) 1 = 20000
    ∧ t.val * 64 + win3_1.xsize (grid3.coords t) 0 = min (t.val * 64 + 64) 5000 :=
  (by decide +kernel : ∀ t : Fin grid3.N, _)

/-- An index of a row the transfer at `i` moves is moved, whatever its column. -/
theorem moved_row (i : grid3.Coords) (j : (win3_1.xblock i).Idx) (b : Fin 20000) :
    win3_0.moved i (ix2 (n0 := 64) (n1 := 20000) (win3_1.xinj i j 0) b) = true := by
  refine (win3_0.moved_iff i _).mpr fun a => ?_
  match a with
  | ⟨0, _⟩ =>
    show (j 0).val < win3_0.xsize i (0 : Fin 2)
    rw [← xsize3_row i]; exact (j 0).isLt
  | ⟨1, _⟩ =>
    show b.val < win3_0.xsize i (1 : Fin 2)
    rw [xsize3_col i]; exact b.isLt

/-- The row softmax of the logits, as contents of the result array. -/
def G3 (c : Dev nD) : Buf (Elt Ideal) (win3_1.arr.view.loc (c.tc : Thread nD τ)) :=
  fun i => Cert.GcnSpec.softmax (fun a b => V c main_arg6 (ix2 a b)) (i 0) (i 1)

/-- What point `t` writes back is block `t` of the row softmax of the logits: the body's value at a row inside the array is the
    softmax of that row of the fetched block, which is row `64 t + r` of the logits. -/
theorem flushed3 (c : Dev nD) (t : Fin cfg3.N) :
    win3_1.cut (grid3.coords t) ((dat3 V c).after 1 t) = (win3_1.blk t).view.read (Elt Ideal) (G3 V c) := by
  obtain ⟨h10, h11, h00, h01, -, -⟩ := idx_facts3 t
  rw [after3_1, win3_1.cut_fill]
  funext j
  rw [View.read_apply, cast_eq]
  show k3_pay1 (F := Ideal) _ (win3_1.xinj (grid3.coords t) j) = _
  rw [eq_ix2 (win3_1.xinj (grid3.coords t) j)]
  refine (pay3_apply _ (win3_1.xinj (grid3.coords t) j 0) (win3_1.xinj (grid3.coords t) j 1)).trans ?_
  unfold G3
  refine softmax_congr _ _ _ _ _ _ (fun b => ?_) (Fin.ext ?_)
  · unfold Window.fill
    rw [dif_pos (moved_row (grid3.coords t) j b)]
    · unfold iblk3
      rw [View.read_apply, cast_eq]
      show V c main_arg6 _ = V c main_arg6 _
      refine congrArg (V c main_arg6) (funext fun a => Fin.ext ?_)
      match a with
      | ⟨0, _⟩ =>
        show win3_0.index t 0 * 64 + 1 * (j 0).val = win3_1.index t 0 * 64 + 1 * (j 0).val
        rw [h00, h10]
      | ⟨1, _⟩ =>
        show win3_0.index t 1 * 20000 + 1 * b.val = b.val
        rw [h01]; omega
  · show (j 1).val = win3_1.index t 1 * 20000 + 1 * (j 1).val
    rw [h11]; omega

/-- Every index of the array lies in the block of the point numbered by its row's quotient by 64. -/
theorem cover3 (i : S5000x20000.Idx) : ∃ t : Fin cfg3.N, (cfg3.win 1).flush t = true ∧ i ∈ (win3_1.blk t).view.set := by
  have hp : (i 0).val < 5000 := (i 0).isLt
  have hq : (i 1).val < 20000 := (i 1).isLt
  have hN : cfg3.N = 79 := rfl
  obtain ⟨t, ht⟩ : ∃ t : Fin cfg3.N, t.val = (i 0).val / 64 := ⟨⟨(i 0).val / 64, by rw [hN]; omega⟩, rfl⟩
  refine ⟨t, flush3_1 t, ?_⟩
  obtain ⟨h10, h11, -, -, hx1, hx0⟩ := idx_facts3 t
  show (i : ((View.whole main_v75).slice (win3_1.rect t)).ty.Idx) ∈ ((View.whole main_v75).slice (win3_1.rect t)).set
  rw [View.set_slice_whole, Rect.mem_set_unit]
  intro a
  match a with
  | ⟨0, _⟩ =>
    show win3_1.index t 0 * 64 ≤ (i 0).val ∧ (i 0).val < win3_1.index t 0 * 64 + win3_1.xsize (grid3.coords t) 0
    rw [h10]
    generalize win3_1.xsize (grid3.coords t) 0 = x at hx0 ⊢
    omega
  | ⟨1, _⟩ =>
    show win3_1.index t 1 * 20000 ≤ (i 1).val ∧ (i 1).val < win3_1.index t 1 * 20000 + win3_1.xsize (grid3.coords t) 1
    rw [h11, hx1]
    omega

/-- The region's result array, index by index: the row softmax of the logits. -/
theorem val3 (c : Dev nD) (p : Fin 5000) (q : Fin 20000) :
    (dat3 V c).arrAt 1 cfg3.N (ix2 p q) = Cert.GcnSpec.softmax (fun a b => V c main_arg6 (ix2 a b)) p q := by
  have h : (dat3 V c).arrAt 1 cfg3.N = G3 V c :=
    (dat3 V c).arrAt_eq_of_cover 1 (G3 V c) (fun t _ => flushed3 V c t) cover3
  rw [h]
  rfl

end Cert.KernelIdeal.Hand

end
-- ==== Proof.RefA.lean ====
import proofs.«412470_j4346506903645_2_alg».proof.Proof.Gen.ReferenceIdeal.Read
import proofs.«412470_j4346506903645_2_alg».proof.Proof.GcnSpec
import Idealize.ShloMosaic.PureOps.Reduce
import Idealize.ShloMosaic.PureOps.Ideal.Laws
import Idealize.ShloMosaic.Lib.ValueIdx
import Mathlib.Data.Finset.Lattice.Fold

/-!
# The reference's row softmax read at an index

The reference takes the logits' row maxima by a reduction of `max` from minus infinity (and once more the larger of that and
minus infinity), keeps them as a column and spreads them over the rows, exponentiates the difference, sums each row from zero,
spreads the sums likewise, and divides. At row `p` and column `q` this is the specification's row softmax of the logits.
-/

noncomputable section

namespace Cert.ReferenceIdeal.Hand

open Cert.ReferenceIdeal Cert.ReferenceIdeal.Gen Cert.ReferenceIdeal.Read Idealize.ShloMosaic Idealize.ShloMosaic.ValueIdx

/-- Over the extended reals, folding `max` from minus infinity over a finite set is the set's supremum. -/
theorem fold_max_bot_eq_sup {ι : Type} (s : Finset ι) {b : EReal} (hb : b = ⊥) (f : ι → EReal) : s.fold max b f = s.sup f := by
  classical
  subst hb
  induction s using Finset.induction_on with
  | empty => rfl
  | insert a s ha ih => rw [Finset.fold_insert ha, Finset.sup_insert, ih]

/-- The word of minus infinity is the bottom of the extended reals. -/
theorem ofBits_neg_inf_f32 : Ideal.ofBits .f32 0xFF800000#32 = ⊥ := by simp [Ideal.ofBits, Ideal.ieee]

/-- The logits reduce along their rows. -/
theorem reduces_rows : S5000x20000.Reduces [1] S5000 := by decide

/-- The index over row `p` with `k` put on the reduced axis is `(p, k)`. -/
theorem lift_row (p : Fin 5000) (k : Fin 20000) : reduces_rows.lift (ix1 p) k = ix2 p k :=
  funext fun c => match c with
    | ⟨0, _⟩ => Fin.ext rfl
    | ⟨1, _⟩ => Fin.ext rfl

/-! ## The index maps of the layout steps, at coordinates -/

theorem idx_max_col (p : Fin 5000) (q : Fin 20000) : idx_main_v124 (idx_main_v125 (ix2 p q)) = ix1 p :=
  funext fun a => Fin.ext (by match a with | ⟨0, _⟩ => rfl)

theorem idx_sum_col (p : Fin 5000) (q : Fin 20000) : idx_main_v129 (idx_main_v130 (ix2 p q)) = ix1 p :=
  funext fun a => Fin.ext (by match a with | ⟨0, _⟩ => rfl)

theorem idx_sum_row (p : Fin 5000) (k : Fin 20000) : idx_main_v128 (ix1 p) k = ix2 p k :=
  funext fun a => Fin.ext (by match a with | ⟨0, _⟩ => rfl | ⟨1, _⟩ => rfl)

/-! ## The row maximum -/

/-- The reduction of `max` along row `p`, from minus infinity: the row's supremum. -/
theorem hostReduce_max_row (x : FVec Ideal S5000x20000 .f32) (init : S_.Idx → Ideal .f32)
    (hinit : init (Shape.Idx.first h_S_) = ⊥) (p : Fin 5000) :
    Host.reduce (FloatOps.maximumf (F := Ideal) (φ := .f32)) x init reducesTo_S5000x20000_S5000_d1 h_S_ (ix1 p)
      = Finset.univ.sup (fun q : Fin 20000 => x (ix2 p q)) := by
  rw [Host.reduce_eq_fold_single (FloatOps.maximumf (F := Ideal) (φ := .f32)) x init reducesTo_S5000x20000_S5000_d1
    reduces_rows h_S_]
  refine (fold_max_bot_eq_sup (Finset.univ : Finset (Fin 20000)) hinit
    (fun k => x (reduces_rows.lift (ix1 p) k))).trans ?_
  exact congrArg _ (funext fun k => congrArg x (lift_row p k))

/-- So is the reference's first reduction, read at row `p`. -/
theorem reduce_max_read (x6 : (⟨S5000x20000, .f32⟩ : BufTy).Contents (Elt Ideal)) (p : Fin 5000) :
    val_main_v121 (F := Ideal) x6 (ix1 p) = Cert.GcnSpec.rowmax (fun a b => x6 (ix2 a b)) p := by
  unfold val_main_v121 Cert.GcnSpec.rowmax
  exact hostReduce_max_row x6 (val_main_cst_30 (F := Ideal))
    (by rw [val_main_cst_30_apply, Ideal.ofBits_def, ofBits_neg_inf_f32]) p

/-- The larger of minus infinity and the row's supremum is the supremum. -/
theorem rowmax_read (x6 : (⟨S5000x20000, .f32⟩ : BufTy).Contents (Elt Ideal)) (p : Fin 5000) :
    val_main_v123 (F := Ideal) x6 (ix1 p) = Cert.GcnSpec.rowmax (fun a b => x6 (ix2 a b)) p := by
  rw [val_main_v123_apply, val_main_v122_apply, val_main_cst_31_apply, reduce_max_read, Ideal.maximumf_def, Ideal.ofBits_def,
    ofBits_neg_inf_f32]
  exact max_eq_right bot_le

/-- The spread row maxima anywhere in row `p`. -/
theorem max_spread_read (x6 : (⟨S5000x20000, .f32⟩ : BufTy).Contents (Elt Ideal)) (p : Fin 5000) (q : Fin 20000) :
    val_main_v125 (F := Ideal) x6 (ix2 p q) = Cert.GcnSpec.rowmax (fun a b => x6 (ix2 a b)) p := by
  rw [val_main_v125_apply, val_main_v124_apply, idx_max_col, rowmax_read]

/-- The exponentials of the logits less their row maxima. -/
theorem exp_read (x6 : (⟨S5000x20000, .f32⟩ : BufTy).Contents (Elt Ideal)) (p : Fin 5000) (q : Fin 20000) :
    val_main_v127 (F := Ideal) x6 (ix2 p q) = Ideal.exp (x6 (ix2 p q) - Cert.GcnSpec.rowmax (fun a b => x6 (ix2 a b)) p) := by
  rw [val_main_v127_apply, val_main_v126_apply, max_spread_read, Ideal.hostUnary_exp_def, Ideal.subf_def]

/-- The spread row sums anywhere in row `p`: zero plus the row's exponentials. -/
theorem sum_spread_read (x6 : (⟨S5000x20000, .f32⟩ : BufTy).Contents (Elt Ideal)) (p : Fin 5000) (q : Fin 20000) :
    val_main_v130 (F := Ideal) x6 (ix2 p q)
      = Cert.GcnSpec.zero + ∑ q' : Fin 20000, Ideal.exp (x6 (ix2 p q') - Cert.GcnSpec.rowmax (fun a b => x6 (ix2 a b)) p) := by
  rw [val_main_v130_apply, val_main_v129_apply, idx_sum_col, val_main_v128_apply, val_main_cst_32_apply, Ideal.ofBits_def]
  exact congrArg _ (Finset.sum_congr rfl fun k _ => by rw [idx_sum_row, exp_read])

/-! ## The result -/

/-- The reference's first result at row `p`, column `q`: the row softmax of the logits. -/
theorem ref_A (x6 : (⟨S5000x20000, .f32⟩ : BufTy).Contents (Elt Ideal)) (p : Fin 5000) (q : Fin 20000) :
    val_main_v131 (F := Ideal) x6 (ix2 p q) = Cert.GcnSpec.softmax (fun a b => x6 (ix2 a b)) p q := by
  rw [val_main_v131_apply, exp_read, sum_spread_read, Ideal.hostDivf_def]
  rfl

end Cert.ReferenceIdeal.Hand

end
-- ==== Proof.RefH.lean ====
/- The reference program's encoder result, read index by index.

   The reference computes two graph-convolution layers. Each layer counts a node's degree by scattering ones along the
   edge list's target line, raises it to the power minus one half, multiplies the two end nodes' powers into an edge
   coefficient, gathers the source rows of a matrix product, scales them by the coefficients, scatters them onto the
   targets from zero, and adds the node's own row over its degree; the first layer then adds a bias and applies the
   rectifier, the second adds a bias. Every index vector first goes through "if the word is negative, add the number
   of nodes", which is idle on a word that names a node.

   Under the hypothesis that the edge list's words spell two functions `row` and `col` into the nodes, each operation's
   value at an index is read from its operands at an index, down to the arguments; the accumulating scatters become
   sums over the edges that point at a node, the gathers become reads at an edge's end node. The result is the
   specification's two-layer function, stated over plain indices. -/
import proofs.«412470_j4346506903645_2_alg».proof.Proof.Gen.ReferenceIdeal.Read
import proofs.«412470_j4346506903645_2_alg».proof.Proof.GcnSpec
import proofs.«412470_j4346506903645_2_alg».proof.Proof.ScatterRead

noncomputable section

namespace Cert.RefH

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.ScatterRead
open scoped BigOperators

/-! ### Indices, index words, and sums over the edges a word selects -/

/-- A rank-1 index is determined by its coordinate's value. -/
theorem idx1_eq {n : Nat} (i : (⟨1, ![n]⟩ : Shape).Idx) (a : Fin n) (h0 : (i 0).val = a.val) : i = ix1 a := by
  rw [eq_ix1 i]; congr 1; exact Fin.ext h0

/-- A rank-2 index is determined by its two coordinates' values. -/
theorem idx2_eq {n0 n1 : Nat} (i : (⟨2, ![n0, n1]⟩ : Shape).Idx) (a : Fin n0) (b : Fin n1)
    (h0 : (i 0).val = a.val) (h1 : (i 1).val = b.val) : i = ix2 a b := by
  rw [eq_ix2 i]; congr 1
  · exact Fin.ext h0
  · exact Fin.ext h1

/-- A word that is not negative when read signed passes the "if negative, add the extent" wrap unchanged. -/
theorem wrap_eq (w k : BitVec 32) (h0 : 0 ≤ w.toInt) :
    Scalar.select (IntOp.cmpi .slt w 0#32) (IntOp.addi w k) w = w := by
  have hc : IntOp.cmpi .slt w 0#32 = 0#1 := by
    show BitVec.ofBool (decide (w.toInt < (0#32).toInt)) = 0#1
    have h : ¬ w.toInt < (0#32).toInt := by
      have : (0#32).toInt = 0 := by decide
      omega
    rw [decide_eq_false h]; rfl
  rw [hc, select_zero]

/-- A word that names a node is not negative. -/
theorem word_nonneg {N : Nat} {w : BitVec 32} {r : Fin N} (h : w.toInt = (r.val : Int)) : 0 ≤ w.toInt := by
  rw [h]; exact Int.natCast_nonneg _

/-- Summing over the edges whose index word reads `c` is summing over the edges that point at `c`. -/
theorem sum_filter_word {E N : Nat} (I : IVec ⟨2, ![E, 1]⟩ 32) (col : Fin E → Fin N)
    (hI : ∀ e, (I (ix2 e 0)).toInt = ((col e).val : Int)) (c : Fin N) (f g : Fin E → EReal)
    (hfg : ∀ e, col e = c → f e = g e) :
    ∑ e ∈ Finset.univ.filter (fun e : Fin E => (I (ix2 e 0)).toInt = (c.val : Int)), f e
      = ∑ e ∈ Finset.univ.filter (fun e => col e = c), g e := by
  refine Finset.sum_congr (Finset.filter_congr fun e _ => ?_) (fun e he => hfg e (Finset.mem_filter.1 he).2)
  rw [hI e]
  exact ⟨fun h => Fin.ext (by exact_mod_cast h), fun h => by rw [h]⟩

/-- The table gather at an edge whose index word names node `r` is the table's entry `r`. -/
theorem gather1_at {N E : Nat} (wf) (x : (⟨1, ![N]⟩ : Shape).Idx → EReal) (I : IVec ⟨2, ![E, 1]⟩ 32) (e : Fin E)
    (r : Fin N) (h : (I (ix2 e 0)).toInt = (r.val : Int)) :
    Host.gather (gdims1 N E wf) x I (ix1 e) = x (ix1 r) := by
  rw [gather1_apply wf x I e (word_nonneg h) (by rw [h]; exact_mod_cast r.isLt)]
  congr 2
  apply Fin.ext
  show (I (ix2 e 0)).toInt.toNat = r.val
  rw [h]; exact Int.toNat_natCast _

/-- The row gather at an edge whose index word names node `r` is the matrix's row `r`. -/
theorem gather2_at {N D E : Nat} (wf) (x : (⟨2, ![N, D]⟩ : Shape).Idx → EReal) (I : IVec ⟨2, ![E, 1]⟩ 32) (e : Fin E)
    (j : Fin D) (r : Fin N) (h : (I (ix2 e 0)).toInt = (r.val : Int)) :
    Host.gather (gdims2 N D E wf) x I (ix2 e j) = x (ix2 r j) := by
  rw [gather2_apply wf x I e j (word_nonneg h) (by rw [h]; exact_mod_cast r.isLt)]
  congr 2
  apply Fin.ext
  show (I (ix2 e 0)).toInt.toNat = r.val
  rw [h]; exact Int.toNat_natCast _

/-! ### The first layer, operation by operation -/

section Layer1

variable (x0 : (⟨S5000x2000, .f32⟩ : BufTy).Contents (Elt Ideal)) (x1 : (⟨S2x80000, .i32⟩ : BufTy).Contents (Elt Ideal))
  (x2 : (⟨S2000x64, .f32⟩ : BufTy).Contents (Elt Ideal)) (x3 : (⟨S64, .f32⟩ : BufTy).Contents (Elt Ideal))
  (row col : Fin 80000 → Fin 5000)

/-- The edge list's first line, the sources. -/
theorem v1_at (e : Fin 80000) : val_main_v1 (F := Ideal) x1 (ix1 e) = x1 (ix2 0 e) := by
  rw [val_main_v1_apply, val_main_v0_apply]
  congr 1
  exact idx2_eq _ 0 e rfl (Nat.mod_eq_of_lt e.isLt)

/-- The edge list's second line, the targets. -/
theorem v3_at (e : Fin 80000) : val_main_v3 (F := Ideal) x1 (ix1 e) = x1 (ix2 1 e) := by
  rw [val_main_v3_apply, val_main_v2_apply]
  congr 1
  exact idx2_eq _ 1 e rfl (Nat.mod_eq_of_lt e.isLt)

/-- The target column the degree count scatters by. -/
theorem c10 (hcol : ∀ e, (x1 (ix2 1 e)).toInt = ((col e).val : Int)) (e : Fin 80000) :
    (val_main_v10 (F := Ideal) x1 (ix2 e 0)).toInt = ((col e).val : Int) := by
  rw [val_main_v10_apply, idx1_eq (idx_main_v10 (ix2 e 0)) e rfl, val_main_v9_apply, val_main_v6_apply,
    val_main_v8_apply, val_main_v5_apply, val_main_c_apply, v3_at, wrap_eq _ _ (word_nonneg (hcol e)), hcol e]

/-- The source column the first power gather reads by. -/
theorem c23 (hrow : ∀ e, (x1 (ix2 0 e)).toInt = ((row e).val : Int)) (e : Fin 80000) :
    (val_main_v23 (F := Ideal) x1 (ix2 e 0)).toInt = ((row e).val : Int) := by
  rw [val_main_v23_apply, idx1_eq (idx_main_v23 (ix2 e 0)) e rfl, val_main_v22_apply, val_main_v19_apply,
    val_main_v21_apply, val_main_v18_apply, val_main_c_4_apply, v1_at, wrap_eq _ _ (word_nonneg (hrow e)), hrow e]

/-- The target column the second power gather reads by. -/
theorem c30 (hcol : ∀ e, (x1 (ix2 1 e)).toInt = ((col e).val : Int)) (e : Fin 80000) :
    (val_main_v30 (F := Ideal) x1 (ix2 e 0)).toInt = ((col e).val : Int) := by
  rw [val_main_v30_apply, idx1_eq (idx_main_v30 (ix2 e 0)) e rfl, val_main_v29_apply, val_main_v26_apply,
    val_main_v28_apply, val_main_v25_apply, val_main_c_6_apply, v3_at, wrap_eq _ _ (word_nonneg (hcol e)), hcol e]

/-- The source column the row gather reads by. -/
theorem c40 (hrow : ∀ e, (x1 (ix2 0 e)).toInt = ((row e).val : Int)) (e : Fin 80000) :
    (val_main_v40 (F := Ideal) x1 (ix2 e 0)).toInt = ((row e).val : Int) := by
  rw [val_main_v40_apply, idx1_eq (idx_main_v40 (ix2 e 0)) e rfl, val_main_v39_apply, val_main_v36_apply,
    val_main_v38_apply, val_main_v35_apply, val_main_c_9_apply, v1_at, wrap_eq _ _ (word_nonneg (hrow e)), hrow e]

/-- The target column the aggregation scatters by. -/
theorem c49 (hcol : ∀ e, (x1 (ix2 1 e)).toInt = ((col e).val : Int)) (e : Fin 80000) :
    (val_main_v49 (F := Ideal) x1 (ix2 e 0)).toInt = ((col e).val : Int) := by
  rw [val_main_v49_apply, idx1_eq (idx_main_v49 (ix2 e 0)) e rfl, val_main_v48_apply, val_main_v45_apply,
    val_main_v47_apply, val_main_v44_apply, val_main_c_11_apply, v3_at, wrap_eq _ _ (word_nonneg (hcol e)), hcol e]

/-- The degree: zeros, plus a one for every edge that points at the node, plus one. -/
theorem v14_at (hcol : ∀ e, (x1 (ix2 1 e)).toInt = ((col e).val : Int)) (c : Fin 5000) :
    val_main_v14 (F := Ideal) x1 (ix1 c) = GcnSpec.deg col c := by
  rw [val_main_v14_apply, val_main_v13_apply, val_main_cst_2_apply]
  unfold val_main_v12
  rw [show scatter_S5000_S80000x1_S80000_n_0_0_1 = dimsB 5000 80000 scatter_S5000_S80000x1_S80000_n_0_0_1_wf from rfl,
    hostScatterB_apply, val_main_v4_apply, val_main_cst_apply,
    sum_filter_word (val_main_v10 (F := Ideal) x1) col (c10 x1 col hcol) c _ (fun _ => GcnSpec.one)
      (fun e _ => by rw [val_main_v11_apply, val_main_cst_1_apply]; rfl)]
  rfl

/-- The degree to the power minus one half. -/
theorem v16_at (hcol : ∀ e, (x1 (ix2 1 e)).toInt = ((col e).val : Int)) (c : Fin 5000) :
    val_main_v16 (F := Ideal) x1 (ix1 c) = GcnSpec.dinv col c := by
  rw [val_main_v16_apply, v14_at x1 col hcol, val_main_v15_apply, val_main_cst_3_apply]
  rfl

/-- An edge's coefficient: the power at its source times the power at its target. -/
theorem v32_at (hrow : ∀ e, (x1 (ix2 0 e)).toInt = ((row e).val : Int))
    (hcol : ∀ e, (x1 (ix2 1 e)).toInt = ((col e).val : Int)) (e : Fin 80000) :
    val_main_v32 (F := Ideal) x1 (ix1 e) = GcnSpec.coef row col e := by
  have h24 : val_main_v24 (F := Ideal) x1 (ix1 e) = GcnSpec.dinv col (row e) := by
    unfold val_main_v24
    rw [show gather_S5000_S80000x1_S80000_n_0_n_n_0_1_1
        = gdims1 5000 80000 gather_S5000_S80000x1_S80000_n_0_n_n_0_1_1_wf from rfl,
      gather1_at _ _ _ e (row e) (c23 x1 row hrow e), v16_at x1 col hcol]
  have h31 : val_main_v31 (F := Ideal) x1 (ix1 e) = GcnSpec.dinv col (col e) := by
    unfold val_main_v31
    rw [show gather_S5000_S80000x1_S80000_n_0_n_n_0_1_1
        = gdims1 5000 80000 gather_S5000_S80000x1_S80000_n_0_n_n_0_1_1_wf from rfl,
      gather1_at _ _ _ e (col e) (c30 x1 col hcol e), v16_at x1 col hcol]
  rw [val_main_v32_apply, h24, h31]
  rfl

/-- An edge's update row: its source's row of the product, scaled by its coefficient. -/
theorem v43_at (hrow : ∀ e, (x1 (ix2 0 e)).toInt = ((row e).val : Int))
    (hcol : ∀ e, (x1 (ix2 1 e)).toInt = ((col e).val : Int)) (e : Fin 80000) (j : Fin 64) :
    val_main_v43 (F := Ideal) x0 x1 x2 (ix2 e j)
      = val_main_v17 (F := Ideal) x0 x2 (ix2 (row e) j) * GcnSpec.coef row col e := by
  have h41 : val_main_v41 (F := Ideal) x0 x1 x2 (ix2 e j) = val_main_v17 (F := Ideal) x0 x2 (ix2 (row e) j) := by
    unfold val_main_v41
    rw [show gather_S5000x64_S80000x1_S80000x64_1_0_n_n_0_1_164
        = gdims2 5000 64 80000 gather_S5000x64_S80000x1_S80000x64_1_0_n_n_0_1_164_wf from rfl,
      gather2_at _ _ _ e j (row e) (c40 x1 row hrow e)]
  rw [val_main_v43_apply, h41, val_main_v42_apply, idx2_eq (idx_main_v42 (ix2 e j)) e 0 rfl rfl, val_main_v33_apply,
    idx1_eq (idx_main_v33 (ix2 e 0)) e rfl, v32_at x1 row col hrow hcol]
  rfl

/-- The layer before its bias: the scatter of the update rows from zero, plus the node's own row over its degree. -/
theorem v56_at (hrow : ∀ e, (x1 (ix2 0 e)).toInt = ((row e).val : Int))
    (hcol : ∀ e, (x1 (ix2 1 e)).toInt = ((col e).val : Int)) (c : Fin 5000) (j : Fin 64) :
    val_main_v56 (F := Ideal) x0 x1 x2 (ix2 c j)
      = GcnSpec.layer row col (fun a k => val_main_v17 (F := Ideal) x0 x2 (ix2 a k)) c j := by
  have h50 : val_main_v50 (F := Ideal) x0 x1 x2 (ix2 c j)
      = GcnSpec.zero + ∑ e ∈ Finset.univ.filter (fun e => col e = c),
          val_main_v17 (F := Ideal) x0 x2 (ix2 (row e) j) * GcnSpec.coef row col e := by
    unfold val_main_v50
    rw [show scatter_S5000x64_S80000x1_S80000x64_1_0_0_1
        = dimsC 5000 64 80000 scatter_S5000x64_S80000x1_S80000x64_1_0_0_1_wf from rfl,
      hostScatterC_apply, val_main_v34_apply, val_main_cst_8_apply,
      sum_filter_word (val_main_v49 (F := Ideal) x1) col (c49 x1 col hcol) c _ _
        (fun e _ => v43_at x0 x1 x2 row col hrow hcol e j)]
    rfl
  have h54 : val_main_v54 (F := Ideal) x1 (ix2 c j) = GcnSpec.dg col c := by
    rw [val_main_v54_apply, idx2_eq (idx_main_v54 (ix2 c j)) c 0 rfl rfl, val_main_v53_apply,
      idx1_eq (idx_main_v53 (ix2 c 0)) c rfl, val_main_v52_apply, val_main_v51_apply, val_main_cst_13_apply,
      v14_at x1 col hcol]
    rfl
  rw [val_main_v56_apply, h50, val_main_v55_apply, h54]
  rfl

/-- The first layer's result: bias added, then the rectifier. -/
theorem v60_at (hrow : ∀ e, (x1 (ix2 0 e)).toInt = ((row e).val : Int))
    (hcol : ∀ e, (x1 (ix2 1 e)).toInt = ((col e).val : Int)) (c : Fin 5000) (j : Fin 64) :
    val_main_v60 (F := Ideal) x0 x1 x2 x3 (ix2 c j)
      = GcnSpec.relu (GcnSpec.layer row col (fun a k => val_main_v17 (F := Ideal) x0 x2 (ix2 a k)) c j + x3 (ix1 j)) := by
  rw [val_main_v60_apply, val_main_v59_apply, v56_at x0 x1 x2 row col hrow hcol, val_main_v58_apply,
    idx2_eq (idx_main_v58 (ix2 c j)) 0 j rfl rfl, val_main_v57_apply, idx1_eq (idx_main_v57 (ix2 0 j)) j rfl,
    val_main_call0_v0_apply, val_main_call0_cst_apply]
  rfl

/-- The first product, entry by entry. -/
theorem v17_at (a : Fin 5000) (k : Fin 64) :
    val_main_v17 (F := Ideal) x0 x2 (ix2 a k) = GcnSpec.mm (fun a k => x0 (ix2 a k)) (fun k q => x2 (ix2 k q)) a k := by
  rw [val_main_v17_apply]
  unfold GcnSpec.mm
  refine Finset.sum_congr rfl fun kk _ => ?_
  rw [idx2_eq (lidx_main_v17 (ix2 a k) kk) a kk rfl rfl, idx2_eq (ridx_main_v17 (ix2 a k) kk) kk k rfl rfl]

end Layer1

/-! ### The second layer, operation by operation

The program spells the second layer's operations again on fresh buffers: the edge list is sliced again, the degree
counted again, and the features it aggregates are the first layer's result times the second weight matrix. -/

section Layer2

variable (x0 : (⟨S5000x2000, .f32⟩ : BufTy).Contents (Elt Ideal)) (x1 : (⟨S2x80000, .i32⟩ : BufTy).Contents (Elt Ideal))
  (x2 : (⟨S2000x64, .f32⟩ : BufTy).Contents (Elt Ideal)) (x3 : (⟨S64, .f32⟩ : BufTy).Contents (Elt Ideal))
  (x4 : (⟨S64x32, .f32⟩ : BufTy).Contents (Elt Ideal)) (x5 : (⟨S32, .f32⟩ : BufTy).Contents (Elt Ideal))
  (row col : Fin 80000 → Fin 5000)

/-- The sources, sliced a second time. -/
theorem v62_at (e : Fin 80000) : val_main_v62 (F := Ideal) x1 (ix1 e) = x1 (ix2 0 e) := by
  rw [val_main_v62_apply, val_main_v61_apply]
  congr 1
  exact idx2_eq _ 0 e rfl (Nat.mod_eq_of_lt e.isLt)

/-- The targets, sliced a second time. -/
theorem v64_at (e : Fin 80000) : val_main_v64 (F := Ideal) x1 (ix1 e) = x1 (ix2 1 e) := by
  rw [val_main_v64_apply, val_main_v63_apply]
  congr 1
  exact idx2_eq _ 1 e rfl (Nat.mod_eq_of_lt e.isLt)

/-- The target column the second degree count scatters by. -/
theorem c71 (hcol : ∀ e, (x1 (ix2 1 e)).toInt = ((col e).val : Int)) (e : Fin 80000) :
    (val_main_v71 (F := Ideal) x1 (ix2 e 0)).toInt = ((col e).val : Int) := by
  rw [val_main_v71_apply, idx1_eq (idx_main_v71 (ix2 e 0)) e rfl, val_main_v70_apply, val_main_v67_apply,
    val_main_v69_apply, val_main_v66_apply, val_main_c_15_apply, v64_at, wrap_eq _ _ (word_nonneg (hcol e)), hcol e]

/-- The source column of the second layer's first power gather. -/
theorem c84 (hrow : ∀ e, (x1 (ix2 0 e)).toInt = ((row e).val : Int)) (e : Fin 80000) :
    (val_main_v84 (F := Ideal) x1 (ix2 e 0)).toInt = ((row e).val : Int) := by
  rw [val_main_v84_apply, idx1_eq (idx_main_v84 (ix2 e 0)) e rfl, val_main_v83_apply, val_main_v80_apply,
    val_main_v82_apply, val_main_v79_apply, val_main_c_20_apply, v62_at, wrap_eq _ _ (word_nonneg (hrow e)), hrow e]

/-- The target column of the second layer's second power gather. -/
theorem c91 (hcol : ∀ e, (x1 (ix2 1 e)).toInt = ((col e).val : Int)) (e : Fin 80000) :
    (val_main_v91 (F := Ideal) x1 (ix2 e 0)).toInt = ((col e).val : Int) := by
  rw [val_main_v91_apply, idx1_eq (idx_main_v91 (ix2 e 0)) e rfl, val_main_v90_apply, val_main_v87_apply,
    val_main_v89_apply, val_main_v86_apply, val_main_c_22_apply, v64_at, wrap_eq _ _ (word_nonneg (hcol e)), hcol e]

/-- The source column of the second layer's row gather. -/
theorem c101 (hrow : ∀ e, (x1 (ix2 0 e)).toInt = ((row e).val : Int)) (e : Fin 80000) :
    (val_main_v101 (F := Ideal) x1 (ix2 e 0)).toInt = ((row e).val : Int) := by
  rw [val_main_v101_apply, idx1_eq (idx_main_v101 (ix2 e 0)) e rfl, val_main_v100_apply, val_main_v97_apply,
    val_main_v99_apply, val_main_v96_apply, val_main_c_25_apply, v62_at, wrap_eq _ _ (word_nonneg (hrow e)), hrow e]

/-- The target column the second aggregation scatters by. -/
theorem c110 (hcol : ∀ e, (x1 (ix2 1 e)).toInt = ((col e).val : Int)) (e : Fin 80000) :
    (val_main_v110 (F := Ideal) x1 (ix2 e 0)).toInt = ((col e).val : Int) := by
  rw [val_main_v110_apply, idx1_eq (idx_main_v110 (ix2 e 0)) e rfl, val_main_v109_apply, val_main_v106_apply,
    val_main_v108_apply, val_main_v105_apply, val_main_c_27_apply, v64_at, wrap_eq _ _ (word_nonneg (hcol e)), hcol e]

/-- The degree, counted again. -/
theorem v75_at (hcol : ∀ e, (x1 (ix2 1 e)).toInt = ((col e).val : Int)) (c : Fin 5000) :
    val_main_v75 (F := Ideal) x1 (ix1 c) = GcnSpec.deg col c := by
  rw [val_main_v75_apply, val_main_v74_apply, val_main_cst_18_apply]
  unfold val_main_v73
  rw [show scatter_S5000_S80000x1_S80000_n_0_0_1 = dimsB 5000 80000 scatter_S5000_S80000x1_S80000_n_0_0_1_wf from rfl,
    hostScatterB_apply, val_main_v65_apply, val_main_cst_14_apply,
    sum_filter_word (val_main_v71 (F := Ideal) x1) col (c71 x1 col hcol) c _ (fun _ => GcnSpec.one)
      (fun e _ => by rw [val_main_v72_apply, val_main_cst_17_apply]; rfl)]
  rfl

/-- The degree to the power minus one half, again. -/
theorem v77_at (hcol : ∀ e, (x1 (ix2 1 e)).toInt = ((col e).val : Int)) (c : Fin 5000) :
    val_main_v77 (F := Ideal) x1 (ix1 c) = GcnSpec.dinv col c := by
  rw [val_main_v77_apply, v75_at x1 col hcol, val_main_v76_apply, val_main_cst_19_apply]
  rfl

/-- An edge's coefficient, again. -/
theorem v93_at (hrow : ∀ e, (x1 (ix2 0 e)).toInt = ((row e).val : Int))
    (hcol : ∀ e, (x1 (ix2 1 e)).toInt = ((col e).val : Int)) (e : Fin 80000) :
    val_main_v93 (F := Ideal) x1 (ix1 e) = GcnSpec.coef row col e := by
  have h85 : val_main_v85 (F := Ideal) x1 (ix1 e) = GcnSpec.dinv col (row e) := by
    unfold val_main_v85
    rw [show gather_S5000_S80000x1_S80000_n_0_n_n_0_1_1
        = gdims1 5000 80000 gather_S5000_S80000x1_S80000_n_0_n_n_0_1_1_wf from rfl,
      gather1_at _ _ _ e (row e) (c84 x1 row hrow e), v77_at x1 col hcol]
  have h92 : val_main_v92 (F := Ideal) x1 (ix1 e) = GcnSpec.dinv col (col e) := by
    unfold val_main_v92
    rw [show gather_S5000_S80000x1_S80000_n_0_n_n_0_1_1
        = gdims1 5000 80000 gather_S5000_S80000x1_S80000_n_0_n_n_0_1_1_wf from rfl,
      gather1_at _ _ _ e (col e) (c91 x1 col hcol e), v77_at x1 col hcol]
  rw [val_main_v93_apply, h85, h92]
  rfl

/-- An edge's update row in the second layer. -/
theorem v104_at (hrow : ∀ e, (x1 (ix2 0 e)).toInt = ((row e).val : Int))
    (hcol : ∀ e, (x1 (ix2 1 e)).toInt = ((col e).val : Int)) (e : Fin 80000) (j : Fin 32) :
    val_main_v104 (F := Ideal) x0 x1 x2 x3 x4 (ix2 e j)
      = val_main_v78 (F := Ideal) x0 x1 x2 x3 x4 (ix2 (row e) j) * GcnSpec.coef row col e := by
  have h102 : val_main_v102 (F := Ideal) x0 x1 x2 x3 x4 (ix2 e j)
      = val_main_v78 (F := Ideal) x0 x1 x2 x3 x4 (ix2 (row e) j) := by
    unfold val_main_v102
    rw [show gather_S5000x32_S80000x1_S80000x32_1_0_n_n_0_1_132
        = gdims2 5000 32 80000 gather_S5000x32_S80000x1_S80000x32_1_0_n_n_0_1_132_wf from rfl,
      gather2_at _ _ _ e j (row e) (c101 x1 row hrow e)]
  rw [val_main_v104_apply, h102, val_main_v103_apply, idx2_eq (idx_main_v103 (ix2 e j)) e 0 rfl rfl,
    val_main_v94_apply, idx1_eq (idx_main_v94 (ix2 e 0)) e rfl, v93_at x1 row col hrow hcol]
  rfl

/-- The second layer before its bias. -/
theorem v117_at (hrow : ∀ e, (x1 (ix2 0 e)).toInt = ((row e).val : Int))
    (hcol : ∀ e, (x1 (ix2 1 e)).toInt = ((col e).val : Int)) (c : Fin 5000) (j : Fin 32) :
    val_main_v117 (F := Ideal) x0 x1 x2 x3 x4 (ix2 c j)
      = GcnSpec.layer row col (fun a k => val_main_v78 (F := Ideal) x0 x1 x2 x3 x4 (ix2 a k)) c j := by
  have h111 : val_main_v111 (F := Ideal) x0 x1 x2 x3 x4 (ix2 c j)
      = GcnSpec.zero + ∑ e ∈ Finset.univ.filter (fun e => col e = c),
          val_main_v78 (F := Ideal) x0 x1 x2 x3 x4 (ix2 (row e) j) * GcnSpec.coef row col e := by
    unfold val_main_v111
    rw [show scatter_S5000x32_S80000x1_S80000x32_1_0_0_1
        = dimsC 5000 32 80000 scatter_S5000x32_S80000x1_S80000x32_1_0_0_1_wf from rfl,
      hostScatterC_apply, val_main_v95_apply, val_main_cst_24_apply,
      sum_filter_word (val_main_v110 (F := Ideal) x1) col (c110 x1 col hcol) c _ _
        (fun e _ => v104_at x0 x1 x2 x3 x4 row col hrow hcol e j)]
    rfl
  have h115 : val_main_v115 (F := Ideal) x1 (ix2 c j) = GcnSpec.dg col c := by
    rw [val_main_v115_apply, idx2_eq (idx_main_v115 (ix2 c j)) c 0 rfl rfl, val_main_v114_apply,
      idx1_eq (idx_main_v114 (ix2 c 0)) c rfl, val_main_v113_apply, val_main_v112_apply, val_main_cst_29_apply,
      v75_at x1 col hcol]
    rfl
  rw [val_main_v117_apply, h111, val_main_v116_apply, h115]
  rfl

/-- The second product, entry by entry: the first layer's result against the second weight matrix. -/
theorem v78_at (hrow : ∀ e, (x1 (ix2 0 e)).toInt = ((row e).val : Int))
    (hcol : ∀ e, (x1 (ix2 1 e)).toInt = ((col e).val : Int)) (a : Fin 5000) (k : Fin 32) :
    val_main_v78 (F := Ideal) x0 x1 x2 x3 x4 (ix2 a k)
      = ∑ kk : Fin 64, GcnSpec.relu (GcnSpec.layer row col
            (GcnSpec.mm (fun a k => x0 (ix2 a k)) (fun k q => x2 (ix2 k q))) a kk + x3 (ix1 kk)) * x4 (ix2 kk k) := by
  have h17 : (fun a k => val_main_v17 (F := Ideal) x0 x2 (ix2 a k))
      = GcnSpec.mm (fun a k => x0 (ix2 a k)) (fun k q => x2 (ix2 k q)) :=
    funext fun a => funext fun k => v17_at x0 x2 a k
  rw [val_main_v78_apply]
  refine Finset.sum_congr rfl fun kk _ => ?_
  rw [idx2_eq (lidx_main_v78 (ix2 a k) kk) a kk rfl rfl, idx2_eq (ridx_main_v78 (ix2 a k) kk) kk k rfl rfl,
    v60_at x0 x1 x2 x3 row col hrow hcol, h17]

end Layer2

/-! ### The encoder's result -/

/-- The reference's encoder result at `(p, j)` is the two-layer specification over the edge list `row`, `col` that the
    index words spell. -/
theorem ref_h2 (m : (ℓ : Loc nD τ sig) → Buf (Elt Ideal) ℓ) (c : Dev nD) (row col : Fin 80000 → Fin 5000)
    (hrow : ∀ e : Fin 80000, (m ((c.tc : Thread nD τ).loc main_arg1) (ix2 0 e)).toInt = ((row e).val : Int))
    (hcol : ∀ e : Fin 80000, (m ((c.tc : Thread nD τ).loc main_arg1) (ix2 1 e)).toInt = ((col e).val : Int))
    (p : Fin 5000) (j : Fin 32) :
    Cert.ReferenceIdeal.Value.res_main_v120 (F := Ideal) m c (ix2 p j)
      = Cert.GcnSpec.h2 row col (fun a k => m ((c.tc : Thread nD τ).loc main_arg0) (ix2 a k))
          (fun k q => m ((c.tc : Thread nD τ).loc main_arg2) (ix2 k q))
          (fun q => m ((c.tc : Thread nD τ).loc main_arg3) (ix1 q))
          (fun k q => m ((c.tc : Thread nD τ).loc main_arg4) (ix2 k q))
          (fun q => m ((c.tc : Thread nD τ).loc main_arg5) (ix1 q)) p j := by
  have hX : (fun a k => val_main_v78 (F := Ideal) (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4)) (ix2 a k))
      = GcnSpec.mm (fun a k => GcnSpec.relu (GcnSpec.layer row col
            (GcnSpec.mm (fun a k => m ((c.tc : Thread nD τ).loc main_arg0) (ix2 a k))
              (fun k q => m ((c.tc : Thread nD τ).loc main_arg2) (ix2 k q))) a k
            + m ((c.tc : Thread nD τ).loc main_arg3) (ix1 k)))
          (fun k q => m ((c.tc : Thread nD τ).loc main_arg4) (ix2 k q)) :=
    funext fun a => funext fun k => v78_at _ _ _ _ _ row col hrow hcol a k
  rw [val_main_v120_eq, val_main_v120_apply, v117_at _ _ _ _ _ row col hrow hcol, hX, val_main_v119_apply,
    idx2_eq (idx_main_v119 (ix2 p j)) 0 j rfl rfl, val_main_v118_apply, idx1_eq (idx_main_v118 (ix2 0 j)) j rfl]
  rfl

end Cert.RefH

end
-- ==== Proof.PreDecode.lean ====
import proofs.«412470_j4346506903645_2_alg».proof.Pre_finite_inputs
import proofs.«412470_j4346506903645_2_alg».proof.Proof.Gen.Pre_finite_inputs
import Idealize.ShloMosaic.Lib.ReduceAll
import Idealize.ShloMosaic.Lib.Affine
import Idealize.ShloMosaic.Lib.ValueIdx
import Idealize.ShloMosaic.PureOps.Ideal

/-!
# The edge list is in range

The precondition's last two conjuncts say that every word of the edge list is at least `0` and less than `5000`, as signed
integers. Read off the printed predicate: the conjunction is all ones, so each of the two closing "all" reductions is one,
so each compared word passes its comparison.
-/

noncomputable section

namespace Cert.PreDecode

open Idealize.ShloMosaic Cert.Pre_finite_inputs

variable [Cert.Pre_finite_inputs.Facts]

instance : Subsingleton S_.Idx := ⟨fun a b => funext fun d => d.elim0⟩

/-- If the precondition holds of the argument arrays, every word of the edge list lies in `[0, 5000)`. -/
theorem range_of_pre {F : FTy → Type} [FloatOps F] (a0 : FVec F S5000x2000 .f32) (a1 : IVec S2x80000 32) (a2 : FVec F S2000x64 .f32) (a3 : FVec F S64 .f32)
    (a4 : FVec F S64x32 .f32) (a5 : FVec F S32 .f32) (a6 : FVec F S5000x20000 .f32) (a7 : FVec F S20000x20 .f32) (a8 : FVec F S20x32 .f32)
    (a9 : FVec F S32x256 .f32) (a10 : FVec F S256 .f32) (a11 : FVec F S256x2000 .f32) (a12 : FVec F S2000 .f32)
    (h : fn (F := F) a0 a1 a2 a3 a4 a5 a6 a7 a8 a9 a10 a11 a12 = fun _ => 1#1) (i : S2x80000.Idx) :
    0 ≤ (a1 i).toInt ∧ (a1 i).toInt < 5000 := by
  have h0 := congrFun h ValueIdx.ix0
  dsimp only [fn, fn_part1, fn_part2, fn_part3] at h0
  obtain ⟨h1, hlt⟩ := IntOp.andi_eq_one.mp h0
  obtain ⟨_, hge⟩ := IntOp.andi_eq_one.mp h1
  have hge' := Host.reduce_andi_all _ _ _ _ _ hge i
  have hlt' := Host.reduce_andi_all _ _ _ _ _ hlt i
  have e0 : (0#32 : BitVec 32).toInt = 0 := by decide
  have e5 : (5000#32 : BitVec 32).toInt = 5000 := by decide
  constructor
  · have h2 : (0#32 : BitVec 32).toInt ≤ (a1 i).toInt := IntOp.cmpi_sge.mp hge'
    rw [e0] at h2
    exact h2
  · have h2 : (a1 i).toInt < (5000#32 : BitVec 32).toInt := IntOp.cmpi_slt.mp hlt'
    rw [e5] at h2
    exact h2

end Cert.PreDecode

end
-- ==== Proof.EdgeIdx.lean ====
import proofs.«412470_j4346506903645_2_alg».proof.Proof.PreDecode

/-!
# The edge list as two maps into the nodes

Under the precondition every word of the edge list is a node number in `[0, 5000)`: the sources (`row`) and the targets
(`col`) of the 80000 edges are maps into `Fin 5000` whose values are the words.
-/

noncomputable section

namespace Cert.EdgeIdx

open Idealize.ShloMosaic Idealize.ShloMosaic.ValueIdx

/-- The node a word of the edge list names (any word is sent into range; under the precondition nothing is changed). -/
def nodeOf (a1 : IVec (⟨2, ![2, 80000]⟩ : Shape) 32) (s : Fin 2) (e : Fin 80000) : Fin 5000 :=
  ⟨(a1 (ix2 s e)).toInt.toNat % 5000, Nat.mod_lt _ (by decide)⟩

theorem nodeOf_spec (a1 : IVec (⟨2, ![2, 80000]⟩ : Shape) 32)
    (h : ∀ i, 0 ≤ (a1 i).toInt ∧ (a1 i).toInt < 5000) (s : Fin 2) (e : Fin 80000) :
    (a1 (ix2 s e)).toInt = ((nodeOf a1 s e).val : Int) := by
  obtain ⟨h0, h1⟩ := h (ix2 s e)
  simp only [nodeOf]
  omega

end Cert.EdgeIdx

end
-- ==== Proof.Algebraic.lean ====
import proofs.«412470_j4346506903645_2_alg».proof.Defs
import proofs.«412470_j4346506903645_2_alg».proof.Proof.Gen.KernelIdeal
import proofs.«412470_j4346506903645_2_alg».proof.Proof.Gen.ReferenceIdeal
import proofs.«412470_j4346506903645_2_alg».proof.Proof.Gen.Pre_finite_inputs
import proofs.«412470_j4346506903645_2_alg».proof.Proof.KIRun
import proofs.«412470_j4346506903645_2_alg».proof.Proof.KIHost
import proofs.«412470_j4346506903645_2_alg».proof.Proof.KIFrame
import proofs.«412470_j4346506903645_2_alg».proof.Proof.KITail
import proofs.«412470_j4346506903645_2_alg».proof.Proof.KIComb
import proofs.«412470_j4346506903645_2_alg».proof.Proof.KIAdj
import proofs.«412470_j4346506903645_2_alg».proof.Proof.KIValA
import proofs.«412470_j4346506903645_2_alg».proof.Proof.RefA
import proofs.«412470_j4346506903645_2_alg».proof.Proof.RefH
import proofs.«412470_j4346506903645_2_alg».proof.Proof.EdgeIdx

/-!
# The two idealized programs end with equal results

Run from memories that agree on the arguments, the idealized kernel program and the idealized reference both terminate, and
their five results agree entry by entry over the extended reals:
* the row softmax of `U`: the kernel region's rows and the reference's host softmax are both `GcnSpec.softmax`;
* the softmax of `V` and the decoder product: the two programs apply the same host operations;
* the encoder: both are `GcnSpec.h2` of the same edge maps — the kernel through the dense normalized adjacency matrix, the
  reference through its row scatter; the two arrangements agree because every coefficient is nonnegative;
* `F` is returned as given.
The edge maps exist because the precondition puts every word of the edge list in `[0, 5000)`.
-/

set_option maxRecDepth 16384

noncomputable section

namespace Cert.Proof.Alg

open Idealize.ShloMosaic Idealize.ShloMosaic.TcCoe Idealize.SL.Sem Idealize.ShloMosaic.ValueIdx
open Cert.KernelIdeal.Hand

variable [hK : Cert.KernelIdeal.Facts] [hR : Cert.ReferenceIdeal.Facts] [hP : Cert.Pre_finite_inputs.Facts]

theorem algebraic : Cert.algebraic_KernelIdeal_ReferenceIdeal := by
  intro m ρ m' ρ' hpre hagree
  refine ⟨fun c => W12 m ρ c (Proc.devRef .tc Cert.KernelIdeal.main_v75), fun c => W12 m ρ c (Proc.devRef .tc Cert.KernelIdeal.main_v86),
    fun c => W12 m ρ c (Proc.devRef .tc Cert.KernelIdeal.main_v74), fun c => W12 m ρ c (Proc.devRef .tc Cert.KernelIdeal.main_v103),
    fun c => W12 m ρ c (Proc.devRef .tc Cert.KernelIdeal.main_arg8), ?_, ?_⟩
  · -- the kernel program: every unscoped buffer ends at the last contents; the arguments are the launch's
    refine (θ_run Cert.KernelIdeal.defs _ _).mono (fun r h c => ⟨h c _ (mem_uc _ (by decide)), h c _ (mem_uc _ (by decide)),
      h c _ (mem_uc _ (by decide)), h c _ (mem_uc _ (by decide)), h c _ (mem_uc _ (by decide)),
      (h c _ (mem_uc Cert.KernelIdeal.main_arg0 (by decide))).trans (W12_main_arg0 m ρ c),
      (h c _ (mem_uc Cert.KernelIdeal.main_arg1 (by decide))).trans (W12_main_arg1 m ρ c),
      (h c _ (mem_uc Cert.KernelIdeal.main_arg2 (by decide))).trans (W12_main_arg2 m ρ c),
      (h c _ (mem_uc Cert.KernelIdeal.main_arg3 (by decide))).trans (W12_main_arg3 m ρ c),
      (h c _ (mem_uc Cert.KernelIdeal.main_arg4 (by decide))).trans (W12_main_arg4 m ρ c),
      (h c _ (mem_uc Cert.KernelIdeal.main_arg5 (by decide))).trans (W12_main_arg5 m ρ c),
      (h c _ (mem_uc Cert.KernelIdeal.main_arg6 (by decide))).trans (W12_main_arg6 m ρ c),
      (h c _ (mem_uc Cert.KernelIdeal.main_arg7 (by decide))).trans (W12_main_arg7 m ρ c),
      (h c _ (mem_uc Cert.KernelIdeal.main_arg8 (by decide))).trans (W12_main_arg8 m ρ c),
      (h c _ (mem_uc Cert.KernelIdeal.main_arg9 (by decide))).trans (W12_main_arg9 m ρ c),
      (h c _ (mem_uc Cert.KernelIdeal.main_arg10 (by decide))).trans (W12_main_arg10 m ρ c),
      (h c _ (mem_uc Cert.KernelIdeal.main_arg11 (by decide))).trans (W12_main_arg11 m ρ c),
      (h c _ (mem_uc Cert.KernelIdeal.main_arg12 (by decide))).trans (W12_main_arg12 m ρ c)⟩) (run_all m ρ)
  · -- the reference: its run's terms are the kernel's final contents
    refine (θ_run Cert.ReferenceIdeal.defs _ _).mono (fun r h c => ⟨(h c).1.trans ?_, (h c).2.1.trans ?_, (h c).2.2.1.trans ?_,
      (h c).2.2.2.1.trans ?_, (h c).2.2.2.2.1.trans ?_, (h c).2.2.2.2.2⟩) (Cert.ReferenceIdeal.Value.run (F := Ideal) m' ρ')
    · -- the row softmax of U: both are the specification's softmax of the rows of U
      show Cert.ReferenceIdeal.Read.val_main_v131 (F := Ideal) (m' ((c.tc : Thread Cert.ReferenceIdeal.nD Cert.ReferenceIdeal.τ).loc Cert.ReferenceIdeal.main_arg6)) = W12 m ρ c (Proc.devRef .tc Cert.KernelIdeal.main_v75)
      rw [(hagree c).2.2.2.2.2.2.1, W12_v75 m ρ c]
      funext i
      obtain ⟨p, q, rfl⟩ : ∃ (p : Fin 5000) (q : Fin 20000), i = ix2 p q := ⟨i 0, i 1, eq_ix2 i⟩
      rw [val3 (V8 m ρ) c p q, V8_arg6 m ρ c]
      exact Cert.ReferenceIdeal.Hand.ref_A _ p q
    · -- the softmax of V: the same host operations on the same argument
      show refB (m' ((c.tc : Thread Cert.ReferenceIdeal.nD Cert.ReferenceIdeal.τ).loc Cert.ReferenceIdeal.main_arg7)) = W12 m ρ c (Proc.devRef .tc Cert.KernelIdeal.main_v86)
      rw [(hagree c).2.2.2.2.2.2.2.1, W12_v86 m ρ c]
    · -- the encoder: both are the specification's two layers over the edge maps the precondition gives
      show Cert.ReferenceIdeal.Value.res_main_v120 (F := Ideal) m' c = W12 m ρ c (Proc.devRef .tc Cert.KernelIdeal.main_v74)
      have hrange := Cert.PreDecode.range_of_pre _ _ _ _ _ _ _ _ _ _ _ _ _ (hpre c)
      have hrow : ∀ e : Fin 80000, (m ((c.tc : Thread Cert.KernelIdeal.nD Cert.KernelIdeal.τ).loc Cert.KernelIdeal.main_arg1) (ix2 0 e)).toInt = ((Cert.EdgeIdx.nodeOf (m ((c.tc : Thread Cert.KernelIdeal.nD Cert.KernelIdeal.τ).loc Cert.KernelIdeal.main_arg1)) 0 e).val : Int) :=
        Cert.EdgeIdx.nodeOf_spec _ hrange 0
      have hcol : ∀ e : Fin 80000, (m ((c.tc : Thread Cert.KernelIdeal.nD Cert.KernelIdeal.τ).loc Cert.KernelIdeal.main_arg1) (ix2 1 e)).toInt = ((Cert.EdgeIdx.nodeOf (m ((c.tc : Thread Cert.KernelIdeal.nD Cert.KernelIdeal.τ).loc Cert.KernelIdeal.main_arg1)) 1 e).val : Int) :=
        Cert.EdgeIdx.nodeOf_spec _ hrange 1
      funext i
      obtain ⟨p, j, rfl⟩ : ∃ (p : Fin 5000) (j : Fin 32), i = ix2 p j := ⟨i 0, i 1, eq_ix2 i⟩
      rw [Cert.RefH.ref_h2 m' c _ _ (by rw [(hagree c).2.1]; exact hrow) (by rw [(hagree c).2.1]; exact hcol) p j,
        kernel_h2 m ρ c _ _ hrow hcol p j,
        (hagree c).1, (hagree c).2.2.1, (hagree c).2.2.2.1, (hagree c).2.2.2.2.1, (hagree c).2.2.2.2.2.1]
    · -- the decoder product: the same host operations on the same arguments
      show refM (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = W12 m ρ c (Proc.devRef .tc Cert.KernelIdeal.main_v103)
      rw [(hagree c).2.2.2.2.2.2.2.1, (hagree c).2.2.2.2.2.2.2.2.1, (hagree c).2.2.2.2.2.2.2.2.2.1, (hagree c).2.2.2.2.2.2.2.2.2.2.1,
        (hagree c).2.2.2.2.2.2.2.2.2.2.2.1, (hagree c).2.2.2.2.2.2.2.2.2.2.2.2, W12_v103 m ρ c]
    · -- F is returned as given
      show _ = W12 m ρ c (Proc.devRef .tc Cert.KernelIdeal.main_arg8)
      rw [(hagree c).2.2.2.2.2.2.2.2.1, W12_main_arg8 m ρ c]

end Cert.Proof.Alg

end
-- ==== Proof.lean ====
/-
  The certificate of a graph-convolution encoder with a cell-type softmax and a small decoder, as a TPU program of four kernel
  regions against its plain reference, over the extended reals.

  The kernel program builds the dense normalized adjacency matrix `Adj` of the edge list once — the edge coefficients
  `deg(row)^(-1/2) · deg(col)^(-1/2)` scattered at `(col, row)`, then `1 / deg` on the diagonal — and runs both aggregations as
  matrix products `Adj · X` on the matrix unit (regions 1 and 2; region 0 is the product `z · W₁`); the reference scatters the rows
  `X[row] · coef` into the rows `col` and adds `X · (1 / deg)`. Entry `(c, j)` of `Adj · X` is
  `Σ_r (Σ_{e : col e = c, row e = r} coef e + [c = r] / deg c) · X r j`; every coefficient is nonnegative, so the product distributes
  over the inner sums whatever extended reals `X` holds, and regrouping the double sum by edges gives the reference's
  `Σ_{e : col e = c} X (row e) j · coef e + X c j / deg c`. Region 3 is the row softmax of `U` in blocks of 64 rows, the last block
  cut at the array's end; a row's softmax reads that row only, so the rows inside the array are the reference's. The softmax of
  `V`, its column mean and the decoder product are the same host operations in both programs. The statement carries the domain
  of the edge list: every word in `[0, 5000)` — outside it the reference's row gather clamps where the kernel's two-index scatter
  drops, and the two differ.

  The three frames: the kernel program at both instances runs as twelve items (host stretches and the four regions), each
  region's body run once per grid point on its staging buffers; no item writes an argument. At the bit-exact instance the row
  sum is an opaque function of the whole block and the cut block's tail is not named, so region 3 says nothing of what it
  leaves in its result; the frame does not read it. The reference is host operations only.
-/
import proofs.«412470_j4346506903645_2_alg».proof.Defs
import proofs.«412470_j4346506903645_2_alg».proof.Proof.Gen.Kernel
import proofs.«412470_j4346506903645_2_alg».proof.Proof.Gen.KernelIdeal
import proofs.«412470_j4346506903645_2_alg».proof.Proof.Gen.ReferenceIdeal
import proofs.«412470_j4346506903645_2_alg».proof.Proof.Gen.ReferenceIdeal.Run
import proofs.«412470_j4346506903645_2_alg».proof.Proof.Gen.Pre_finite_inputs
import proofs.«412470_j4346506903645_2_alg».proof.Proof.KBRun
import proofs.«412470_j4346506903645_2_alg».proof.Proof.KIFrame
import proofs.«412470_j4346506903645_2_alg».proof.Proof.Algebraic

noncomputable section

namespace Cert.Proof

open Idealize.ShloMosaic Idealize.SL.Sem

/-- The kernel program as printed, at the bit-exact instance, keeps its arguments. -/
theorem frame_p [Cert.Kernel.Facts] [Cert.Pre_finite_inputs.Facts] : Cert.frame_Kernel :=
  fun m ρ _ => Cert.Kernel.Hand.frame m ρ

/-- The idealized kernel program keeps its arguments. -/
theorem frame_pi [Cert.KernelIdeal.Facts] [Cert.Pre_finite_inputs.Facts] : Cert.frame_KernelIdeal :=
  fun m ρ _ => Cert.KernelIdeal.Hand.frame_ideal m ρ

/-- The reference is host operations only: its run, with the results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2.2.2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_p, frame_pi, frame_ri, trivial, Cert.Proof.Alg.algebraic⟩

end Cert.Proof

end
